-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128x64 .f32) (main_arg10 : FVec F S64 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S10000x128 .f32) (main_arg1 : FVec F S10000x10000 .f32) (main_arg2 : IVec S10000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S25x1x400 : Shape := ⟨3, ![25, 1, 400]⟩
abbrev S1x10000 : Shape := ⟨2, ![1, 10000]⟩
abbrev S1x128 : Shape := ⟨2, ![1, 128]⟩
abbrev S64x10000 : Shape := ⟨2, ![64, 10000]⟩
abbrev S400x10000 : Shape := ⟨2, ![400, 10000]⟩
abbrev S400x128 : Shape := ⟨2, ![400, 128]⟩
abbrev S1x1x400 : Shape := ⟨3, ![1, 1, 400]⟩
abbrev S400 : Shape := ⟨1, ![400]⟩
abbrev S64x400 : Shape := ⟨2, ![64, 400]⟩
abbrev S1x400 : Shape := ⟨2, ![1, 400]⟩
abbrev S1x64 : Shape := ⟨2, ![1, 64]⟩
abbrev S64x64 : Shape := ⟨2, ![64, 64]⟩
abbrev S64x128 : Shape := ⟨2, ![64, 128]⟩
abbrev S64x1 : Shape := ⟨2, ![64, 1]⟩

abbrev nBuf : Space → Nat
  | .hbm => 28
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128, .f32⟩
  | .hbm, ⟨12, _⟩ => ⟨S128, .f32⟩
  | .hbm, ⟨13, _⟩ => ⟨S25x1x400, .i32⟩
  | .hbm, ⟨14, _⟩ => ⟨S1x10000, .i32⟩
  | .hbm, ⟨15, _⟩ => ⟨S10000x128, .bf16⟩
  | .hbm, ⟨16, _⟩ => ⟨S10000x128, .f32⟩
  | .hbm, ⟨17, _⟩ => ⟨S10000x128, .f32⟩
  | .hbm, ⟨18, _⟩ => ⟨S10000x128, .bf16⟩
  | .hbm, ⟨19, _⟩ => ⟨S1x128, .f32⟩
  | .hbm, ⟨20, _⟩ => ⟨S10000x128, .f32⟩
  | .hbm, ⟨21, _⟩ => ⟨S64x10000, .f32⟩
  | .hbm, ⟨22, _⟩ => ⟨S1x128, .f32⟩
  | .hbm, ⟨23, _⟩ => ⟨S1x128, .f32⟩
  | .hbm, ⟨24, _⟩ => ⟨S1x64, .f32⟩
  | .hbm, ⟨25, _⟩ => ⟨S1x128, .f32⟩
  | .hbm, ⟨26, _⟩ => ⟨S1x128, .f32⟩
  | .hbm, ⟨27, _⟩ => ⟨S64x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S10000x128, .bf16⟩
  | .local _ .vmem, ⟨4, _⟩ => ⟨S400x128, .f32⟩
  | .local _ .vmem, ⟨5, _⟩ => ⟨S400x128, .f32⟩
  | .local _ .vmem, ⟨6, _⟩ => ⟨S1x1x400, .i32⟩
  | .local _ .vmem, ⟨7, _⟩ => ⟨S1x1x400, .i32⟩
  | .local _ .vmem, ⟨8, _⟩ => ⟨S128x128, .f32⟩
  | .local _ .vmem, ⟨9, _⟩ => ⟨S1x128, .f32⟩
  | .local _ .vmem, ⟨10, _⟩ => ⟨S400x128, .f32⟩
  | .local _ .vmem, ⟨11, _⟩ => ⟨S400x128, .f32⟩
  | .local _ .vmem, ⟨12, _⟩ => ⟨S64x10000, .f32⟩
  | .local _ .vmem, ⟨13, _⟩ => ⟨S64x10000, .f32⟩
  | .local _ .vmem, ⟨14, _⟩ => ⟨S10000x128, .f32⟩
  | .local _ .vmem, ⟨15, _⟩ => ⟨S1x10000, .i32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S1x128, .f32⟩
  | .local _ .vmem, ⟨23, _⟩ => ⟨S1x128, .f32⟩
  | .local _ .vmem, ⟨24, _⟩ => ⟨S64x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_20 : BitVec 32 := 0#32
  let v31 : BitVec 1 := Scalar.cmpi .ne v30 c0_i32_20
  v31

def k0_cond2 (i : grid0.Coords) : BitVec 1 :=
  let arg0 : BitVec 32 := BitVec.ofNat 32 (i 0).val
  let c0_i32_21 : BitVec 32 := 0#32
  let v32 : BitVec 1 := Scalar.cmpi .ne arg0 c0_i32_21
  let v33 : BitVec 32 := Scalar.extui v32
  let c0_i32_22 : BitVec 32 := 0#32
  let v34 : BitVec 1 := Scalar.cmpi .ne v33 c0_i32_22
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x400 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x10000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

abbrev stage1_0 : Fin 1 → Memref sig .tc .vmem S64x10000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x10000 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

class Facts₀ : Prop where
  shapeCasts_S10000_S25x1x400 : S10000.ShapeCasts S25x1x400
  shapeCasts_S10000_S1x10000 : S10000.ShapeCasts S1x10000
  bitsLt_bf16_f32 : FTy.bits .bf16 < FTy.bits .f32
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1x400_S1x1x400_0_0_0 : ∀ a, (![0, 0, 0] : Fin 3 → Nat) a + S1x1x400.size a ≤ S1x1x400.size a
  h_S1x1x400 : 0 < S1x1x400.numel
  shapeCasts_S1x1x400_S400 : S1x1x400.ShapeCasts S400
  iota_S64x400_d0_w32 : S64x400.Iotas .tc 32 [0]
  shapeCasts_S400_S1x400 : S400.ShapeCasts S1x400
  broadcasts_S1x400_S64x400 : S1x400.Broadcasts S64x400
  natLt_1_32 : 1 < 32
  inb_S64x10000_S64x10000_0_0 : ∀ a, (![0, 0] : Fin 2 → Nat) a + S64x10000.size a ≤ S64x10000.size a
  h_S64x10000 : 0 < S64x10000.numel
  shapeCasts_S64x10000_S64x10000 : S64x10000.ShapeCasts S64x10000
  shapeCasts_S64_S1x64 : S64.ShapeCasts S1x64
  inb_S1x10000_S1x10000_0_0 : ∀ a, (![0, 0] : Fin 2 → Nat) a + S1x10000.size a ≤ S1x10000.size a
  h_S1x10000 : 0 < S1x10000.numel
  shapeCasts_S1x10000_S10000 : S1x10000.ShapeCasts S10000
  iota_S64x10000_d0_w32 : S64x10000.Iotas .tc 32 [0]
  broadcasts_S1x10000_S64x10000 : S1x10000.Broadcasts S64x10000
  reduces_S64x10000_S64 : S64x10000.Reduces [1] S64
  shapeCasts_S64_S64x1 : S64.ShapeCasts S64x1
  broadcasts_S64x1_S64x128 : S64x1.Broadcasts S64x128
  broadcasts_S1x128_S64x128 : S1x128.Broadcasts S64x128
  reduces_S64x128_S128 : S64x128.Reduces [0] S128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  reduces_S64x64_S64 : S64x64.Reduces [1] S64
  broadcasts_S64x1_S64x64 : S64x1.Broadcasts S64x64
  inb_S64x64_S64x64_0_0 : ∀ a, (![0, 0] : Fin 2 → Nat) a + S64x64.size a ≤ S64x64.size a
  h_S64x64 : 0 < S64x64.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S64x400_S400x10000_S64x10000_1_0_0_1_n_n_wf : DotDims.WF S64x400 S400x10000 S64x10000 [1] [0] [0] [1] [] []
  dot_S64x10000_S10000x128_S64x128_1_0_0_1_n_n_wf : DotDims.WF S64x10000 S10000x128 S64x128 [1] [0] [0] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x400.size a ≤ S25x1x400.size a
  hwx0_4 : ∀ i : grid0.Coords, EltTy.bits .i32 = 32 ∨ (Rect.block (s := S25x1x400) S1x1x400.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x10000.size a ≤ S64x10000.size a
  hwx0_8 : ∀ i : grid0.Coords, EltTy.bits .f32 = 32 ∨ (Rect.block (s := S64x10000) S64x10000.size (cc0_transform_8 i) (hinb0_8 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole
  hstage1_11 : ∀ j, (stage1_11 j).IsWhole

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S64x400_S400x10000_S64x10000_1_0_0_1_n_n : DotDims S64x400 S400x10000 S64x10000 where
  lhsContracting := [1]
  rhsContracting := [0]
  lhsNonContracting := [0]
  rhsNonContracting := [1]
  lhsBatch := []
  rhsBatch := []
  wf := dot_S64x400_S400x10000_S64x10000_1_0_0_1_n_n_wf
def dot_S64x10000_S10000x128_S64x128_1_0_0_1_n_n : DotDims S64x10000 S10000x128 S64x128 where
  lhsContracting := [1]
  rhsContracting := [0]
  lhsNonContracting := [0]
  rhsNonContracting := [1]
  lhsBatch := []
  rhsBatch := []
  wf := dot_S64x10000_S10000x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S400x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x400.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S400x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S64x10000.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) | ⟨_ + 9, h⟩ => absurd h (Nat.not_lt.2 (Nat.le_add_left _ _))

abbrev win1_0 : Pipeline.Window sig grid1 :=
  Pipeline.Window.whole (Memref.whole main_v7_1) false false (stage1_0 0) (sem1_0 0) (Memref.isWhole_whole _) (hstage1_0 0)

abbrev win1_1 : Pipeline.Window sig grid1 :=
  Pipeline.Window.whole (Memref.whole main_v7_0) false false (stage1_1 0) (sem1_1 0) (Memref.isWhole_whole _) (hstage1_1 0)

abbrev win1_2 : Pipeline.Window sig grid1 :=
  Pipeline.Window.whole (Memref.whole main_v1) false false (stage1_2 0) (sem1_2 0) (Memref.isWhole_whole _) (hstage1_2 0)

abbrev win1_3 : Pipeline.Window sig grid1 :=
  Pipeline.Window.whole (Memref.whole main_arg5) false false (stage1_3 0) (sem1_3 0) (Memref.isWhole_whole _) (hstage1_3 0)

abbrev win1_4 : Pipeline.Window sig grid1 :=
  Pipeline.Window.whole (Memref.whole main_v8) false false (stage1_4 0) (sem1_4 0) (Memref.isWhole_whole _) (hstage1_4 0)

abbrev win1_5 : Pipeline.Window sig grid1 :=
  Pipeline.Window.whole (Memref.whole main_arg7) false false (stage1_5 0) (sem1_5 0) (Memref.isWhole_whole _) (hstage1_5 0)

abbrev win1_6 : Pipeline.Window sig grid1 :=
  Pipeline.Window.whole (Memref.whole main_v9) false false (stage1_6 0) (sem1_6 0) (Memref.isWhole_whole _) (hstage1_6 0)

abbrev win1_7 : Pipeline.Window sig grid1 :=
  Pipeline.Window.whole (Memref.whole main_arg9) false false (stage1_7 0) (sem1_7 0) (Memref.isWhole_whole _) (hstage1_7 0)

abbrev win1_8 : Pipeline.Window sig grid1 :=
  Pipeline.Window.whole (Memref.whole main_v10) false false (stage1_8 0) (sem1_8 0) (Memref.isWhole_whole _) (hstage1_8 0)

abbrev win1_9 : Pipeline.Window sig grid1 :=
  Pipeline.Window.whole (Memref.whole main_v11) false false (stage1_9 0) (sem1_9 0) (Memref.isWhole_whole _) (hstage1_9 0)

abbrev win1_10 : Pipeline.Window sig grid1 :=
  Pipeline.Window.whole (Memref.whole main_v12) false false (stage1_10 0) (sem1_10 0) (Memref.isWhole_whole _) (hstage1_10 0)

abbrev win1_11 : Pipeline.Window sig grid1 :=
  Pipeline.Window.whole (Memref.whole main_v13) true false (stage1_11 0) (sem1_11 0) (Memref.isWhole_whole _) (hstage1_11 0)

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S64x128 : Shape := ⟨2, ![64, 128]⟩
abbrev S10000x1 : Shape := ⟨2, ![10000, 1]⟩
abbrev S64x64 : Shape := ⟨2, ![64, 64]⟩
abbrev S1x64 : Shape := ⟨2, ![1, 64]⟩
abbrev S64x1 : Shape := ⟨2, ![64, 1]⟩

abbrev nBuf : Space → Nat
  | .hbm => 108
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128, .f32⟩
  | .hbm, ⟨12, _⟩ => ⟨S128, .f32⟩
  | .hbm, ⟨13, _⟩ => ⟨S10000x10000, .i32⟩
  | .hbm, ⟨14, _⟩ => ⟨S10000x10000, .i32⟩
  | .hbm, ⟨15, _⟩ => ⟨S_, .i32⟩
  | .hbm, ⟨16, _⟩ => ⟨S10000x10000, .i32⟩
  | .hbm, ⟨17, _⟩ => ⟨S10000x10000, .i32⟩
  | .hbm, ⟨18, _⟩ => ⟨S10000x10000, .i1⟩
  | .hbm, ⟨19, _⟩ => ⟨S10000x10000, .f32⟩
  | .hbm, ⟨20, _⟩ => ⟨S10000x10000, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S64x128, .f32⟩
  | .hbm, ⟨36, _⟩ => ⟨S10000x1, .i32⟩
  | .hbm, ⟨37, _⟩ => ⟨S64x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S64x128, .f32⟩
  | .hbm, ⟨51, _⟩ => ⟨S64x128, .f32⟩
  | .hbm, ⟨52, _⟩ => ⟨S64x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S64x128, .f32⟩
  | .hbm, ⟨68, _⟩ => ⟨S64x128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S64x128, .f32⟩
  | .hbm, ⟨75, _⟩ => ⟨S64x128, .f32⟩
  | .hbm, ⟨76, _⟩ => ⟨S1x128, .f32⟩
  | .hbm, ⟨77, _⟩ => ⟨S64x128, .f32⟩
  | .hbm, ⟨78, _⟩ => ⟨S64x128, .f32⟩
  | .hbm, ⟨79, _⟩ => ⟨S1x128, .f32⟩
  | .hbm, ⟨80, _⟩ => ⟨S64x128, .f32⟩
  | .hbm, ⟨81, _⟩ => ⟨S64x128, .f32⟩
  | .hbm, ⟨82, _⟩ => ⟨S64x128, .f32⟩
  | .hbm, ⟨83, _⟩ => ⟨S1x128, .f32⟩
  | .hbm, ⟨84, _⟩ => ⟨S64x128, .f32⟩
  | .hbm, ⟨85, _⟩ => ⟨S64x128, .f32⟩
  | .hbm, ⟨86, _⟩ => ⟨S_, .f32⟩
  | .hbm, ⟨87, _⟩ => ⟨S64x128, .f32⟩
  | .hbm, ⟨88, _⟩ => ⟨S64x128, .f32⟩
  | .hbm, ⟨89, _⟩ => ⟨S64x64, .f32⟩
  | .hbm, ⟨90, _⟩ => ⟨S1x64, .f32⟩
  | .hbm, ⟨91, _⟩ => ⟨S64x64, .f32⟩
  | .hbm, ⟨92, _⟩ => ⟨S64x64, .f32⟩
  | .hbm, ⟨93, _⟩ => ⟨S_, .f32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64x1, .f32⟩
  | .hbm, ⟨99, _⟩ => ⟨S64x64, .f32⟩
  | .hbm, ⟨100, _⟩ => ⟨S64x64, .f32⟩
  | .hbm, ⟨101, _⟩ => ⟨S64x64, .f32⟩
  | .hbm, ⟨102, _⟩ => ⟨S_, .f32⟩
  | .hbm, ⟨103, _⟩ => ⟨S64, .f32⟩
  | .hbm, ⟨104, _⟩ => ⟨S64x1, .f32⟩
  | .hbm, ⟨105, _⟩ => ⟨S64x1, .f32⟩
  | .hbm, ⟨106, _⟩ => ⟨S64x64, .f32⟩
  | .hbm, ⟨107, _⟩ => ⟨S64x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_c_2 : Ref sig .tc := ⟨.hbm, 43, rfl⟩
abbrev main_call1_cst : Ref sig .tc := ⟨.hbm, 44, rfl⟩
abbrev main_call1_v0 : Ref sig .tc := ⟨.hbm, 45, rfl⟩
abbrev main_call1_v1 : Ref sig .tc := ⟨.hbm, 46, rfl⟩
abbrev main_call1_cst_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_cst_2 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_cst_3 : Ref sig .tc := ⟨.hbm, 60, rfl⟩
abbrev main_call1_v12 : Ref sig .tc := ⟨.hbm, 61, rfl⟩
abbrev main_call1_cst_4 : Ref sig .tc := ⟨.hbm, 62, rfl⟩
abbrev main_call1_call0_v0 : Ref sig .tc := ⟨.hbm, 63, rfl⟩
abbrev main_call1_call0_v1 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_3 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_call2_cst : Ref sig .tc := ⟨.hbm, 86, rfl⟩
abbrev main_call2_v0 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call3_cst : Ref sig .tc := ⟨.hbm, 93, rfl⟩
abbrev main_call3_v0 : Ref sig .tc := ⟨.hbm, 94, rfl⟩
abbrev main_call3_cst_0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_cst_1 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_v49 : Ref sig .tc := ⟨.hbm, 107, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S_S64x128 : S_.BroadcastsInDim S64x128 (![] : Fin 0 → Fin S64x128.rank)
  bcast_S10000_S10000x1_0 : S10000.BroadcastsInDim S10000x1 (![0] : Fin 1 → Fin S10000x1.rank)
  reducesTo_S64x128_S128_d0 : S64x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  reducesTo_S64x64_S64_d1 : S64x64.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  scatter_S64x128_S10000x1_S10000x128_1_0_0_1_wf : ScatterDims.WF S64x128 S10000x1 S10000x128 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.K.R0.lean ====
/-
  Region 0 (the streaming pass over the adjacency strips), at any value instance, at the buffer contents V the
  region is entered with.

  At grid point t the body reads strip t of the adjacency (400 x 10000), the whole split features (two
  10000 x 128 arrays), strip t of the features, strip t of the graph ids, the first layer's weights and bias, and
  writes strip t of the first layer's output (window 7, written back at every point). Window 8 is one 64 x 10000
  block that stays in its staging buffer for the whole grid and is written back after the last point only: point 0
  stores the strip's membership-weighted row sums into it, and every later point loads it, adds its own strip's
  row sums and stores the sum back. So its contents after point t are a recursion over the points (accB).
-/
import proofs.«148953_g38087769981371_fold_wed_m_124_15_alg».proof.Proof.Gen.Kernel.Launch
import proofs.«148953_g38087769981371_fold_wed_m_124_15_alg».proof.Proof.Gen.Kernel.Skeleton
import proofs.«148953_g38087769981371_fold_wed_m_124_15_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the point fetches it or not
    (a window whose block index does not move is fetched once and left in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The two cases of the body's branches -/

/-- The first branch's condition (the point is the first), from the grid coordinates. -/
abbrev condA (i : grid0.Coords) : Prop := k0_cond1 i = 1#1
/-- The second branch's condition (the point is not the first). -/
abbrev condB (i : grid0.Coords) : Prop := k0_cond2 i = 1#1
theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val ≠ 0 :=
  (by decide +kernel : ∀ t : Fin grid0.N, condB (grid0.coords t) ↔ t.val ≠ 0)
/-- Window 8 is stored at every point (one of the two branches is always taken), so it is never idle. -/
theorem idle0_8 : ∀ t : Fin cfg0.N, cfg0.idle 8 (grid0.coords t) = false :=
  (by decide +kernel : ∀ t : Fin grid0.N, idle0 8 (grid0.coords t) = false)

/-! ## The body's accesses and what it leaves in the output windows' buffers -/

abbrev rA : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rS : Rect S400x128 := Rect.unit (s := S400x128) ![0, 0] S400x128.size inb_S400x128_S400x128_0_0
abbrev rI : Rect S1x1x400 := Rect.unit (s := S1x1x400) ![0, 0, 0] S1x1x400.size inb_S1x1x400_S1x1x400_0_0_0
abbrev rW : Rect S128x128 := Rect.unit (s := S128x128) ![0, 0] S128x128.size inb_S128x128_S128x128_0_0
abbrev rb : Rect S1x128 := Rect.unit (s := S1x128) ![0, 0] S1x128.size inb_S1x128_S1x128_0_0
abbrev rB : Rect S64x10000 := Rect.unit (s := S64x10000) ![0, 0] S64x10000.size inb_S64x10000_S64x10000_0_0

/-- Window 7's buffer after the body: the strip of the first layer's output, one store of the whole block. -/
def out0_7 (a : Vec F S400x10000 .f32) (xh xl : Vec F S10000x128 .bf16) (xs : Vec F S400x128 .f32) (w1 : Vec F S128x128 .f32) (b1 : Vec F S1x128 .f32) : Vec F S400x128 .f32 :=
  View.canon [⟨rS, k0_pay2 (View.ld a rA) (View.ld xh rX) (View.ld xl rX) (View.ld xs rS) (View.ld w1 rW) (View.ld b1 rb)⟩]

/-- Window 8's buffer after the body at the first point: the strip's membership-weighted row sums. -/
def out0_8A (a : Vec F S400x10000 .f32) (ids : Vec F S1x1x400 .i32) : Vec F S64x10000 .f32 :=
  View.canon [⟨rB, k0_pay3 (View.ld a rA) (View.ld ids rI)⟩]

/-- Window 8's buffer after the body at a later point: what the point before left, plus the strip's row sums. -/
def out0_8B (a : Vec F S400x10000 .f32) (ids : Vec F S1x1x400 .i32) (prev : Vec F S64x10000 .f32) : Vec F S64x10000 .f32 :=
  View.canon [⟨rB, k0_pay1 (k0_pay3 (View.ld a rA) (View.ld ids rI)) (View.ld prev rB)⟩]

theorem cover0_7 (p0 : Vec F S400x128 .f32) (y : S400x128.Idx) :
    ∃ pc ∈ ([⟨rS, p0⟩] : List (View.Piece (Elt F) S400x128 .f32)), y ∈ pc.1.set :=
  View.cover_of_tiled [⟨rS, p0⟩] S400x128.size (by rfl) y
theorem cover0_8 (p0 : Vec F S64x10000 .f32) (y : S64x10000.Idx) :
    ∃ pc ∈ ([⟨rB, p0⟩] : List (View.Piece (Elt F) S64x10000 .f32)), y ∈ pc.1.set :=
  View.cover_of_tiled [⟨rB, p0⟩] S64x10000.size (by rfl) y

/-! ## The body's triple, case by case -/

set_option maxHeartbeats 1000000 in
/-- At the first point: the inputs' buffers at read contents, the outputs' at anything; the body runs to the
    continuation with the inputs as they were, window 7 at the strip's layer output and window 8 at the strip's row sums. -/
theorem sound_kernel0_A (c : Dev nD) (E : Set ℕ) (i : grid0.Coords) (hA : condA i) (hB : ¬ condB i)
    (arg1 : Memref sig .tc .vmem S400x10000 .f32) (harg1 : arg1.IsWhole) (arg2 : Memref sig .tc .vmem S10000x128 .bf16) (harg2 : arg2.IsWhole)
    (arg3 : Memref sig .tc .vmem S10000x128 .bf16) (harg3 : arg3.IsWhole) (arg4 : Memref sig .tc .vmem S400x128 .f32) (harg4 : arg4.IsWhole)
    (arg5 : Memref sig .tc .vmem S1x1x400 .i32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (arg9 : Memref sig .tc .vmem S64x10000 .f32) (harg9 : arg9.IsWhole)
    (x1 : Vec F S400x10000 .f32) (x2 x3 : Vec F S10000x128 .bf16) (x4 : Vec F S400x128 .f32) (x5 : Vec F S1x1x400 .i32)
    (x6 : Vec F S128x128 .f32) (x7 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (out0_7 x1 x2 x3 x4 x6 x7)
            ∗ owns (c : Thread nD τ) arg9 fullShare (out0_8A x1 x5)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9) K := by
  simp only [cc0__pass1_eq_skeleton]; unfold cc0__pass1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := first | exact hA | exact hB)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_8 _)

set_option maxHeartbeats 1000000 in
/-- At a later point: window 8's buffer holds what the point before left (prev); the body leaves it at prev plus
    the strip's row sums. -/
theorem sound_kernel0_B (c : Dev nD) (E : Set ℕ) (i : grid0.Coords) (hA : ¬ condA i) (hB : condB i)
    (arg1 : Memref sig .tc .vmem S400x10000 .f32) (harg1 : arg1.IsWhole) (arg2 : Memref sig .tc .vmem S10000x128 .bf16) (harg2 : arg2.IsWhole)
    (arg3 : Memref sig .tc .vmem S10000x128 .bf16) (harg3 : arg3.IsWhole) (arg4 : Memref sig .tc .vmem S400x128 .f32) (harg4 : arg4.IsWhole)
    (arg5 : Memref sig .tc .vmem S1x1x400 .i32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (arg9 : Memref sig .tc .vmem S64x10000 .f32) (harg9 : arg9.IsWhole)
    (x1 : Vec F S400x10000 .f32) (x2 x3 : Vec F S10000x128 .bf16) (x4 : Vec F S400x128 .f32) (x5 : Vec F S1x1x400 .i32)
    (x6 : Vec F S128x128 .f32) (x7 : Vec F S1x128 .f32) (prev : Vec F S64x10000 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ owns (c : Thread nD τ) arg9 fullShare prev
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (out0_7 x1 x2 x3 x4 x6 x7)
            ∗ owns (c : Thread nD τ) arg9 fullShare (out0_8B x1 x5 prev)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9) K := by
  simp only [cc0__pass1_eq_skeleton]; unfold cc0__pass1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := first | exact hA | exact hB)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_8 _)

/-! ## What window 8's buffer holds after each point -/

/-- The accumulation over the points: the first strip's row sums, then each later strip's added on. -/
def accB (c : Dev nD) : (n : ℕ) → n < cfg0.N → Vec F S64x10000 .f32
  | 0, hn => out0_8A (iblk0 V c 0 ⟨0, hn⟩) (iblk0 V c 4 ⟨0, hn⟩)
  | n + 1, hn => out0_8B (iblk0 V c 0 ⟨n + 1, hn⟩) (iblk0 V c 4 ⟨n + 1, hn⟩) (accB c n (Nat.lt_of_succ_lt hn))

theorem accB_A (c : Dev nD) (t : Fin cfg0.N) (h0 : t.val = 0) :
    accB V c t.val t.isLt = out0_8A (iblk0 V c 0 t) (iblk0 V c 4 t) := by
  obtain ⟨n, hn⟩ := t
  cases n with
  | zero => rfl
  | succ n => exact absurd h0 (Nat.succ_ne_zero n)

theorem accB_B (c : Dev nD) (t : Fin cfg0.N) (h0 : t.val ≠ 0) :
    accB V c t.val t.isLt = out0_8B (iblk0 V c 0 t) (iblk0 V c 4 t) (accB V c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at point t each input's buffer at its block, window 7's at
    the strip's layer output, window 8's at the accumulation; nothing beyond the scoped rest and the generator register
    in the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 5 t) (iblk0 V c 6 t)
    | ⟨8, _⟩ => accB V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 5 t) (iblk0 V c 6 t) := by dsimp only [dat0]
theorem after0_8 (c : Dev nD) (t : Fin cfg0.N) : (dat0 V c).after 8 t = accB V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The same at every coordinate vector of the grid. -/
theorem idle0_8_all : ∀ i : grid0.Coords, cfg0.idle 8 i = false :=
  (by decide +kernel : ∀ i : grid0.Coords, idle0 8 i = false)

/-- At a later point window 8's buffer holds what the body left at the point before: the buffer is not written back
    between the two points, and the window is never idle. -/
theorem before0_8_B (c : Dev nD) (t : Fin cfg0.N) (h0 : t.val ≠ 0) (d) :
    (dat0 V c).before 8 t d = accB V c (t.val - 1) (Nat.lt_of_le_of_lt (Nat.sub_le _ _) t.isLt) := by
  have hN : t.val < 25 := lt_of_lt_of_eq t.isLt (show cfg0.N = 25 from N_0)
  rw [Dat.before_out_kept _ 8 rfl t h0 (Bool.eq_false_iff.mpr fun h => by have := (flush0_8 _).mp h; dsimp only at this; omega)
    idle0_8_all (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  by_cases h0 : t.val = 0
  · rw [accB_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_A c Set.univ (grid0.coords t) ((hcondA t).mpr h0) (fun h => (hcondB t).mp h h0)
      _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [accB_B V c t h0]
    simp only [before0_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_B c Set.univ (grid0.coords t) (fun h => h0 ((hcondA t).mp h)) ((hcondB t).mpr h0)
      _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      (accB V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option maxHeartbeats 1000000 in
/-- The library's body obligation, at every point. -/
theorem body_obligation0 (c : Dev nD) : BodyObligation (dat0 (F := F) V c) (defs₀ (F := F)) Variants.none () Set.univ := fun t => by
  rw [bigSep_W0, bigSep_W0]
  rw [idle0_8 t]
  exact sound_body0 V c t

end Cert.Kernel.Hand

end
-- ==== Proof.K.R1.lean ====
/-
  Region 1 (the head), at any value instance, at the buffer contents V the region is entered with: one grid point.
  The body reads the pooled adjacency B = S A (64 x 10000), the first layer's output (10000 x 128), the graph ids as
  a row, the remaining weights, biases, scale and shift, and stores the 64 x 64 log-probabilities, one store of the
  whole output block.
-/
import proofs.«148953_g38087769981371_fold_wed_m_124_15_alg».proof.Proof.Gen.Kernel.Launch
import proofs.«148953_g38087769981371_fold_wed_m_124_15_alg».proof.Proof.Gen.Kernel.Skeleton
import proofs.«148953_g38087769981371_fold_wed_m_124_15_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev qB : Rect S64x10000 := Rect.unit (s := S64x10000) ![0, 0] S64x10000.size inb_S64x10000_S64x10000_0_0
abbrev qZ : Rect S10000x128 := Rect.unit (s := S10000x128) ![0, 0] S10000x128.size inb_S10000x128_S10000x128_0_0
abbrev qI : Rect S1x10000 := Rect.unit (s := S1x10000) ![0, 0] S1x10000.size inb_S1x10000_S1x10000_0_0
abbrev qW : Rect S128x128 := Rect.unit (s := S128x128) ![0, 0] S128x128.size inb_S128x128_S128x128_0_0
abbrev qb : Rect S1x128 := Rect.unit (s := S1x128) ![0, 0] S1x128.size inb_S1x128_S1x128_0_0
abbrev qW4 : Rect S128x64 := Rect.unit (s := S128x64) ![0, 0] S128x64.size inb_S128x64_S128x64_0_0
abbrev qb4 : Rect S1x64 := Rect.unit (s := S1x64) ![0, 0] S1x64.size inb_S1x64_S1x64_0_0
abbrev qO : Rect S64x64 := Rect.unit (s := S64x64) ![0, 0] S64x64.size inb_S64x64_S64x64_0_0

/-- The output window's buffer after the body: the log-probabilities, from the input windows' blocks. -/
def out1_11 (x0 : Vec F S64x10000 .f32) (x1 : Vec F S10000x128 .f32) (x2 : Vec F S1x10000 .i32) (x3 : Vec F S128x128 .f32) (x4 : Vec F S1x128 .f32) (x5 : Vec F S128x128 .f32) (x6 : Vec F S1x128 .f32) (x7 : Vec F S128x64 .f32) (x8 : Vec F S1x64 .f32) (x9 : Vec F S1x128 .f32) (x10 : Vec F S1x128 .f32) : Vec F S64x64 .f32 :=
  View.canon [⟨qO, k1_pay1 (k1_pay2 (View.ld x1 qZ) (View.ld x2 qI) (View.ld x0 qB) (View.ld x3 qW) (View.ld x4 qb))
    (View.ld x9 qb) (View.ld x10 qb) (View.ld x5 qW) (View.ld x6 qb) (View.ld x7 qW4) (View.ld x8 qb4)⟩]

theorem cover1_11 (p0 : Vec F S64x64 .f32) (y : S64x64.Idx) :
    ∃ pc ∈ ([⟨qO, p0⟩] : List (View.Piece (Elt F) S64x64 .f32)), y ∈ pc.1.set :=
  View.cover_of_tiled [⟨qO, p0⟩] S64x64.size (by rfl) y

set_option maxHeartbeats 1000000 in
/-- The body on whole staging memrefs, the inputs' at read contents and the output's at anything, runs to the
    continuation holding the inputs' as they were and the output's at the log-probabilities. -/
theorem sound_kernel1 (c : Dev nD) (E : Set ℕ) (arg0 : Memref sig .tc .vmem S64x10000 .f32) (harg0 : arg0.IsWhole) (arg1 : Memref sig .tc .vmem S10000x128 .f32) (harg1 : arg1.IsWhole) (arg2 : Memref sig .tc .vmem S1x10000 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x64 .f32) (harg11 : arg11.IsWhole)
    (x0 : Vec F S64x10000 .f32) (x1 : Vec F S10000x128 .f32) (x2 : Vec F S1x10000 .i32) (x3 : Vec F S128x128 .f32) (x4 : Vec F S1x128 .f32) (x5 : Vec F S128x128 .f32) (x6 : Vec F S1x128 .f32) (x7 : Vec F S128x64 .f32) (x8 : Vec F S1x64 .f32) (x9 : Vec F S1x128 .f32) (x10 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out1_11 x0 x1 x2 x3 x4 x5 x6 x7 x8 x9 x10)) -∗ K ⟨⟩))
      ⊢ wp frame (wpE (defs₀ (F := F)) Variants.none c none) E (cc1__head arg0 harg0 arg1 harg1 arg2 harg2 arg3 harg3 arg4 harg4 arg5 harg5 arg6 harg6 arg7 harg7 arg8 harg8 arg9 harg9 arg10 harg10 arg11 harg11) K := by
  simp only [cc1__head_eq_skeleton]; unfold cc1__head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-- The proof data: the arrays as the region finds them; after the body each input's buffer at its block and the
    output's at the log-probabilities; nothing beyond the scoped rest and the generator register in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at the point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: seven host operations (the two reshapes of the graph ids, the split of the features into a
  rounded part and the rounded remainder, the bias as a row), region 0, five reshapes to rows, region 1. The buffer
  contents at each boundary are a fold from the launch memory; every weakly fair execution terminates and every
  unscoped buffer ends at the last boundary's contents: the arguments as launched, the result at what region 1's
  write-back leaves.
-/
import proofs.«148953_g38087769981371_fold_wed_m_124_15_alg».proof.Proof.K.R0
import proofs.«148953_g38087769981371_fold_wed_m_124_15_alg».proof.Proof.K.R1
import proofs.«148953_g38087769981371_fold_wed_m_124_15_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No item writes an argument: each ends as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 3).trans (((dat0 (V1 m ρ) c).arrAt_in 3 rfl _).trans (A_eq0 (V1 m ρ) c 3))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := (W2_arr m ρ c 5).trans (((dat0 (V1 m ρ) c).arrAt_in 5 rfl _).trans (A_eq0 (V1 m ρ) c 5))
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 7).trans (((dat1 (V3 m ρ) c).arrAt_in 7 rfl _).trans (A_eq1 (V3 m ρ) c 7))
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (r := main_arg11) (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (r := main_arg12) (by decide)
    _ = W1 m ρ c (Proc.devRef .tc main_arg12) := W2_of_ne m ρ c main_arg12 (by decide)
    _ = W0 m ρ c (Proc.devRef .tc main_arg12) := StableHlo.after_of_writes_sub hostOps0 _ hostOps0_writes (r := main_arg12) (by decide)
    _ = m ((c : Thread nD τ).loc main_arg12) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at
    the contents after it. Its arrays are split out of the unscoped buffers and put back at what the pipeline leaves;
    the generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the pipeline leaves;
    the generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_all m ρ)

end Cert.Kernel.Hand

end
-- ==== Proof.KI.R0.lean ====
/-
  Region 0 (the streaming pass over the adjacency strips), at any value instance, at the buffer contents V the
  region is entered with.

  At grid point t the body reads strip t of the adjacency (400 x 10000), the whole split features (two
  10000 x 128 arrays), strip t of the features, strip t of the graph ids, the first layer's weights and bias, and
  writes strip t of the first layer's output (window 7, written back at every point). Window 8 is one 64 x 10000
  block that stays in its staging buffer for the whole grid and is written back after the last point only: point 0
  stores the strip's membership-weighted row sums into it, and every later point loads it, adds its own strip's
  row sums and stores the sum back. So its contents after point t are a recursion over the points (accB).
-/
import proofs.«148953_g38087769981371_fold_wed_m_124_15_alg».proof.Proof.Gen.KernelIdeal.Launch
import proofs.«148953_g38087769981371_fold_wed_m_124_15_alg».proof.Proof.Gen.KernelIdeal.Skeleton
import proofs.«148953_g38087769981371_fold_wed_m_124_15_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the point fetches it or not
    (a window whose block index does not move is fetched once and left in place). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The two cases of the body's branches -/

/-- The first branch's condition (the point is the first), from the grid coordinates. -/
abbrev condA (i : grid0.Coords) : Prop := k0_cond1 i = 1#1
/-- The second branch's condition (the point is not the first). -/
abbrev condB (i : grid0.Coords) : Prop := k0_cond2 i = 1#1
theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ t.val ≠ 0 :=
  (by decide +kernel : ∀ t : Fin grid0.N, condB (grid0.coords t) ↔ t.val ≠ 0)
/-- Window 8 is stored at every point (one of the two branches is always taken), so it is never idle. -/
theorem idle0_8 : ∀ t : Fin cfg0.N, cfg0.idle 8 (grid0.coords t) = false :=
  (by decide +kernel : ∀ t : Fin grid0.N, idle0 8 (grid0.coords t) = false)

/-! ## The body's accesses and what it leaves in the output windows' buffers -/

abbrev rA : Rect S400x10000 := Rect.unit (s := S400x10000) ![0, 0] S400x10000.size inb_S400x10000_S400x10000_0_0
abbrev rX : Rect S10000x128 := Rect.unit (s := S10000x128) ![0, 0] S10000x128.size inb_S10000x128_S10000x128_0_0
abbrev rS : Rect S400x128 := Rect.unit (s := S400x128) ![0, 0] S400x128.size inb_S400x128_S400x128_0_0
abbrev rI : Rect S1x1x400 := Rect.unit (s := S1x1x400) ![0, 0, 0] S1x1x400.size inb_S1x1x400_S1x1x400_0_0_0
abbrev rW : Rect S128x128 := Rect.unit (s := S128x128) ![0, 0] S128x128.size inb_S128x128_S128x128_0_0
abbrev rb : Rect S1x128 := Rect.unit (s := S1x128) ![0, 0] S1x128.size inb_S1x128_S1x128_0_0
abbrev rB : Rect S64x10000 := Rect.unit (s := S64x10000) ![0, 0] S64x10000.size inb_S64x10000_S64x10000_0_0

/-- Window 7's buffer after the body: the strip of the first layer's output, one store of the whole block. -/
def out0_7 (a : Vec F S400x10000 .f32) (xh xl : Vec F S10000x128 .bf16) (xs : Vec F S400x128 .f32) (w1 : Vec F S128x128 .f32) (b1 : Vec F S1x128 .f32) : Vec F S400x128 .f32 :=
  View.canon [⟨rS, k0_pay2 (View.ld a rA) (View.ld xh rX) (View.ld xl rX) (View.ld xs rS) (View.ld w1 rW) (View.ld b1 rb)⟩]

/-- Window 8's buffer after the body at the first point: the strip's membership-weighted row sums. -/
def out0_8A (a : Vec F S400x10000 .f32) (ids : Vec F S1x1x400 .i32) : Vec F S64x10000 .f32 :=
  View.canon [⟨rB, k0_pay3 (View.ld a rA) (View.ld ids rI)⟩]

/-- Window 8's buffer after the body at a later point: what the point before left, plus the strip's row sums. -/
def out0_8B (a : Vec F S400x10000 .f32) (ids : Vec F S1x1x400 .i32) (prev : Vec F S64x10000 .f32) : Vec F S64x10000 .f32 :=
  View.canon [⟨rB, k0_pay1 (k0_pay3 (View.ld a rA) (View.ld ids rI)) (View.ld prev rB)⟩]

theorem cover0_7 (p0 : Vec F S400x128 .f32) (y : S400x128.Idx) :
    ∃ pc ∈ ([⟨rS, p0⟩] : List (View.Piece (Elt F) S400x128 .f32)), y ∈ pc.1.set :=
  View.cover_of_tiled [⟨rS, p0⟩] S400x128.size (by rfl) y
theorem cover0_8 (p0 : Vec F S64x10000 .f32) (y : S64x10000.Idx) :
    ∃ pc ∈ ([⟨rB, p0⟩] : List (View.Piece (Elt F) S64x10000 .f32)), y ∈ pc.1.set :=
  View.cover_of_tiled [⟨rB, p0⟩] S64x10000.size (by rfl) y

/-! ## The body's triple, case by case -/

set_option maxHeartbeats 1000000 in
/-- At the first point: the inputs' buffers at read contents, the outputs' at anything; the body runs to the
    continuation with the inputs as they were, window 7 at the strip's layer output and window 8 at the strip's row sums. -/
theorem sound_kernel0_A (c : Dev nD) (E : Set ℕ) (i : grid0.Coords) (hA : condA i) (hB : ¬ condB i)
    (arg1 : Memref sig .tc .vmem S400x10000 .f32) (harg1 : arg1.IsWhole) (arg2 : Memref sig .tc .vmem S10000x128 .bf16) (harg2 : arg2.IsWhole)
    (arg3 : Memref sig .tc .vmem S10000x128 .bf16) (harg3 : arg3.IsWhole) (arg4 : Memref sig .tc .vmem S400x128 .f32) (harg4 : arg4.IsWhole)
    (arg5 : Memref sig .tc .vmem S1x1x400 .i32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (arg9 : Memref sig .tc .vmem S64x10000 .f32) (harg9 : arg9.IsWhole)
    (x1 : Vec F S400x10000 .f32) (x2 x3 : Vec F S10000x128 .bf16) (x4 : Vec F S400x128 .f32) (x5 : Vec F S1x1x400 .i32)
    (x6 : Vec F S128x128 .f32) (x7 : Vec F S1x128 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (out0_7 x1 x2 x3 x4 x6 x7)
            ∗ owns (c : Thread nD τ) arg9 fullShare (out0_8A x1 x5)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9) K := by
  simp only [cc0__pass1_eq_skeleton]; unfold cc0__pass1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := first | exact hA | exact hB)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_8 _)

set_option maxHeartbeats 1000000 in
/-- At a later point: window 8's buffer holds what the point before left (prev); the body leaves it at prev plus
    the strip's row sums. -/
theorem sound_kernel0_B (c : Dev nD) (E : Set ℕ) (i : grid0.Coords) (hA : ¬ condA i) (hB : condB i)
    (arg1 : Memref sig .tc .vmem S400x10000 .f32) (harg1 : arg1.IsWhole) (arg2 : Memref sig .tc .vmem S10000x128 .bf16) (harg2 : arg2.IsWhole)
    (arg3 : Memref sig .tc .vmem S10000x128 .bf16) (harg3 : arg3.IsWhole) (arg4 : Memref sig .tc .vmem S400x128 .f32) (harg4 : arg4.IsWhole)
    (arg5 : Memref sig .tc .vmem S1x1x400 .i32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (arg9 : Memref sig .tc .vmem S64x10000 .f32) (harg9 : arg9.IsWhole)
    (x1 : Vec F S400x10000 .f32) (x2 x3 : Vec F S10000x128 .bf16) (x4 : Vec F S400x128 .f32) (x5 : Vec F S1x1x400 .i32)
    (x6 : Vec F S128x128 .f32) (x7 : Vec F S1x128 .f32) (prev : Vec F S64x10000 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ owns (c : Thread nD τ) arg9 fullShare prev
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare (out0_7 x1 x2 x3 x4 x6 x7)
            ∗ owns (c : Thread nD τ) arg9 fullShare (out0_8B x1 x5 prev)) -∗ K ⟨⟩))
      ⊢ wp frame (wpE (defs₀ (F := F)) Variants.none c none) E (cc0__pass1 i arg1 harg1 arg2 harg2 arg3 harg3 arg4 harg4 arg5 harg5 arg6 harg6 arg7 harg7 arg8 harg8 arg9 harg9) K := by
  simp only [cc0__pass1_eq_skeleton]; unfold cc0__pass1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  subst hf1 hf2 hf3 hf4 hf5 hf6 hf7 hf9
  sl_exec (disch := first | exact hA | exact hB)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_7 _)
  iexists _; isplitr
  swap; · iexact H9
  ipureintro
  exact View.read_writes_eq_canon _ _ _ (cover0_8 _)

/-! ## What window 8's buffer holds after each point -/

/-- The accumulation over the points: the first strip's row sums, then each later strip's added on. -/
def accB (c : Dev nD) : (n : ℕ) → n < cfg0.N → Vec F S64x10000 .f32
  | 0, hn => out0_8A (iblk0 V c 0 ⟨0, hn⟩) (iblk0 V c 4 ⟨0, hn⟩)
  | n + 1, hn => out0_8B (iblk0 V c 0 ⟨n + 1, hn⟩) (iblk0 V c 4 ⟨n + 1, hn⟩) (accB c n (Nat.lt_of_succ_lt hn))

theorem accB_A (c : Dev nD) (t : Fin cfg0.N) (h0 : t.val = 0) :
    accB V c t.val t.isLt = out0_8A (iblk0 V c 0 t) (iblk0 V c 4 t) := by
  obtain ⟨n, hn⟩ := t
  cases n with
  | zero => rfl
  | succ n => exact absurd h0 (Nat.succ_ne_zero n)

theorem accB_B (c : Dev nD) (t : Fin cfg0.N) (h0 : t.val ≠ 0) :
    accB V c t.val t.isLt = out0_8B (iblk0 V c 0 t) (iblk0 V c 4 t) (accB V c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at point t each input's buffer at its block, window 7's at
    the strip's layer output, window 8's at the accumulation; nothing beyond the scoped rest and the generator register
    in the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 5 t) (iblk0 V c 6 t)
    | ⟨8, _⟩ => accB V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 5 t) (iblk0 V c 6 t) := by dsimp only [dat0]
theorem after0_8 (c : Dev nD) (t : Fin cfg0.N) : (dat0 V c).after 8 t = accB V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- The same at every coordinate vector of the grid. -/
theorem idle0_8_all : ∀ i : grid0.Coords, cfg0.idle 8 i = false :=
  (by decide +kernel : ∀ i : grid0.Coords, idle0 8 i = false)

/-- At a later point window 8's buffer holds what the body left at the point before: the buffer is not written back
    between the two points, and the window is never idle. -/
theorem before0_8_B (c : Dev nD) (t : Fin cfg0.N) (h0 : t.val ≠ 0) (d) :
    (dat0 V c).before 8 t d = accB V c (t.val - 1) (Nat.lt_of_le_of_lt (Nat.sub_le _ _) t.isLt) := by
  have hN : t.val < 25 := lt_of_lt_of_eq t.isLt (show cfg0.N = 25 from N_0)
  rw [Dat.before_out_kept _ 8 rfl t h0 (Bool.eq_false_iff.mpr fun h => by have := (flush0_8 _).mp h; dsimp only at this; omega)
    idle0_8_all (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  by_cases h0 : t.val = 0
  · rw [accB_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_A c Set.univ (grid0.coords t) ((hcondA t).mpr h0) (fun h => (hcondB t).mp h h0)
      _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [accB_B V c t h0]
    simp only [before0_8_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_B c Set.univ (grid0.coords t) (fun h => h0 ((hcondA t).mp h)) ((hcondB t).mpr h0)
      _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t)
      (accB V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option maxHeartbeats 1000000 in
/-- The library's body obligation, at every point. -/
theorem body_obligation0 (c : Dev nD) : BodyObligation (dat0 (F := F) V c) (defs₀ (F := F)) Variants.none () Set.univ := fun t => by
  rw [bigSep_W0, bigSep_W0]
  rw [idle0_8 t]
  exact sound_body0 V c t

end Cert.KernelIdeal.Hand

end
-- ==== Proof.KI.R1.lean ====
/-
  Region 1 (the head), at any value instance, at the buffer contents V the region is entered with: one grid point.
  The body reads the pooled adjacency B = S A (64 x 10000), the first layer's output (10000 x 128), the graph ids as
  a row, the remaining weights, biases, scale and shift, and stores the 64 x 64 log-probabilities, one store of the
  whole output block.
-/
import proofs.«148953_g38087769981371_fold_wed_m_124_15_alg».proof.Proof.Gen.KernelIdeal.Launch
import proofs.«148953_g38087769981371_fold_wed_m_124_15_alg».proof.Proof.Gen.KernelIdeal.Skeleton
import proofs.«148953_g38087769981371_fold_wed_m_124_15_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at the point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

abbrev qB : Rect S64x10000 := Rect.unit (s := S64x10000) ![0, 0] S64x10000.size inb_S64x10000_S64x10000_0_0
abbrev qZ : Rect S10000x128 := Rect.unit (s := S10000x128) ![0, 0] S10000x128.size inb_S10000x128_S10000x128_0_0
abbrev qI : Rect S1x10000 := Rect.unit (s := S1x10000) ![0, 0] S1x10000.size inb_S1x10000_S1x10000_0_0
abbrev qW : Rect S128x128 := Rect.unit (s := S128x128) ![0, 0] S128x128.size inb_S128x128_S128x128_0_0
abbrev qb : Rect S1x128 := Rect.unit (s := S1x128) ![0, 0] S1x128.size inb_S1x128_S1x128_0_0
abbrev qW4 : Rect S128x64 := Rect.unit (s := S128x64) ![0, 0] S128x64.size inb_S128x64_S128x64_0_0
abbrev qb4 : Rect S1x64 := Rect.unit (s := S1x64) ![0, 0] S1x64.size inb_S1x64_S1x64_0_0
abbrev qO : Rect S64x64 := Rect.unit (s := S64x64) ![0, 0] S64x64.size inb_S64x64_S64x64_0_0

/-- The output window's buffer after the body: the log-probabilities, from the input windows' blocks. -/
def out1_11 (x0 : Vec F S64x10000 .f32) (x1 : Vec F S10000x128 .f32) (x2 : Vec F S1x10000 .i32) (x3 : Vec F S128x128 .f32) (x4 : Vec F S1x128 .f32) (x5 : Vec F S128x128 .f32) (x6 : Vec F S1x128 .f32) (x7 : Vec F S128x64 .f32) (x8 : Vec F S1x64 .f32) (x9 : Vec F S1x128 .f32) (x10 : Vec F S1x128 .f32) : Vec F S64x64 .f32 :=
  View.canon [⟨qO, k1_pay1 (k1_pay2 (View.ld x1 qZ) (View.ld x2 qI) (View.ld x0 qB) (View.ld x3 qW) (View.ld x4 qb))
    (View.ld x9 qb) (View.ld x10 qb) (View.ld x5 qW) (View.ld x6 qb) (View.ld x7 qW4) (View.ld x8 qb4)⟩]

theorem cover1_11 (p0 : Vec F S64x64 .f32) (y : S64x64.Idx) :
    ∃ pc ∈ ([⟨qO, p0⟩] : List (View.Piece (Elt F) S64x64 .f32)), y ∈ pc.1.set :=
  View.cover_of_tiled [⟨qO, p0⟩] S64x64.size (by rfl) y

set_option maxHeartbeats 1000000 in
/-- The body on whole staging memrefs, the inputs' at read contents and the output's at anything, runs to the
    continuation holding the inputs' as they were and the output's at the log-probabilities. -/
theorem sound_kernel1 (c : Dev nD) (E : Set ℕ) (arg0 : Memref sig .tc .vmem S64x10000 .f32) (harg0 : arg0.IsWhole) (arg1 : Memref sig .tc .vmem S10000x128 .f32) (harg1 : arg1.IsWhole) (arg2 : Memref sig .tc .vmem S1x10000 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S64x64 .f32) (harg11 : arg11.IsWhole)
    (x0 : Vec F S64x10000 .f32) (x1 : Vec F S10000x128 .f32) (x2 : Vec F S1x10000 .i32) (x3 : Vec F S128x128 .f32) (x4 : Vec F S1x128 .f32) (x5 : Vec F S128x128 .f32) (x6 : Vec F S1x128 .f32) (x7 : Vec F S128x64 .f32) (x8 : Vec F S1x64 .f32) (x9 : Vec F S1x128 .f32) (x10 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out1_11 x0 x1 x2 x3 x4 x5 x6 x7 x8 x9 x10)) -∗ K ⟨⟩))
      ⊢ wp frame (wpE (defs₀ (F := F)) Variants.none c none) E (cc1__head arg0 harg0 arg1 harg1 arg2 harg2 arg3 harg3 arg4 harg4 arg5 harg5 arg6 harg6 arg7 harg7 arg8 harg8 arg9 harg9 arg10 harg10 arg11 harg11) K := by
  simp only [cc1__head_eq_skeleton]; unfold cc1__head_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1_11 _)

/-- The proof data: the arrays as the region finds them; after the body each input's buffer at its block and the
    output's at the log-probabilities; nothing beyond the scoped rest and the generator register in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at the point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: seven host operations (the two reshapes of the graph ids, the split of the features into a
  rounded part and the rounded remainder, the bias as a row), region 0, five reshapes to rows, region 1. The buffer
  contents at each boundary are a fold from the launch memory; every weakly fair execution terminates and every
  unscoped buffer ends at the last boundary's contents: the arguments as launched, the result at what region 1's
  write-back leaves.
-/
import proofs.«148953_g38087769981371_fold_wed_m_124_15_alg».proof.Proof.KI.R0
import proofs.«148953_g38087769981371_fold_wed_m_124_15_alg».proof.Proof.KI.R1
import proofs.«148953_g38087769981371_fold_wed_m_124_15_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No item writes an argument: each ends as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 3).trans (((dat0 (V1 m ρ) c).arrAt_in 3 rfl _).trans (A_eq0 (V1 m ρ) c 3))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := (W2_arr m ρ c 5).trans (((dat0 (V1 m ρ) c).arrAt_in 5 rfl _).trans (A_eq0 (V1 m ρ) c 5))
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 5).trans (((dat1 (V3 m ρ) c).arrAt_in 5 rfl _).trans (A_eq1 (V3 m ρ) c 5))
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 7).trans (((dat1 (V3 m ρ) c).arrAt_in 7 rfl _).trans (A_eq1 (V3 m ρ) c 7))
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (r := main_arg10) (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_writes_sub hostOps1 _ hostOps1_writes (r := main_arg11) (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_writes_sub hostOps1 _ hostOps1_writes (r := main_arg12) (by decide)
    _ = W1 m ρ c (Proc.devRef .tc main_arg12) := W2_of_ne m ρ c main_arg12 (by decide)
    _ = W0 m ρ c (Proc.devRef .tc main_arg12) := StableHlo.after_of_writes_sub hostOps0 _ hostOps0_writes (r := main_arg12) (by decide)
    _ = m ((c : Thread nD τ).loc main_arg12) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents before it, left with them at
    the contents after it. Its arrays are split out of the unscoped buffers and put back at what the pipeline leaves;
    the generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the pipeline leaves;
    the generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c)⟩) (run_all m ρ)

end Cert.KernelIdeal.Hand

end
-- ==== Proof.Spec.lean ====
/-
  The mathematics of the graph-network forward pass, stated once over plain coordinates, as extended reals.

  Inputs: node features x (10000 x 128), a dense adjacency A (10000 x 10000), a graph id per node (a 32-bit word;
  a node whose id is not one of 0..63 belongs to no graph and is dropped by both programs), three dense layers,
  a final projection to 64 classes and the batch-norm scale and shift.

  Two arrangements of the same function are defined here.
  * The streamed arrangement (names k...): adjacency strips of 400 rows; per strip the first layer
    z = relu((A x + A (x - x) + x) W1 + b1) and the strip's contribution to B = S A, where S is the 64 x 10000
    one-hot membership matrix; the pooled second layer is then ((B + S) z) W2 + counts b2.
  * The textbook arrangement (names r...): z = relu(((A + I) x) W1 + b1), y = ((A + I) z) W2 + b2, pooled by
    summing the rows of y over each graph.
  Sum pooling is linear, so S ((A + I) z W2 + b2) = ((S A + S) z) W2 + counts b2: the two agree wherever
  every float input is finite (distributivity needs it on the extended reals). After the pooled layer both
  arrangements normalise each feature over the 64 graphs (mean, variance, epsilon), apply a dense layer with relu,
  project to the classes and take a log-softmax; they differ there only in x * rsqrt v against x / sqrt v,
  which agree at a positive finite v.
-/
import Idealize.ShloMosaic.PureOps.Ideal
import Idealize.ShloMosaic.PureOps.Ideal.Laws

noncomputable section

namespace Cert.Gnn

open Idealize.ShloMosaic

/-- The inputs at plain coordinates. -/
structure Inp where
  x : Fin 10000 → Fin 128 → EReal
  A : Fin 10000 → Fin 10000 → EReal
  idx : Fin 10000 → BitVec 32
  W1 : Fin 128 → Fin 128 → EReal
  b1 : Fin 128 → EReal
  W2 : Fin 128 → Fin 128 → EReal
  b2 : Fin 128 → EReal
  W3 : Fin 128 → Fin 128 → EReal
  b3 : Fin 128 → EReal
  W4 : Fin 128 → Fin 64 → EReal
  b4 : Fin 64 → EReal
  gam : Fin 128 → EReal
  bet : Fin 128 → EReal

/-- Every float input is a real number. -/
structure Inp.Finite (I : Inp) : Prop where
  x : ∃ v : Fin 10000 → Fin 128 → ℝ, I.x = fun r j => (v r j : EReal)
  A : ∃ v : Fin 10000 → Fin 10000 → ℝ, I.A = fun r k => (v r k : EReal)
  W1 : ∃ v : Fin 128 → Fin 128 → ℝ, I.W1 = fun r k => (v r k : EReal)
  b1 : ∃ v : Fin 128 → ℝ, I.b1 = fun k => (v k : EReal)
  W2 : ∃ v : Fin 128 → Fin 128 → ℝ, I.W2 = fun r k => (v r k : EReal)
  b2 : ∃ v : Fin 128 → ℝ, I.b2 = fun k => (v k : EReal)
  W3 : ∃ v : Fin 128 → Fin 128 → ℝ, I.W3 = fun r k => (v r k : EReal)
  b3 : ∃ v : Fin 128 → ℝ, I.b3 = fun k => (v k : EReal)
  W4 : ∃ v : Fin 128 → Fin 64 → ℝ, I.W4 = fun r k => (v r k : EReal)
  b4 : ∃ v : Fin 64 → ℝ, I.b4 = fun k => (v k : EReal)
  gam : ∃ v : Fin 128 → ℝ, I.gam = fun k => (v k : EReal)
  bet : ∃ v : Fin 128 → ℝ, I.bet = fun k => (v k : EReal)

/-- The literals both programs share, kept as their words: 64.0, 1e-5 as f32, and minus infinity. -/
def c64 : EReal := Ideal.ofBits .f32 0x42800000#32
def ceps : EReal := Ideal.ofBits .f32 0x3727C5AC#32
def cninf : EReal := Ideal.ofBits .f32 0xFF800000#32

/-- Membership of a node with id word w in graph g, as the streamed arrangement computes it: the word equals g. -/
def oh (g : Fin 64) (w : BitVec 32) : EReal := if BitVec.ofNat 32 g.val = w then 1 else 0

/-- Row r of strip t. -/
def row (t : Fin 25) (r : Fin 400) : Fin 10000 := ⟨400 * t.val + r.val, by have := t.isLt; have := r.isLt; omega⟩

/-! ## The streamed arrangement -/

def kH (I : Inp) (r : Fin 10000) (j : Fin 128) : EReal :=
  (∑ k : Fin 10000, I.A r k * I.x k j) + (∑ k : Fin 10000, I.A r k * (I.x k j - I.x k j)) + I.x r j

def kZ (I : Inp) (r : Fin 10000) (f : Fin 128) : EReal :=
  max ((∑ j : Fin 128, kH I r j * I.W1 j f) + I.b1 f) 0

/-- Strip t's contribution to S A. -/
def kPart (I : Inp) (t : Fin 25) (g : Fin 64) (n : Fin 10000) : EReal :=
  ∑ r : Fin 400, oh g (I.idx (row t r)) * I.A (row t r) n

/-- S A accumulated strip by strip: the first strip's contribution, then each later one added on the right. -/
def kB (I : Inp) : (n : ℕ) → n < 25 → Fin 64 → Fin 10000 → EReal
  | 0, h => kPart I ⟨0, h⟩
  | n + 1, h => fun g c => kB I n (Nat.lt_of_succ_lt h) g c + kPart I ⟨n + 1, h⟩ g c

def kSeg (I : Inp) (g : Fin 64) (f : Fin 128) : EReal :=
  (∑ j : Fin 128, (∑ n : Fin 10000, (kB I 24 (by decide) g n + oh g (I.idx n)) * kZ I n j) * I.W2 j f)
    + (∑ n : Fin 10000, oh g (I.idx n)) * I.b2 f

/-- Normalisation over the 64 graphs, the streamed way: (seg - mean) * rsqrt(var + eps) * gamma + beta. -/
def kNorm (I : Inp) (seg : Fin 64 → Fin 128 → EReal) (g : Fin 64) (f : Fin 128) : EReal :=
  let mean : EReal := Ideal.div (∑ g' : Fin 64, seg g' f) c64
  let var : EReal := Ideal.div (∑ g' : Fin 64, (seg g' f - mean) * (seg g' f - mean)) c64
  ((seg g f - mean) * Ideal.rsqrt (var + ceps)) * I.gam f + I.bet f

/-! ## The textbook arrangement -/

def rAt (I : Inp) (r k : Fin 10000) : EReal := I.A r k + (if r = k then 1 else 0)

def rY (I : Inp) (r : Fin 10000) (j : Fin 128) : EReal := ∑ k : Fin 10000, rAt I r k * I.x k j

def rZ (I : Inp) (r : Fin 10000) (f : Fin 128) : EReal :=
  max ((∑ j : Fin 128, rY I r j * I.W1 j f) + I.b1 f) 0

def rX2 (I : Inp) (r : Fin 10000) (j : Fin 128) : EReal := ∑ k : Fin 10000, rAt I r k * rZ I k j

def rX3 (I : Inp) (r : Fin 10000) (f : Fin 128) : EReal := (∑ j : Fin 128, rX2 I r j * I.W2 j f) + I.b2 f

/-- Sum pooling: the rows whose id word, read as a signed integer, is g. -/
def rSeg (I : Inp) (g : Fin 64) (f : Fin 128) : EReal :=
  ∑ n : Fin 10000, if (I.idx n).toInt = (g.val : ℤ) then rX3 I n f else 0

/-- Normalisation over the 64 graphs, the textbook way: (seg - mean) / sqrt(var + eps) * gamma + beta. -/
def rNorm (I : Inp) (seg : Fin 64 → Fin 128 → EReal) (g : Fin 64) (f : Fin 128) : EReal :=
  let mean : EReal := Ideal.div (∑ g' : Fin 64, seg g' f) c64
  let var : EReal := Ideal.div (∑ g' : Fin 64, (seg g' f - mean) * (seg g' f - mean)) c64
  Ideal.div (seg g f - mean) (Ideal.sqrt (var + ceps)) * I.gam f + I.bet f

/-! ## The shared tail: dense layer with relu, projection, log-softmax over the 64 classes -/

def tailLogits (I : Inp) (o : Fin 64 → Fin 128 → EReal) (g : Fin 64) (q : Fin 64) : EReal :=
  (∑ j : Fin 128, (max ((∑ f : Fin 128, o g f * I.W3 f j) + I.b3 j) 0) * I.W4 j q) + I.b4 q

def tail (I : Inp) (o : Fin 64 → Fin 128 → EReal) (g : Fin 64) (q : Fin 64) : EReal :=
  let lg : Fin 64 → EReal := tailLogits I o g
  let mx : EReal := (Finset.univ : Finset (Fin 64)).fold max cninf lg
  (lg q - mx) - Ideal.log (∑ q' : Fin 64, Ideal.exp (lg q' - mx))

/-- The streamed arrangement's result. -/
def kOut (I : Inp) : Fin 64 → Fin 64 → EReal := tail I (kNorm I (kSeg I))
/-- The textbook arrangement's result. -/
def rOut (I : Inp) : Fin 64 → Fin 64 → EReal := tail I (rNorm I (rSeg I))

end Cert.Gnn

end
-- ==== Proof.SpecK.lean ====
/-
  The inputs at plain coordinates read off the thirteen argument arrays, and the streamed arrangement's pooled
  second layer stated over ANY pooled adjacency Bf and first-layer output Z (the head computes it from what the
  streaming pass left, whatever that is).
-/
import proofs.«148953_g38087769981371_fold_wed_m_124_15_alg».proof.Proof.Spec
import Idealize.ShloMosaic.Lib.ValueIdx

noncomputable section

namespace Cert.Gnn

open Idealize.ShloMosaic Idealize.ShloMosaic.ValueIdx

/-- The inputs read off the argument arrays (features, adjacency, ids, the weights and biases, scale, shift). -/
def inpOf (a0 : (⟨2, ![10000, 128]⟩ : Shape).Idx → EReal) (a1 : (⟨2, ![10000, 10000]⟩ : Shape).Idx → EReal)
    (a2 : (⟨1, ![10000]⟩ : Shape).Idx → BitVec 32) (a3 : (⟨2, ![128, 128]⟩ : Shape).Idx → EReal) (a4 : (⟨1, ![128]⟩ : Shape).Idx → EReal)
    (a5 : (⟨2, ![128, 128]⟩ : Shape).Idx → EReal) (a6 : (⟨1, ![128]⟩ : Shape).Idx → EReal)
    (a7 : (⟨2, ![128, 128]⟩ : Shape).Idx → EReal) (a8 : (⟨1, ![128]⟩ : Shape).Idx → EReal)
    (a9 : (⟨2, ![128, 64]⟩ : Shape).Idx → EReal) (a10 : (⟨1, ![64]⟩ : Shape).Idx → EReal)
    (a11 : (⟨1, ![128]⟩ : Shape).Idx → EReal) (a12 : (⟨1, ![128]⟩ : Shape).Idx → EReal) : Inp where
  x r j := a0 (ix2 r j)
  A r k := a1 (ix2 r k)
  idx n := a2 (ix1 n)
  W1 j f := a3 (ix2 j f)
  b1 f := a4 (ix1 f)
  W2 j f := a5 (ix2 j f)
  b2 f := a6 (ix1 f)
  W3 j f := a7 (ix2 j f)
  b3 f := a8 (ix1 f)
  W4 j q := a9 (ix2 j q)
  b4 q := a10 (ix1 q)
  gam f := a11 (ix1 f)
  bet f := a12 (ix1 f)

/-- The pooled second layer over a given pooled adjacency and first-layer output. -/
def kSegOf (I : Inp) (Bf : Fin 64 → Fin 10000 → EReal) (Z : Fin 10000 → Fin 128 → EReal) (g : Fin 64) (f : Fin 128) : EReal :=
  (∑ j : Fin 128, (∑ n : Fin 10000, (Bf g n + oh g (I.idx n)) * Z n j) * I.W2 j f)
    + (∑ n : Fin 10000, oh g (I.idx n)) * I.b2 f

theorem kSeg_eq (I : Inp) : kSeg I = kSegOf I (kB I 24 (by decide)) (kZ I) := rfl

/-- The streamed arrangement's result over a given pooled adjacency and first-layer output. -/
def kOutOf (I : Inp) (Bf : Fin 64 → Fin 10000 → EReal) (Z : Fin 10000 → Fin 128 → EReal) : Fin 64 → Fin 64 → EReal :=
  tail I (kNorm I (kSegOf I Bf Z))

theorem kOut_eq (I : Inp) : kOut I = kOutOf I (kB I 24 (by decide)) (kZ I) := rfl

end Cert.Gnn

end
-- ==== Proof.KI.PayVal.lean ====
/-
  The kernel's five payloads read at an index, at the ideal values (floats are extended reals, every operation exact,
  a change of float format the identity).

  The streaming pass: the elementwise accumulation of the pooled adjacency; a strip's first layer
  relu((A x_hi + A x_lo + x) W1 + b1); and a strip's contribution to S A, the 64 x 400 one-hot membership matrix of
  the strip's ids times the strip. The head: the pooled second layer ((B + S) z) W2 + counts b2, normalised over
  the 64 graphs, then scale and shift, a dense layer with relu, the projection and a log-softmax over the classes.

  Every matrix product is a sum over its one contracted coordinate, every reduction a sum or a fold of max over the
  reduced coordinate, every layout operation a renaming of coordinates; the one-hot entry at (g, r) is 1 when the
  32-bit word of g equals the id word of r and 0 otherwise.
-/
import proofs.«148953_g38087769981371_fold_wed_m_124_15_alg».proof.Proof.Gen.KernelIdeal.Skeleton
import proofs.«148953_g38087769981371_fold_wed_m_124_15_alg».proof.Proof.SpecK
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Cert.Gnn
open Idealize.ShloMosaic Idealize.ShloMosaic.ValueIdx

/-! ## Layout operations at an index: the column forms -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## A reduction's source index: the reduced coordinate put back -/

/-- Reducing the columns of `[a, b]`: the source index over row `g` with column `k` is `(g, k)`. -/
theorem lift_cols {a b : ℕ} (h : (⟨2, ![a, b]⟩ : Shape).Reduces [1] ⟨1, ![a]⟩) (g : Fin a) (k : Fin b) :
    h.lift (ix1 g) k = ix2 g k :=
  funext fun c => Fin.ext (by match c with | ⟨0, _⟩ => rfl | ⟨1, _⟩ => rfl)

/-- Reducing the rows of `[a, b]`: the source index over column `f` with row `k` is `(k, f)`. -/
theorem lift_rows {a b : ℕ} (h : (⟨2, ![a, b]⟩ : Shape).Reduces [0] ⟨1, ![b]⟩) (f : Fin b) (k : Fin a) :
    h.lift (ix1 f) k = ix2 k f :=
  funext fun c => Fin.ext (by match c with | ⟨0, _⟩ => rfl | ⟨1, _⟩ => rfl)

/-! ## The one-hot entry -/

/-- The comparison bit of two words, widened to 32 bits and read as a signed integer: 1 when the words are equal,
    else 0. -/
theorem oh_word (g : Fin 64) (w : BitVec 32) :
    FloatOps.sitofp (F := Ideal) .f32 ((IntOp.cmpi .eq (BitVec.ofNat 32 g.val) w).setWidth 32) = oh g w := by
  unfold oh
  by_cases h : BitVec.ofNat 32 g.val = w
  · rw [if_pos h]
    have hc : IntOp.cmpi .eq (BitVec.ofNat 32 g.val) w = 1#1 := by
      show BitVec.ofBool (BitVec.ofNat 32 g.val == w) = 1#1
      rw [show (BitVec.ofNat 32 g.val == w) = true from beq_iff_eq.mpr h]; rfl
    rw [hc]
    show (((1#1 : BitVec 1).setWidth 32).toInt : ℝ) = (1 : EReal)
    norm_num
  · rw [if_neg h]
    have hc : IntOp.cmpi .eq (BitVec.ofNat 32 g.val) w = 0#1 := by
      show BitVec.ofBool (BitVec.ofNat 32 g.val == w) = 0#1
      rw [show (BitVec.ofNat 32 g.val == w) = false from beq_eq_false_iff_ne.mpr h]; rfl
    rw [hc]
    show (((0#1 : BitVec 1).setWidth 32).toInt : ℝ) = (0 : EReal)
    norm_num

/-! ## The six matrix products at an index -/

/-! ### The strip [400, 10000] times the features [10000, 128] -/

theorem lhs_a_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhs_a_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_a_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_a_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product into the zero accumulator at `(p, q)`: the sum over the contracted coordinate. -/
theorem mm_a {φ₁ φ₂ : FTy} (prec : Option ContractPrecision) (x : FVec Ideal S400x10000 φ₁) (y : FVec Ideal S10000x128 φ₂)
    (p : Fin 400) (q : Fin 128) :
    matmul dot_S400x10000_S10000x128_S400x128_1_0_0_1_n_n prec x y (constant (F := Ideal) S400x128 .f32 0x00000000#32) (ix2 p q)
      = ∑ k : Fin 10000, x (ix2 p k) * y (ix2 k q) := by
  show FloatOps.matmul dot_S400x10000_S10000x128_S400x128_1_0_0_1_n_n prec x y (constant S400x128 .f32 0x00000000#32) (ix2 p q) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k :=
    funext fun a => Fin.ext (by
      match a with
      | ⟨0, _⟩ => exact lhs_a_0 _ _
      | ⟨1, _⟩ => exact (lhs_a_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q :=
    funext fun a => Fin.ext (by
      match a with
      | ⟨0, _⟩ => exact (rhs_a_0 _ _).trans hk
      | ⟨1, _⟩ => exact rhs_a_1 _ _)
  rw [el, er]

/-! ### A strip's rows [400, 128] times a weight [128, 128] -/

theorem lhs_b_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem lhs_b_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_b_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_b_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The product into the zero accumulator at `(p, q)`: the sum over the contracted coordinate. -/
theorem mm_b {φ₁ φ₂ : FTy} (prec : Option ContractPrecision) (x : FVec Ideal S400x128 φ₁) (y : FVec Ideal S128x128 φ₂)
    (p : Fin 400) (q : Fin 128) :
    matmul dot_S400x128_S128x128_S400x128_1_0_0_1_n_n prec x y (constant (F := Ideal) S400x128 .f32 0x00000000#32) (ix2 p q)
      = ∑ k : Fin 128, x (ix2 p k) * y (ix2 k q) := by
  show FloatOps.matmul dot_S400x128_S128x128_S400x128_1_0_0_1_n_n prec x y (constant S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k :=
    funext fun a => Fin.ext (by
      match a with
      | ⟨0, _⟩ => exact lhs_b_0 _ _
      | ⟨1, _⟩ => exact (lhs_b_1 _ _).trans hk)
  have er : dot_S400x128_S128x128_S400x128_1_0_0_1_n_n.rhsIdx (ix2 p q) ((contrEquiv1 dot_S400x128_S128x128_S400x128_1_0_0_1_n_n 128 rfl rfl).symm k) = ix2 k q :=
    funext fun a => Fin.ext (by
      match a with
      | ⟨0, _⟩ => exact (rhs_b_0 _ _).trans hk
      | ⟨1, _⟩ => exact rhs_b_1 _ _)
  rw [el, er]

/-! ### The one-hot [64, 400] times the strip [400, 10000] -/

theorem lhs_c_0 (i : S64x10000.Idx) (q : dot_S64x400_S400x10000_S64x10000_1_0_0_1_n_n.contr.Idx) :
    (dot_S64x400_S400x10000_S64x10000_1_0_0_1_n_n.lhsIdx i q 0).val = (i 0).val := by
  unfold DotDims.lhsIdx
  rw [dif_neg (show ¬(0 : Fin S64x400.rank) ∈ dot_S64x400_S400x10000_S64x10000_1_0_0_1_n_n.lhsBatch by decide),
    dif_pos (show (0 : Fin S64x400.rank) ∈ dot_S64x400_S400x10000_S64x10000_1_0_0_1_n_n.lhsNonContracting by decide)]
  rfl
theorem lhs_c_1 (i : S64x10000.Idx) (q : dot_S64x400_S400x10000_S64x10000_1_0_0_1_n_n.contr.Idx) :
    (dot_S64x400_S400x10000_S64x10000_1_0_0_1_n_n.lhsIdx i q 1).val = (q ⟨0, by decide⟩).val :=
  dot_S64x400_S400x10000_S64x10000_1_0_0_1_n_n.lhsIdx_val_of_single rfl i q
theorem rhs_c_0 (i : S64x10000.Idx) (q : dot_S64x400_S400x10000_S64x10000_1_0_0_1_n_n.contr.Idx) :
    (dot_S64x400_S400x10000_S64x10000_1_0_0_1_n_n.rhsIdx i q 0).val = (q ⟨0, by decide⟩).val :=
  dot_S64x400_S400x10000_S64x10000_1_0_0_1_n_n.rhsIdx_val_of_single rfl i q
theorem rhs_c_1 (i : S64x10000.Idx) (q : dot_S64x400_S400x10000_S64x10000_1_0_0_1_n_n.contr.Idx) :
    (dot_S64x400_S400x10000_S64x10000_1_0_0_1_n_n.rhsIdx i q 1).val = (i 1).val := by
  unfold DotDims.rhsIdx
  rw [dif_neg (show ¬(1 : Fin S400x10000.rank) ∈ dot_S64x400_S400x10000_S64x10000_1_0_0_1_n_n.rhsBatch by decide),
    dif_pos (show (1 : Fin S400x10000.rank) ∈ dot_S64x400_S400x10000_S64x10000_1_0_0_1_n_n.rhsNonContracting by decide)]
  rfl

/-- The product into the zero accumulator at `(p, q)`: the sum over the contracted coordinate. -/
theorem mm_c {φ₁ φ₂ : FTy} (prec : Option ContractPrecision) (x : FVec Ideal S64x400 φ₁) (y : FVec Ideal S400x10000 φ₂)
    (p : Fin 64) (q : Fin 10000) :
    matmul dot_S64x400_S400x10000_S64x10000_1_0_0_1_n_n prec x y (constant (F := Ideal) S64x10000 .f32 0x00000000#32) (ix2 p q)
      = ∑ k : Fin 400, x (ix2 p k) * y (ix2 k q) := by
  show FloatOps.matmul dot_S64x400_S400x10000_S64x10000_1_0_0_1_n_n prec x y (constant S64x10000 .f32 0x00000000#32) (ix2 p q) = _
  rw [Ideal.matmul_constant_zero_apply, ← Equiv.sum_comp (contrEquiv1 dot_S64x400_S400x10000_S64x10000_1_0_0_1_n_n 400 rfl rfl).symm]
  refine Finset.sum_congr rfl fun k _ => ?_
  have hk := contrEquiv1_symm_val dot_S64x400_S400x10000_S64x10000_1_0_0_1_n_n 400 rfl rfl k
  have el : dot_S64x400_S400x10000_S64x10000_1_0_0_1_n_n.lhsIdx (ix2 p q) ((contrEquiv1 dot_S64x400_S400x10000_S64x10000_1_0_0_1_n_n 400 rfl rfl).symm k) = ix2 p k :=
    funext fun a => Fin.ext (by
      match a with
      | ⟨0, _⟩ => exact lhs_c_0 _ _
      | ⟨1, _⟩ => exact (lhs_c_1 _ _).trans hk)
  have er : dot_S64x400_S400x10000_S64x10000_1_0_0_1_n_n.rhsIdx (ix2 p q) ((contrEquiv1 dot_S64x400_S400x10000_S64x10000_1_0_0_1_n_n 400 rfl rfl).symm k) = ix2 k q :=
    funext fun a => Fin.ext (by
      match a with
      | ⟨0, _⟩ => exact (rhs_c_0 _ _).trans hk
      | ⟨1, _⟩ => exact rhs_c_1 _ _)
  rw [el, er]

/-! ### The pooled adjacency [64, 10000] times the first layer's output [10000, 128] -/

theorem lhs_d_0 (i : S64x128.Idx) (q : dot_S64x10000_S10000x128_S64x128_1_0_0_1_n_n.contr.Idx) :
    (dot_S64x10000_S10000x128_S64x128_1_0_0_1_n_n.lhsIdx i q 0).val = (i 0).val := by
  unfold DotDims.lhsIdx
  rw [dif_neg (show ¬(0 : Fin S64x10000.rank) ∈ dot_S64x10000_S10000x128_S64x128_1_0_0_1_n_n.lhsBatch by decide),
    dif_pos (show (0 : Fin S64x10000.rank) ∈ dot_S64x10000_S10000x128_S64x128_1_0_0_1_n_n.lhsNonContracting by decide)]
  rfl
theorem lhs_d_1 (i : S64x128.Idx) (q : dot_S64x10000_S10000x128_S64x128_1_0_0_1_n_n.contr.Idx) :
    (dot_S64x10000_S10000x128_S64x128_1_0_0_1_n_n.lhsIdx i q 1).val = (q ⟨0, by decide⟩).val :=
  dot_S64x10000_S10000x128_S64x128_1_0_0_1_n_n.lhsIdx_val_of_single rfl i q
theorem rhs_d_0 (i : S64x128.Idx) (q : dot_S64x10000_S10000x128_S64x128_1_0_0_1_n_n.contr.Idx) :
    (dot_S64x10000_S10000x128_S64x128_1_0_0_1_n_n.rhsIdx i q 0).val = (q ⟨0, by decide⟩).val :=
  dot_S64x10000_S10000x128_S64x128_1_0_0_1_n_n.rhsIdx_val_of_single rfl i q
theorem rhs_d_1 (i : S64x128.Idx) (q : dot_S64x10000_S10000x128_S64x128_1_0_0_1_n_n.contr.Idx) :
    (dot_S64x10000_S10000x128_S64x128_1_0_0_1_n_n.rhsIdx i q 1).val = (i 1).val := by
  unfold DotDims.rhsIdx
  rw [dif_neg (show ¬(1 : Fin S10000x128.rank) ∈ dot_S64x10000_S10000x128_S64x128_1_0_0_1_n_n.rhsBatch by decide),
    dif_pos (show (1 : Fin S10000x128.rank) ∈ dot_S64x10000_S10000x128_S64x128_1_0_0_1_n_n.rhsNonContracting by decide)]
  rfl

/-- The product into the zero accumulator at `(p, q)`: the sum over the contracted coordinate. -/
theorem mm_d {φ₁ φ₂ : FTy} (prec : Option ContractPrecision) (x : FVec Ideal S64x10000 φ₁) (y : FVec Ideal S10000x128 φ₂)
    (p : Fin 64) (q : Fin 128) :
    matmul dot_S64x10000_S10000x128_S64x128_1_0_0_1_n_n prec x y (constant (F := Ideal) S64x128 .f32 0x00000000#32) (ix2 p q)
      = ∑ k : Fin 10000, x (ix2 p k) * y (ix2 k q) := by
  show FloatOps.matmul dot_S64x10000_S10000x128_S64x128_1_0_0_1_n_n prec x y (constant S64x128 .f32 0x00000000#32) (ix2 p q) = _
  rw [Ideal.matmul_constant_zero_apply, ← Equiv.sum_comp (contrEquiv1 dot_S64x10000_S10000x128_S64x128_1_0_0_1_n_n 10000 rfl rfl).symm]
  refine Finset.sum_congr rfl fun k _ => ?_
  have hk := contrEquiv1_symm_val dot_S64x10000_S10000x128_S64x128_1_0_0_1_n_n 10000 rfl rfl k
  have el : dot_S64x10000_S10000x128_S64x128_1_0_0_1_n_n.lhsIdx (ix2 p q) ((contrEquiv1 dot_S64x10000_S10000x128_S64x128_1_0_0_1_n_n 10000 rfl rfl).symm k) = ix2 p k :=
    funext fun a => Fin.ext (by
      match a with
      | ⟨0, _⟩ => exact lhs_d_0 _ _
      | ⟨1, _⟩ => exact (lhs_d_1 _ _).trans hk)
  have er : dot_S64x10000_S10000x128_S64x128_1_0_0_1_n_n.rhsIdx (ix2 p q) ((contrEquiv1 dot_S64x10000_S10000x128_S64x128_1_0_0_1_n_n 10000 rfl rfl).symm k) = ix2 k q :=
    funext fun a => Fin.ext (by
      match a with
      | ⟨0, _⟩ => exact (rhs_d_0 _ _).trans hk
      | ⟨1, _⟩ => exact rhs_d_1 _ _)
  rw [el, er]

/-! ### The pooled rows [64, 128] times a weight [128, 128] -/

theorem lhs_e_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
theorem lhs_e_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_e_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_e_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- The product into the zero accumulator at `(p, q)`: the sum over the contracted coordinate. -/
theorem mm_e {φ₁ φ₂ : FTy} (prec : Option ContractPrecision) (x : FVec Ideal S64x128 φ₁) (y : FVec Ideal S128x128 φ₂)
    (p : Fin 64) (q : Fin 128) :
    matmul dot_S64x128_S128x128_S64x128_1_0_0_1_n_n prec x y (constant (F := Ideal) S64x128 .f32 0x00000000#32) (ix2 p q)
      = ∑ k : Fin 128, x (ix2 p k) * y (ix2 k q) := by
  show FloatOps.matmul dot_S64x128_S128x128_S64x128_1_0_0_1_n_n prec x y (constant S64x128 .f32 0x00000000#32) (ix2 p q) = _
  rw [Ideal.matmul_constant_zero_apply, ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 p q) ((contrEquiv1 dot_S64x128_S128x128_S64x128_1_0_0_1_n_n 128 rfl rfl).symm k) = ix2 p k :=
    funext fun a => Fin.ext (by
      match a with
      | ⟨0, _⟩ => exact lhs_e_0 _ _
      | ⟨1, _⟩ => exact (lhs_e_1 _ _).trans hk)
  have er : dot_S64x128_S128x128_S64x128_1_0_0_1_n_n.rhsIdx (ix2 p q) ((contrEquiv1 dot_S64x128_S128x128_S64x128_1_0_0_1_n_n 128 rfl rfl).symm k) = ix2 k q :=
    funext fun a => Fin.ext (by
      match a with
      | ⟨0, _⟩ => exact (rhs_e_0 _ _).trans hk
      | ⟨1, _⟩ => exact rhs_e_1 _ _)
  rw [el, er]

/-! ### The pooled rows [64, 128] times the projection [128, 64] -/

theorem lhs_f_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide),
    dif_pos (show (0 : Fin S64x128.rank) ∈ dot_S64x128_S128x64_S64x64_1_0_0_1_n_n.lhsNonContracting by decide)]
  rfl
theorem lhs_f_1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q
theorem rhs_f_0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q
theorem rhs_f_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide),
    dif_pos (show (1 : Fin S128x64.rank) ∈ dot_S64x128_S128x64_S64x64_1_0_0_1_n_n.rhsNonContracting by decide)]
  rfl

/-- The product into the zero accumulator at `(p, q)`: the sum over the contracted coordinate. -/
theorem mm_f {φ₁ φ₂ : FTy} (prec : Option ContractPrecision) (x : FVec Ideal S64x128 φ₁) (y : FVec Ideal S128x64 φ₂)
    (p : Fin 64) (q : Fin 64) :
    matmul dot_S64x128_S128x64_S64x64_1_0_0_1_n_n prec x y (constant (F := Ideal) S64x64 .f32 0x00000000#32) (ix2 p q)
      = ∑ k : Fin 128, x (ix2 p k) * y (ix2 k q) := by
  show FloatOps.matmul dot_S64x128_S128x64_S64x64_1_0_0_1_n_n prec x y (constant S64x64 .f32 0x00000000#32) (ix2 p q) = _
  rw [Ideal.matmul_constant_zero_apply, ← Equiv.sum_comp (contrEquiv1 dot_S64x128_S128x64_S64x64_1_0_0_1_n_n 128 rfl rfl).symm]
  refine Finset.sum_congr rfl fun k _ => ?_
  have hk := contrEquiv1_symm_val dot_S64x128_S128x64_S64x64_1_0_0_1_n_n 128 rfl rfl k
  have el : dot_S64x128_S128x64_S64x64_1_0_0_1_n_n.lhsIdx (ix2 p q) ((contrEquiv1 dot_S64x128_S128x64_S64x64_1_0_0_1_n_n 128 rfl rfl).symm k) = ix2 p k :=
    funext fun a => Fin.ext (by
      match a with
      | ⟨0, _⟩ => exact lhs_f_0 _ _
      | ⟨1, _⟩ => exact (lhs_f_1 _ _).trans hk)
  have er : dot_S64x128_S128x64_S64x64_1_0_0_1_n_n.rhsIdx (ix2 p q) ((contrEquiv1 dot_S64x128_S128x64_S64x64_1_0_0_1_n_n 128 rfl rfl).symm k) = ix2 k q :=
    funext fun a => Fin.ext (by
      match a with
      | ⟨0, _⟩ => exact (rhs_f_0 _ _).trans hk
      | ⟨1, _⟩ => exact rhs_f_1 _ _)
  rw [el, er]

/-! ## The streaming pass's accumulation -/

theorem pay1_apply (v28 : FVec Ideal S64x10000 .f32) (v35 : Vec Ideal S64x10000 .f32) (i : S64x10000.Idx) :
    k0_pay1 v28 v35 i = v35 i + v28 i := by
  unfold k0_pay1
  show addf (shapeCast S64x10000 v35 shapeCasts_S64x10000_S64x10000) v28 i = _
  rw [addf_apply, shapeCast_self]

/-! ## A strip's contribution to the pooled adjacency -/

/-- The strip's one-hot membership matrix at `(g, r)`: 1 when the word of `g` is row `r`'s id word, else 0. -/
theorem oh400_apply (v20 : Vec Ideal S1x1x400 .i32) (g : Fin 64) (r : Fin 400) :
    (sitofp (F := Ideal) .f32 (extui 32 (cmpi .eq (iota .tc S64x400 32 [0] iota_S64x400_d0_w32)
        (broadcastTo S64x400 (shapeCast S1x400 (shapeCast S400 v20 shapeCasts_S1x1x400_S400) shapeCasts_S400_S1x400)
          broadcasts_S1x400_S64x400)) natLt_1_32) : FVec Ideal S64x400 .f32) (ix2 g r)
      = oh g (v20 (ix3 0 0 r)) := by
  rw [sitofp_apply, extui_apply]
  show FloatOps.sitofp .f32 ((IntOp.cmpi .eq (iota .tc S64x400 32 [0] iota_S64x400_d0_w32 (ix2 g r))
      (broadcastTo S64x400 (shapeCast S1x400 (shapeCast S400 v20 shapeCasts_S1x1x400_S400) shapeCasts_S400_S1x400)
        broadcasts_S1x400_S64x400 (ix2 g r))).setWidth 32) = _
  rw [iota_single_apply, broadcastTo_1b_ab_apply, shapeCast_a_1a_apply, shapeCast_11a_a_apply]
  exact oh_word g _

theorem pay3_apply (v0 : Vec Ideal S400x10000 .f32) (v20 : Vec Ideal S1x1x400 .i32) (g : Fin 64) (n : Fin 10000) :
    k0_pay3 v0 v20 (ix2 g n) = ∑ r : Fin 400, oh g (v20 (ix3 0 0 r)) * v0 (ix2 r n) := by
  unfold k0_pay3
  exact (mm_c (φ₁ := .f32) (φ₂ := .f32) none _ v0 g n).trans
    (Finset.sum_congr rfl fun r _ => congrArg (· * v0 (ix2 r n)) (oh400_apply v20 g r))

/-! ## A strip's first layer -/

theorem pay2_apply (v0 : Vec Ideal S400x10000 .f32) (v2 v5 : Vec Ideal S10000x128 .bf16) (v9 : Vec Ideal S400x128 .f32)
    (v11 : Vec Ideal S128x128 .f32) (v13 : Vec Ideal S1x128 .f32) (r : Fin 400) (f : Fin 128) :
    k0_pay2 v0 v2 v5 v9 v11 v13 (ix2 r f)
      = max ((∑ j : Fin 128, ((∑ k : Fin 10000, v0 (ix2 r k) * v2 (ix2 k j))
          + (∑ k : Fin 10000, v0 (ix2 r k) * v5 (ix2 k j)) + v9 (ix2 r j)) * v11 (ix2 j f)) + v13 (ix2 0 f)) 0 := by
  unfold k0_pay2
  simp only [shapeCast_self]
  refine (maximumf_apply _ _ _).trans (congrArg₂ max ?_ ?_)
  · refine (addf_apply _ _ _).trans (congrArg₂ (· + ·) ?_ ?_)
    · refine (mm_b (φ₁ := .f32) (φ₂ := .f32) _ _ v11 r f).trans ?_
      refine Finset.sum_congr rfl fun j _ => congrArg (· * v11 (ix2 j f)) ?_
      refine (addf_apply _ _ _).trans (congrArg (· + v9 (ix2 r j)) ?_)
      refine (addf_apply _ _ _).trans (congrArg₂ (· + ·) ?_ ?_)
      · exact mm_a (φ₁ := .bf16) (φ₂ := .bf16) none (truncf .bf16 v0 bitsLt_bf16_f32) v2 r j
      · exact mm_a (φ₁ := .bf16) (φ₂ := .bf16) none (truncf .bf16 v0 bitsLt_bf16_f32) v5 r j
    · exact broadcastTo_1b_ab_apply v13 _ r f
  · show Ideal.ofBits .f32 0x00000000#32 = 0
    exact Ideal.ofBits_zero_f32

/-! ## The head: the pooled second layer -/

/-- The membership matrix S (64 x 10000) as the head builds it from the row of ids. -/
def ohAll (ids : Vec Ideal S1x10000 .i32) : FVec Ideal S64x10000 .f32 :=
  sitofp .f32 (extui 32 (cmpi .eq (iota .tc S64x10000 32 [0] iota_S64x10000_d0_w32)
    (broadcastTo S64x10000 (shapeCast S1x10000 (shapeCast S10000 ids shapeCasts_S1x10000_S10000) shapeCasts_S10000_S1x10000)
      broadcasts_S1x10000_S64x10000)) natLt_1_32)

/-- Its entry at `(g, n)`: 1 when the word of `g` is node `n`'s id word, else 0. -/
theorem ohAll_apply (ids : Vec Ideal S1x10000 .i32) (g : Fin 64) (n : Fin 10000) :
    ohAll ids (ix2 g n) = oh g (ids (ix2 0 n)) := by
  unfold ohAll
  rw [sitofp_apply, extui_apply]
  show FloatOps.sitofp .f32 ((IntOp.cmpi .eq (iota .tc S64x10000 32 [0] iota_S64x10000_d0_w32 (ix2 g n))
      (broadcastTo S64x10000 (shapeCast S1x10000 (shapeCast S10000 ids shapeCasts_S1x10000_S10000) shapeCasts_S10000_S1x10000)
        broadcasts_S1x10000_S64x10000 (ix2 g n))).setWidth 32) = _
  rw [iota_single_apply, broadcastTo_1b_ab_apply, shapeCast_a_1a_apply, shapeCast_1a_a_apply]
  exact oh_word g _

/-- The pooled second layer ((B + S) z) W2 + counts b2, as the head computes it. -/
def segV (z : Vec Ideal S10000x128 .f32) (ids : Vec Ideal S1x10000 .i32) (B : Vec Ideal S64x10000 .f32)
    (w2 : Vec Ideal S128x128 .f32) (b2 : Vec Ideal S1x128 .f32) : FVec Ideal S64x128 .f32 :=
  addf
    (matmul (φ₁ := .f32) (φ₂ := .f32) dot_S64x128_S128x128_S64x128_1_0_0_1_n_n (some .fp32)
      (matmul (φ₁ := .f32) (φ₂ := .f32) dot_S64x10000_S10000x128_S64x128_1_0_0_1_n_n (some .fp32)
        (addf (shapeCast S64x10000 B shapeCasts_S64x10000_S64x10000) (ohAll ids))
        (shapeCast S10000x128 z shapeCasts_S10000x128_S10000x128) (constant S64x128 .f32 0x00000000#32))
      w2 (constant S64x128 .f32 0x00000000#32))
    (mulf
      (broadcastTo S64x128
        (shapeCast S64x1 (multiReduction .add [1] S64 (ohAll ids) 0x00000000#32 reduces_S64x10000_S64 (.inl rfl) rfl)
          shapeCasts_S64_S64x1) broadcasts_S64x1_S64x128)
      (broadcastTo S64x128 (shapeCast S1x128 b2 shapeCasts_S1x128_S1x128) broadcasts_S1x128_S64x128))

/-- At `(g, f)` it is the pooled second layer of the specification over the pooled adjacency and first-layer output
    the arrays hold. -/
theorem segV_apply (I : Inp) (Bf : Fin 64 → Fin 10000 → EReal) (Z : Fin 10000 → Fin 128 → EReal)
    (z : Vec Ideal S10000x128 .f32) (ids : Vec Ideal S1x10000 .i32) (B : Vec Ideal S64x10000 .f32)
    (w2 : Vec Ideal S128x128 .f32) (b2 : Vec Ideal S1x128 .f32)
    (hz : ∀ n j, z (ix2 n j) = Z n j) (hB : ∀ g n, B (ix2 g n) = Bf g n) (hid : ∀ n, ids (ix2 0 n) = I.idx n)
    (hw2 : ∀ j f, w2 (ix2 j f) = I.W2 j f) (hb2 : ∀ f, b2 (ix2 0 f) = I.b2 f) (g : Fin 64) (f : Fin 128) :
    segV z ids B w2 b2 (ix2 g f) = kSegOf I Bf Z g f := by
  unfold segV kSegOf
  simp only [shapeCast_self]
  refine (addf_apply _ _ _).trans (congrArg₂ (· + ·) ?_ ?_)
  · refine (mm_e (φ₁ := .f32) (φ₂ := .f32) _ _ w2 g f).trans ?_
    refine Finset.sum_congr rfl fun j _ => ?_
    rw [hw2 j f]
    refine congrArg (· * I.W2 j f) ?_
    refine (mm_d (φ₁ := .f32) (φ₂ := .f32) _ _ z g j).trans ?_
    refine Finset.sum_congr rfl fun n _ => ?_
    rw [hz n j, addf_apply, hB g n, ohAll_apply, hid n]
  · refine (mulf_apply _ _ _).trans (congrArg₂ (· * ·) ?_ ?_)
    · refine (broadcastTo_a1_ab_apply _ _ g f).trans ?_
      refine (shapeCast_a_a1_apply _ _ g 0).trans ?_
      refine (Ideal.multiReduction_add_single (ohAll ids) _ reduces_S64x10000_S64 _ _ (ix1 g)).trans ?_
      exact Finset.sum_congr rfl fun n _ =>
        (congrArg (ohAll ids) (lift_cols _ g n)).trans ((ohAll_apply ids g n).trans (congrArg (oh g) (hid n)))
    · exact (broadcastTo_1b_ab_apply b2 _ g f).trans (hb2 f)

/-! ## The head: the normalisation over the 64 graphs -/

/-- The mean of a feature over the 64 graphs, as the specification's normalisation takes it. -/
def meanOf (seg : Fin 64 → Fin 128 → EReal) (f : Fin 128) : EReal := Ideal.div (∑ g' : Fin 64, seg g' f) c64
/-- The variance of a feature over the 64 graphs. -/
def varOf (seg : Fin 64 → Fin 128 → EReal) (f : Fin 128) : EReal :=
  Ideal.div (∑ g' : Fin 64, (seg g' f - meanOf seg f) * (seg g' f - meanOf seg f)) c64

/-- The specification's normalisation with its mean and variance named. -/
theorem kNorm_eq (I : Inp) (seg : Fin 64 → Fin 128 → EReal) (g : Fin 64) (f : Fin 128) :
    kNorm I seg g f = ((seg g f - meanOf seg f) * Ideal.rsqrt (varOf seg f + ceps)) * I.gam f + I.bet f := rfl

/-- The sum of a [64, 128] vector over its rows, kept as a row [1, 128]: at `(0, f)` the sum over the 64 rows. -/
theorem rowSum_apply (x : FVec Ideal S64x128 .f32) (f : Fin 128) :
    shapeCast S1x128 (multiReduction .add [0] S128 x 0x00000000#32 reduces_S64x128_S128 (.inl rfl) rfl)
        shapeCasts_S128_S1x128 (ix2 0 f) = ∑ g : Fin 64, x (ix2 g f) := by
  refine (shapeCast_a_1a_apply _ _ 0 f).trans ?_
  refine (Ideal.multiReduction_add_single x _ reduces_S64x128_S128 _ _ (ix1 f)).trans ?_
  exact Finset.sum_congr rfl fun g _ => congrArg x (lift_rows _ f g)

/-- The row of feature means. -/
def meanRow (s : FVec Ideal S64x128 .f32) : FVec Ideal S1x128 .f32 :=
  divf (shapeCast S1x128 (multiReduction .add [0] S128 s 0x00000000#32 reduces_S64x128_S128 (.inl rfl) rfl)
      shapeCasts_S128_S1x128) (broadcast S1x128 (Scalar.ofBits .f32 0x42800000#32))
/-- The pooled layer with each feature's mean taken off. -/
def centred (s : FVec Ideal S64x128 .f32) : FVec Ideal S64x128 .f32 :=
  subf s (broadcastTo S64x128 (meanRow s) broadcasts_S1x128_S64x128)
/-- The row of feature variances. -/
def varRow (s : FVec Ideal S64x128 .f32) : FVec Ideal S1x128 .f32 :=
  divf (shapeCast S1x128 (multiReduction .add [0] S128 (mulf (centred s) (centred s)) 0x00000000#32
      reduces_S64x128_S128 (.inl rfl) rfl) shapeCasts_S128_S1x128) (broadcast S1x128 (Scalar.ofBits .f32 0x42800000#32))
/-- The normalised pooled layer, before scale and shift. -/
def normV (s : FVec Ideal S64x128 .f32) : FVec Ideal S64x128 .f32 :=
  mulf (centred s) (broadcastTo S64x128
    (rsqrt (addf (varRow s) (broadcast S1x128 (Scalar.ofBits .f32 0x3727C5AC#32)))) broadcasts_S1x128_S64x128)

section Norm
variable (s : FVec Ideal S64x128 .f32) (seg : Fin 64 → Fin 128 → EReal) (hs : ∀ g f, s (ix2 g f) = seg g f)
include hs

theorem meanRow_apply (f : Fin 128) : meanRow s (ix2 0 f) = meanOf seg f := by
  unfold meanRow meanOf
  refine (divf_apply _ _ _).trans (congrArg₂ Ideal.div ?_ rfl)
  exact (rowSum_apply s f).trans (Finset.sum_congr rfl fun g _ => hs g f)

theorem centred_apply (g : Fin 64) (f : Fin 128) : centred s (ix2 g f) = seg g f - meanOf seg f := by
  unfold centred
  refine (subf_apply _ _ _).trans (congrArg₂ (· - ·) (hs g f) ?_)
  exact (broadcastTo_1b_ab_apply _ _ g f).trans (meanRow_apply s seg hs f)

theorem varRow_apply (f : Fin 128) : varRow s (ix2 0 f) = varOf seg f := by
  unfold varRow varOf
  refine (divf_apply _ _ _).trans (congrArg₂ Ideal.div ?_ rfl)
  refine (rowSum_apply _ f).trans (Finset.sum_congr rfl fun g _ => ?_)
  rw [mulf_apply, centred_apply s seg hs]

theorem normV_apply (g : Fin 64) (f : Fin 128) :
    normV s (ix2 g f) = (seg g f - meanOf seg f) * Ideal.rsqrt (varOf seg f + ceps) := by
  unfold normV
  refine (mulf_apply _ _ _).trans (congrArg₂ (· * ·) (centred_apply s seg hs g f) ?_)
  refine (broadcastTo_1b_ab_apply _ _ g f).trans ?_
  show Ideal.rsqrt (varRow s (ix2 0 f) + ceps) = _
  rw [varRow_apply s seg hs]

end Norm

/-- The head's first payload is the normalisation of the pooled second layer. -/
theorem k1_pay2_eq (z : Vec Ideal S10000x128 .f32) (ids : Vec Ideal S1x10000 .i32) (B : Vec Ideal S64x10000 .f32)
    (w2 : Vec Ideal S128x128 .f32) (b2 : Vec Ideal S1x128 .f32) :
    k1_pay2 z ids B w2 b2 = normV (segV z ids B w2 b2) := rfl

/-! ## The head: scale and shift, the dense layer with relu, the projection -/

/-- The logits from the normalised pooled layer, as the head computes them. -/
def logitsV (o : FVec Ideal S64x128 .f32) (gam bet : Vec Ideal S1x128 .f32) (w3 : Vec Ideal S128x128 .f32)
    (b3 : Vec Ideal S1x128 .f32) (w4 : Vec Ideal S128x64 .f32) (b4 : Vec Ideal S1x64 .f32) : FVec Ideal S64x64 .f32 :=
  addf
    (matmul (φ₁ := .f32) (φ₂ := .f32) dot_S64x128_S128x64_S64x64_1_0_0_1_n_n (some .fp32)
      (maximumf
        (addf
          (matmul (φ₁ := .f32) (φ₂ := .f32) dot_S64x128_S128x128_S64x128_1_0_0_1_n_n (some .fp32)
            (addf (mulf o (broadcastTo S64x128 (shapeCast S1x128 gam shapeCasts_S1x128_S1x128) broadcasts_S1x128_S64x128))
              (broadcastTo S64x128 (shapeCast S1x128 bet shapeCasts_S1x128_S1x128) broadcasts_S1x128_S64x128))
            w3 (constant S64x128 .f32 0x00000000#32))
          (broadcastTo S64x128 (shapeCast S1x128 b3 shapeCasts_S1x128_S1x128) broadcasts_S1x128_S64x128))
        (broadcast S64x128 (Scalar.ofBits .f32 0x00000000#32)))
      w4 (constant S64x64 .f32 0x00000000#32))
    (broadcastTo S64x64 (shapeCast S1x64 b4 shapeCasts_S1x64_S1x64) broadcasts_S1x64_S64x64)

/-- At `(g, q)` they are the specification's logits over the scaled and shifted normalised layer `O`. -/
theorem logitsV_apply (I : Inp) (O : Fin 64 → Fin 128 → EReal) (o : FVec Ideal S64x128 .f32)
    (gam bet : Vec Ideal S1x128 .f32) (w3 : Vec Ideal S128x128 .f32) (b3 : Vec Ideal S1x128 .f32)
    (w4 : Vec Ideal S128x64 .f32) (b4 : Vec Ideal S1x64 .f32)
    (ho : ∀ g f, o (ix2 g f) * gam (ix2 0 f) + bet (ix2 0 f) = O g f)
    (hw3 : ∀ j f, w3 (ix2 j f) = I.W3 j f) (hb3 : ∀ f, b3 (ix2 0 f) = I.b3 f)
    (hw4 : ∀ j q, w4 (ix2 j q) = I.W4 j q) (hb4 : ∀ q, b4 (ix2 0 q) = I.b4 q) (g q : Fin 64) :
    logitsV o gam bet w3 b3 w4 b4 (ix2 g q) = tailLogits I O g q := by
  unfold logitsV tailLogits
  simp only [shapeCast_self]
  refine (addf_apply _ _ _).trans (congrArg₂ (· + ·) ?_ ?_)
  · refine (mm_f (φ₁ := .f32) (φ₂ := .f32) _ _ w4 g q).trans ?_
    refine Finset.sum_congr rfl fun j _ => ?_
    rw [hw4 j q]
    refine congrArg (· * I.W4 j q) ?_
    refine (maximumf_apply _ _ _).trans (congrArg₂ max ?_ ?_)
    · refine (addf_apply _ _ _).trans (congrArg₂ (· + ·) ?_ ?_)
      · refine (mm_e (φ₁ := .f32) (φ₂ := .f32) _ _ w3 g j).trans ?_
        refine Finset.sum_congr rfl fun f _ => ?_
        rw [hw3 f j]
        refine congrArg (· * I.W3 f j) ?_
        refine (addf_apply _ _ _).trans ?_
        rw [mulf_apply, broadcastTo_1b_ab_apply, broadcastTo_1b_ab_apply]
        exact ho g f
      · exact (broadcastTo_1b_ab_apply b3 _ g j).trans (hb3 j)
    · show Ideal.ofBits .f32 0x00000000#32 = 0
      exact Ideal.ofBits_zero_f32
  · exact (broadcastTo_1b_ab_apply b4 _ g q).trans (hb4 q)

/-! ## The head: the log-softmax over the 64 classes -/

/-- Each row's maximum, spread back over the row. -/
def rowMax (l : FVec Ideal S64x64 .f32) : FVec Ideal S64x64 .f32 :=
  broadcastTo S64x64 (shapeCast S64x1
    (multiReduction .maximumf [1] S64 l 0xFF800000#32 reduces_S64x64_S64 (.inl rfl) rfl) shapeCasts_S64_S64x1)
    broadcasts_S64x1_S64x64
/-- The logits with their row's maximum taken off. -/
def shifted (l : FVec Ideal S64x64 .f32) : FVec Ideal S64x64 .f32 := subf l (rowMax l)
/-- The log-softmax of each row. -/
def lsmV (l : FVec Ideal S64x64 .f32) : FVec Ideal S64x64 .f32 :=
  subf (shifted l) (broadcastTo S64x64 (log (shapeCast S64x1
    (multiReduction .add [1] S64 (exp (shifted l)) 0x00000000#32 reduces_S64x64_S64 (.inl rfl) rfl) shapeCasts_S64_S64x1))
    broadcasts_S64x1_S64x64)

section Lsm
variable (l : FVec Ideal S64x64 .f32) (g : Fin 64) (lg : Fin 64 → EReal) (hl : ∀ q, l (ix2 g q) = lg q)
include hl

theorem rowMax_apply (q : Fin 64) : rowMax l (ix2 g q) = (Finset.univ : Finset (Fin 64)).fold max cninf lg := by
  unfold rowMax
  refine (broadcastTo_a1_ab_apply _ _ g q).trans ?_
  refine (shapeCast_a_a1_apply _ _ g 0).trans ?_
  refine (Ideal.multiReduction_maximumf_single l _ reduces_S64x64_S64 _ _ (ix1 g)).trans ?_
  have hfun : (l ∘ reduces_S64x64_S64.lift (ix1 g)) = lg :=
    funext fun q' => (congrArg l (lift_cols _ g q')).trans (hl q')
  rw [hfun]
  rfl

theorem shifted_apply (q : Fin 64) :
    shifted l (ix2 g q) = lg q - (Finset.univ : Finset (Fin 64)).fold max cninf lg := by
  unfold shifted
  exact (subf_apply _ _ _).trans (congrArg₂ (· - ·) (hl q) (rowMax_apply l g lg hl q))

theorem lsmV_apply (q : Fin 64) :
    lsmV l (ix2 g q) = (lg q - (Finset.univ : Finset (Fin 64)).fold max cninf lg)
      - Ideal.log (∑ q' : Fin 64, Ideal.exp (lg q' - (Finset.univ : Finset (Fin 64)).fold max cninf lg)) := by
  unfold lsmV
  refine (subf_apply _ _ _).trans (congrArg₂ (· - ·) (shifted_apply l g lg hl q) ?_)
  refine (broadcastTo_a1_ab_apply _ _ g q).trans ?_
  show Ideal.log (shapeCast S64x1 (multiReduction .add [1] S64 (exp (shifted l)) 0x00000000#32 reduces_S64x64_S64
    (.inl rfl) rfl) shapeCasts_S64_S64x1 (ix2 g 0)) = _
  refine congrArg Ideal.log ?_
  refine (shapeCast_a_a1_apply _ _ g 0).trans ?_
  refine (Ideal.multiReduction_add_single (exp (shifted l)) _ reduces_S64x64_S64 _ _ (ix1 g)).trans ?_
  refine Finset.sum_congr rfl fun q' _ => ?_
  refine (congrArg (exp (shifted l)) (lift_cols _ g q')).trans ?_
  exact congrArg Ideal.exp (shifted_apply l g lg hl q')

end Lsm

/-- The head's second payload is the log-softmax of the logits. -/
theorem k1_pay1_eq (o : FVec Ideal S64x128 .f32) (gam bet : Vec Ideal S1x128 .f32) (w3 : Vec Ideal S128x128 .f32)
    (b3 : Vec Ideal S1x128 .f32) (w4 : Vec Ideal S128x64 .f32) (b4 : Vec Ideal S1x64 .f32) :
    k1_pay1 o gam bet w3 b3 w4 b4 = lsmV (logitsV o gam bet w3 b3 w4 b4) := rfl

/-! ## The head at an index -/

theorem head_apply (I : Inp) (Bf : Fin 64 → Fin 10000 → EReal) (Z : Fin 10000 → Fin 128 → EReal)
    (z : Vec Ideal S10000x128 .f32) (ids : Vec Ideal S1x10000 .i32) (B : Vec Ideal S64x10000 .f32)
    (w2 : Vec Ideal S128x128 .f32) (b2 : Vec Ideal S1x128 .f32)
    (gam bet : Vec Ideal S1x128 .f32) (w3 : Vec Ideal S128x128 .f32) (b3 : Vec Ideal S1x128 .f32)
    (w4 : Vec Ideal S128x64 .f32) (b4 : Vec Ideal S1x64 .f32)
    (hz : ∀ n j, z (ix2 n j) = Z n j) (hB : ∀ g n, B (ix2 g n) = Bf g n) (hid : ∀ n, ids (ix2 0 n) = I.idx n)
    (hw2 : ∀ j f, w2 (ix2 j f) = I.W2 j f) (hb2 : ∀ f, b2 (ix2 0 f) = I.b2 f)
    (hgam : ∀ f, gam (ix2 0 f) = I.gam f) (hbet : ∀ f, bet (ix2 0 f) = I.bet f)
    (hw3 : ∀ j f, w3 (ix2 j f) = I.W3 j f) (hb3 : ∀ f, b3 (ix2 0 f) = I.b3 f)
    (hw4 : ∀ j q, w4 (ix2 j q) = I.W4 j q) (hb4 : ∀ q, b4 (ix2 0 q) = I.b4 q)
    (g q : Fin 64) :
    k1_pay1 (k1_pay2 z ids B w2 b2) gam bet w3 b3 w4 b4 (ix2 g q) = kOutOf I Bf Z g q := by
  rw [k1_pay1_eq, k1_pay2_eq]
  have hseg : ∀ g f, segV z ids B w2 b2 (ix2 g f) = kSegOf I Bf Z g f :=
    segV_apply I Bf Z z ids B w2 b2 hz hB hid hw2 hb2
  have ho : ∀ g f, normV (segV z ids B w2 b2) (ix2 g f) * gam (ix2 0 f) + bet (ix2 0 f)
      = kNorm I (kSegOf I Bf Z) g f := fun g f => by
    rw [kNorm_eq, normV_apply _ _ hseg, hgam f, hbet f]
  have hlg : ∀ q, logitsV (normV (segV z ids B w2 b2)) gam bet w3 b3 w4 b4 (ix2 g q)
      = tailLogits I (kNorm I (kSegOf I Bf Z)) g q :=
    logitsV_apply I _ _ gam bet w3 b3 w4 b4 ho hw3 hb3 hw4 hb4 g
  exact lsmV_apply _ g _ hlg q

end Cert.KernelIdeal.Hand

end
-- ==== Proof.KI.Arr0.lean ====
/-
  What region 0 (the streaming pass over the adjacency strips) leaves in its two output arrays, read at an index,
  at the ideal instance.

  The region is entered with the buffers as the host operations before it left them: the adjacency, the features
  and the first layer's weights as launched; the features' rounded part and rounded remainder, which on the extended
  reals are x and x - x (a change of float format is the identity there; the difference is kept as it stands); the
  graph ids reshaped to 25 strips of 400; the bias as a row. A window's block at point t sits in its array, on each
  axis, at the block index times the block's size plus the coordinate inside the block: so row r of the adjacency,
  feature, id and output strips at point t is row 400 t + r, and every other block is its whole array.

  Window 7 (the first layer's output) is written back at every point: block t of the final array is what point t
  stored, one store of the whole block, and the 25 strips cover the 10000 rows (row n lies in strip n / 400), so the
  array ends at z = relu((A x + A (x - x) + x) W1 + b1) row by row.

  Window 8 (the pooled adjacency) is one block, the whole array, that stays in its staging buffer across the grid and
  is written back after the last point only: the array ends at what the buffer holds after point 24, and by induction
  on the point the buffer after point n holds the first n + 1 strips' membership-weighted row sums, each later strip's
  added on the right.
-/
import proofs.«148953_g38087769981371_fold_wed_m_124_15_alg».proof.Proof.KI.Run
import proofs.«148953_g38087769981371_fold_wed_m_124_15_alg».proof.Proof.SpecK
import proofs.«148953_g38087769981371_fold_wed_m_124_15_alg».proof.Proof.KI.PayVal
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

/-- The inputs at plain coordinates, read off the thirteen argument arrays as launched. -/
abbrev inp : Cert.Gnn.Inp :=
  Cert.Gnn.inpOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-! ## The arrays region 0 reads, as it finds them, at an index -/

/-- The seven arrays the region's input windows range over, each at its literal type: the adjacency, the features'
    rounded part and rounded remainder, the features, the ids in strips, the first layer's weights, the bias row. -/
abbrev entA : Vec Ideal S10000x10000 .f32 := V1 m ρ c main_arg1
abbrev entXh : Vec Ideal S10000x128 .bf16 := V1 m ρ c main_v2
abbrev entXl : Vec Ideal S10000x128 .bf16 := V1 m ρ c main_v5
abbrev entX : Vec Ideal S10000x128 .f32 := V1 m ρ c main_arg0
abbrev entId : Vec Ideal S25x1x400 .i32 := V1 m ρ c main_v0
abbrev entW : Vec Ideal S128x128 .f32 := V1 m ρ c main_arg3
abbrev entBias : Vec Ideal S1x128 .f32 := V1 m ρ c main_v6

/-- The adjacency is as launched: no host operation writes it. -/
theorem entA_apply (n k : Fin 10000) : entA m ρ c (ix2 n k) = (inp m c).A n k :=
  congrFun ((StableHlo.after_of_writes_sub hostOps0 _ hostOps0_writes (r := main_arg1) (by decide)).trans rfl) (ix2 n k)

/-- The features are as launched. -/
theorem entX_apply (n : Fin 10000) (j : Fin 128) : entX m ρ c (ix2 n j) = (inp m c).x n j :=
  congrFun ((StableHlo.after_of_writes_sub hostOps0 _ hostOps0_writes (r := main_arg0) (by decide)).trans rfl) (ix2 n j)

/-- The first layer's weights are as launched. -/
theorem entW_apply (j f : Fin 128) : entW m ρ c (ix2 j f) = (inp m c).W1 j f :=
  congrFun ((StableHlo.after_of_writes_sub hostOps0 _ hostOps0_writes (r := main_arg3) (by decide)).trans rfl) (ix2 j f)

/-- The rounded part of the features: a change of float format is the identity on the extended reals. -/
theorem entXh_apply (k : Fin 10000) (j : Fin 128) : entXh m ρ c (ix2 k j) = (inp m c).x k j := by
  have e : entXh m ρ c = truncf .bf16 (F := Ideal) (s := S10000x128) (φ := .f32) (m ((c.tc : Thread nD τ).loc main_arg0)) bitsLt_bf16_f32 := by
    show StableHlo.after hostOps0 _ (Proc.devRef .tc main_v2) = _
    after_results
  rw [e, truncf_apply]
  rfl

/-- The rounded remainder: the features minus their rounded part, kept as that difference. -/
theorem entXl_apply (k : Fin 10000) (j : Fin 128) : entXl m ρ c (ix2 k j) = (inp m c).x k j - (inp m c).x k j := by
  have e : entXl m ρ c = truncf .bf16 (F := Ideal) (s := S10000x128) (φ := .f32)
      (subf (m ((c.tc : Thread nD τ).loc main_arg0))
        (extf .f32 (F := Ideal) (s := S10000x128) (φ := .bf16) (truncf .bf16 (F := Ideal) (s := S10000x128) (φ := .f32) (m ((c.tc : Thread nD τ).loc main_arg0)) bitsLt_bf16_f32) bitsLt_bf16_f32)) bitsLt_bf16_f32 := by
    show StableHlo.after hostOps0 _ (Proc.devRef .tc main_v5) = _
    after_results
  rw [e, truncf_apply, subf_apply, extf_apply, truncf_apply]
  rfl

/-- The graph ids in strips: a reshape of the flat array, so strip t's entry r is node 400 t + r's id. -/
theorem entId_apply (t : Fin 25) (r : Fin 400) : entId m ρ c (ix3 t 0 r) = (inp m c).idx (Cert.Gnn.row t r) := by
  have e : entId m ρ c = shapeCast S25x1x400 (s := S10000) (m ((c.tc : Thread nD τ).loc main_arg2)) shapeCasts_S10000_S25x1x400 := by
    show StableHlo.after hostOps0 _ (Proc.devRef .tc main_v0) = _
    after_results
    rfl
  rw [e, shapeCast_apply _ _ (ix3 t 0 r) (ix1 (Cert.Gnn.row t r))
    (by rw [Shape.rowMajor_val_one, Shape.rowMajor_val_three]; show 400 * t.val + r.val = (t.val * 1 + 0) * 400 + r.val; omega)]
  rfl

/-- The bias as a row: a reshape of the flat array. -/
theorem entBias_apply (f : Fin 128) : entBias m ρ c (ix2 0 f) = (inp m c).b1 f := by
  have e : entBias m ρ c = shapeCast S1x128 (s := S128) (m ((c.tc : Thread nD τ).loc main_arg4)) shapeCasts_S128_S1x128 := by
    show StableHlo.after hostOps0 _ (Proc.devRef .tc main_v6) = _
    after_results
    rfl
  rw [e, shapeCast_apply _ _ (ix2 0 f) (ix1 f)
    (by rw [Shape.rowMajor_val_one, Shape.rowMajor_val_two]; show f.val = 0 * 128 + f.val; omega)]
  rfl

/-! ## The windows' blocks at an index

A block's coordinate in its array is the block index times the block's size plus the coordinate inside the block. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the adjacency, feature, id and output strips move with the point
    along their first axis; every other block stays at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)

/-- A point of the grid as a strip number. -/
abbrev stripOf (t : Fin cfg0.N) : Fin 25 := ⟨t.val, by have h := t.isLt; have hN : cfg0.N = 25 := N_0; omega⟩

/-- The input windows' blocks at point t, each at its literal type: the adjacency strip, the features' rounded part
    and rounded remainder, the feature strip, the id strip, the weights, the bias row. -/
abbrev stripA (t : Fin cfg0.N) : Vec Ideal S400x10000 .f32 := iblk0 (V1 m ρ) c 0 t
abbrev blkXh (t : Fin cfg0.N) : Vec Ideal S10000x128 .bf16 := iblk0 (V1 m ρ) c 1 t
abbrev blkXl (t : Fin cfg0.N) : Vec Ideal S10000x128 .bf16 := iblk0 (V1 m ρ) c 2 t
abbrev stripX (t : Fin cfg0.N) : Vec Ideal S400x128 .f32 := iblk0 (V1 m ρ) c 3 t
abbrev stripId (t : Fin cfg0.N) : Vec Ideal S1x1x400 .i32 := iblk0 (V1 m ρ) c 4 t
abbrev blkW (t : Fin cfg0.N) : Vec Ideal S128x128 .f32 := iblk0 (V1 m ρ) c 5 t
abbrev blkBias (t : Fin cfg0.N) : Vec Ideal S1x128 .f32 := iblk0 (V1 m ρ) c 6 t

/-- The adjacency strip: row r of strip t is row 400 t + r. -/
theorem stripA_apply (t : Fin cfg0.N) (r : Fin 400) (k : Fin 10000) :
    stripA m ρ c t (ix2 r k) = (inp m c).A (Cert.Gnn.row (stripOf t) r) k := by
  obtain ⟨e0, e1, -⟩ := idx_facts0 t
  rw [← entA_apply m ρ c]
  unfold stripA iblk0
  rw [View.read_apply]
  show entA m ρ c _ = entA m ρ c _
  refine congrArg (entA m ρ c) ?_
  funext a; apply Fin.ext
  match a with
  | ⟨0, _⟩ => show win0_0.index t (0 : Fin 2) * 400 + 1 * r.val = 400 * t.val + r.val; omega
  | ⟨1, _⟩ => show win0_0.index t (1 : Fin 2) * 10000 + 1 * k.val = k.val; omega

/-- The rounded features: one block, the whole array. -/
theorem blkXh_apply (t : Fin cfg0.N) (k : Fin 10000) (j : Fin 128) : blkXh m ρ c t (ix2 k j) = (inp m c).x k j := by
  obtain ⟨-, -, e0, e1, -⟩ := idx_facts0 t
  rw [← entXh_apply m ρ c]
  unfold blkXh iblk0
  rw [View.read_apply]
  show entXh m ρ c _ = entXh m ρ c _
  refine congrArg (entXh m ρ c) ?_
  funext a; apply Fin.ext
  match a with
  | ⟨0, _⟩ => show win0_1.index t (0 : Fin 2) * 10000 + 1 * k.val = k.val; omega
  | ⟨1, _⟩ => show win0_1.index t (1 : Fin 2) * 128 + 1 * j.val = j.val; omega

/-- The rounded remainder: one block, the whole array. -/
theorem blkXl_apply (t : Fin cfg0.N) (k : Fin 10000) (j : Fin 128) :
    blkXl m ρ c t (ix2 k j) = (inp m c).x k j - (inp m c).x k j := by
  obtain ⟨-, -, -, -, e0, e1, -⟩ := idx_facts0 t
  rw [← entXl_apply m ρ c]
  unfold blkXl iblk0
  rw [View.read_apply]
  show entXl m ρ c _ = entXl m ρ c _
  refine congrArg (entXl m ρ c) ?_
  funext a; apply Fin.ext
  match a with
  | ⟨0, _⟩ => show win0_2.index t (0 : Fin 2) * 10000 + 1 * k.val = k.val; omega
  | ⟨1, _⟩ => show win0_2.index t (1 : Fin 2) * 128 + 1 * j.val = j.val; omega

/-- The feature strip: row r of strip t is row 400 t + r. -/
theorem stripX_apply (t : Fin cfg0.N) (r : Fin 400) (j : Fin 128) :
    stripX m ρ c t (ix2 r j) = (inp m c).x (Cert.Gnn.row (stripOf t) r) j := by
  obtain ⟨-, -, -, -, -, -, e0, e1, -⟩ := idx_facts0 t
  rw [← entX_apply m ρ c]
  unfold stripX iblk0
  rw [View.read_apply]
  show entX m ρ c _ = entX m ρ c _
  refine congrArg (entX m ρ c) ?_
  funext a; apply Fin.ext
  match a with
  | ⟨0, _⟩ => show win0_3.index t (0 : Fin 2) * 400 + 1 * r.val = 400 * t.val + r.val; omega
  | ⟨1, _⟩ => show win0_3.index t (1 : Fin 2) * 128 + 1 * j.val = j.val; omega

/-- The id strip: entry r of strip t is node 400 t + r's id. -/
theorem stripId_apply (t : Fin cfg0.N) (r : Fin 400) :
    stripId m ρ c t (ix3 0 0 r) = (inp m c).idx (Cert.Gnn.row (stripOf t) r) := by
  obtain ⟨-, -, -, -, -, -, -, -, e0, e1, e2, -⟩ := idx_facts0 t
  rw [← entId_apply m ρ c]
  unfold stripId iblk0
  rw [View.read_apply]
  show entId m ρ c _ = entId m ρ c _
  refine congrArg (entId m ρ c) ?_
  funext a; apply Fin.ext
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 400 + 1 * r.val = r.val; omega

/-- The first layer's weights: one block, the whole array. -/
theorem blkW_apply (t : Fin cfg0.N) (j f : Fin 128) : blkW m ρ c t (ix2 j f) = (inp m c).W1 j f := by
  obtain ⟨-, -, -, -, -, -, -, -, -, -, -, e0, e1, -⟩ := idx_facts0 t
  rw [← entW_apply m ρ c]
  unfold blkW iblk0
  rw [View.read_apply]
  show entW m ρ c _ = entW m ρ c _
  refine congrArg (entW m ρ c) ?_
  funext a; apply Fin.ext
  match a with
  | ⟨0, _⟩ => show win0_5.index t (0 : Fin 2) * 128 + 1 * j.val = j.val; omega
  | ⟨1, _⟩ => show win0_5.index t (1 : Fin 2) * 128 + 1 * f.val = f.val; omega

/-- The bias row: one block, the whole array. -/
theorem blkBias_apply (t : Fin cfg0.N) (f : Fin 128) : blkBias m ρ c t (ix2 0 f) = (inp m c).b1 f := by
  obtain ⟨-, -, -, -, -, -, -, -, -, -, -, -, -, e0, e1, -⟩ := idx_facts0 t
  rw [← entBias_apply m ρ c]
  unfold blkBias iblk0
  rw [View.read_apply]
  show entBias m ρ c _ = entBias m ρ c _
  refine congrArg (entBias m ρ c) ?_
  funext a; apply Fin.ext
  match a with
  | ⟨0, _⟩ => show win0_6.index t (0 : Fin 2) * 1 + 1 * 0 = 0; omega
  | ⟨1, _⟩ => show win0_6.index t (1 : Fin 2) * 128 + 1 * f.val = f.val; omega

/-! ## Window 7: the first layer's output, strip by strip -/

/-- What the window's array ends holding. -/
abbrev zLayer : Vec Ideal S10000x128 .f32 := fun i => Cert.Gnn.kZ (inp m c) (i 0) (i 1)

/-- One store of the whole block leaves its payload. -/
theorem out7_eq (a : Vec Ideal S400x10000 .f32) (xh xl : Vec Ideal S10000x128 .bf16) (xs : Vec Ideal S400x128 .f32)
    (w1 : Vec Ideal S128x128 .f32) (b1 : Vec Ideal S1x128 .f32) : out0_7 a xh xl xs w1 b1 = k0_pay2 a xh xl xs w1 b1 := by
  unfold out0_7
  rw [View.canon_unit_zero hz2]
  simp only [View.ld_unit_zero (S := S400x10000) hz2, View.ld_unit_zero (S := S10000x128) hz2, View.ld_unit_zero (S := S400x128) hz2,
    View.ld_unit_zero (S := S128x128) hz2, View.ld_unit_zero (S := S1x128) hz2]

/-- The payload over point t's blocks, at row r of the strip, is the first layer's output at row 400 t + r. -/
theorem pay2_at (t : Fin cfg0.N) (r : Fin 400) (f : Fin 128) :
    k0_pay2 (stripA m ρ c t) (blkXh m ρ c t) (blkXl m ρ c t) (stripX m ρ c t) (blkW m ρ c t) (blkBias m ρ c t) (ix2 r f)
      = Cert.Gnn.kZ (inp m c) (Cert.Gnn.row (stripOf t) r) f := by
  refine (pay2_apply (stripA m ρ c t) (blkXh m ρ c t) (blkXl m ρ c t) (stripX m ρ c t) (blkW m ρ c t) (blkBias m ρ c t) r f).trans ?_
  unfold Cert.Gnn.kZ Cert.Gnn.kH
  simp only [stripA_apply, blkXh_apply, blkXl_apply, stripX_apply, blkW_apply, blkBias_apply]

/-- Row r of point t's output block sits at row 400 t + r of the array. -/
theorem emb7 (t : Fin cfg0.N) (r : Fin 400) (f : Fin 128) :
    ((cfg0.win 7).blk t).view.emb (ix2 r f) = (ix2 (Cert.Gnn.row (stripOf t) r) f : S10000x128.Idx) := by
  obtain ⟨-, -, -, -, -, -, -, -, -, -, -, -, -, -, -, e0, e1, -⟩ := idx_facts0 t
  funext a; apply Fin.ext
  match a with
  | ⟨0, _⟩ => show win0_7.index t (0 : Fin 2) * 400 + 1 * r.val = 400 * t.val + r.val; omega
  | ⟨1, _⟩ => show win0_7.index t (1 : Fin 2) * 128 + 1 * f.val = f.val; omega

/-- What point t writes back is block t of the first layer's output. -/
theorem flushed7_eq (t : Fin cfg0.N) :
    (dat0 (V1 m ρ) c).flushed 7 t = ((cfg0.win 7).blk t).view.read (Elt Ideal) (zLayer m c) := by
  show (cfg0.win 7).cut (grid0.coords t) ((dat0 (V1 m ρ) c).after 7 t) = _
  rw [after0_7]
  refine funext fun (j : S400x128.Idx) => ?_
  obtain ⟨r, f, rfl⟩ : ∃ (r : Fin 400) (f : Fin 128), j = ix2 r f := ⟨j 0, j 1, eq_ix2 j⟩
  rw [View.read_apply]
  show out0_7 (stripA m ρ c t) (blkXh m ρ c t) (blkXl m ρ c t) (stripX m ρ c t) (blkW m ρ c t) (blkBias m ρ c t) (ix2 r f)
    = zLayer m c (((cfg0.win 7).blk t).view.emb (ix2 r f))
  rw [out7_eq, pay2_at, emb7]

/-- An index of the array is in point t's block iff each coordinate is in the block's range on its axis. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v7_0).slice (win0_7.rect t)).set ↔ _
  rw [View.set_slice_whole, Rect.mem_set_unit]
  exact Iff.rfl

/-- The 25 strips cover the 10000 rows: row n lies in the strip of point n / 400. -/
theorem cover7 (i : S10000x128.Idx) : ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨-, -, -, -, -, -, -, -, -, -, -, -, -, -, -, e0, e1, -⟩ := idx_facts0 t
  refine ⟨t, flush0_7 t, ?_⟩
  rw [mem_blk7]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 128 ≤ (i 1).val ∧ (i 1).val < win0_7.index t (1 : Fin 2) * 128 + 128; omega

/-- The array after the region is the first layer's output. -/
theorem arr7_eq : (dat0 (V1 m ρ) c).arrAt 7 cfg0.N = zLayer m c :=
  (dat0 (V1 m ρ) c).arrAt_eq_of_cover 7 (zLayer m c) (fun t _ => flushed7_eq m ρ c t) cover7

/-- Region 0's first output array at row n, feature f: the first layer's output there. -/
theorem z1_arr (n : Fin 10000) (f : Fin 128) :
    ((dat0 (F := Ideal) (V1 m ρ) c).arrAt 7 cfg0.N : S10000x128.Idx → EReal) (ix2 n f) = Cert.Gnn.kZ (inp m c) n f :=
  congrFun (arr7_eq m ρ c) (ix2 n f)

/-! ## Window 8: the pooled adjacency, accumulated over the points and written back once -/

/-- At the first point one store of the whole block leaves the strip's row sums. -/
theorem out8A_eq (a : Vec Ideal S400x10000 .f32) (ids : Vec Ideal S1x1x400 .i32) : out0_8A a ids = k0_pay3 a ids := by
  unfold out0_8A
  rw [View.canon_unit_zero hz2]
  simp only [View.ld_unit_zero (S := S400x10000) hz2, View.ld_unit_zero (S := S1x1x400) hz3]

/-- At a later point it leaves what the block held plus the strip's row sums. -/
theorem out8B_eq (a : Vec Ideal S400x10000 .f32) (ids : Vec Ideal S1x1x400 .i32) (prev : Vec Ideal S64x10000 .f32) :
    out0_8B a ids prev = k0_pay1 (k0_pay3 a ids) prev := by
  unfold out0_8B
  rw [View.canon_unit_zero hz2]
  simp only [View.ld_unit_zero (S := S400x10000) hz2, View.ld_unit_zero (S := S1x1x400) hz3, View.ld_unit_zero (S := S64x10000) hz2]

/-- A strip's membership-weighted row sums are the strip's contribution to the pooled adjacency. -/
theorem pay3_at (t : Fin cfg0.N) (g : Fin 64) (k : Fin 10000) :
    k0_pay3 (stripA m ρ c t) (stripId m ρ c t) (ix2 g k) = Cert.Gnn.kPart (inp m c) (stripOf t) g k := by
  refine (pay3_apply (stripA m ρ c t) (stripId m ρ c t) g k).trans ?_
  unfold Cert.Gnn.kPart
  simp only [stripA_apply, stripId_apply]

/-- The accumulator after point n is the pooled adjacency accumulated through strip n: the first strip's contribution,
    then each later one added on the right. -/
theorem accB_eq : ∀ (n : ℕ) (h : n < cfg0.N) (h' : n < 25) (g : Fin 64) (k : Fin 10000),
    (accB (V1 m ρ) c n h : Vec Ideal S64x10000 .f32) (ix2 g k) = Cert.Gnn.kB (inp m c) n h' g k
  | 0, h, h', g, k => by
    show out0_8A (stripA m ρ c ⟨0, h⟩) (stripId m ρ c ⟨0, h⟩) (ix2 g k) = Cert.Gnn.kPart (inp m c) ⟨0, h'⟩ g k
    rw [out8A_eq]
    exact pay3_at m ρ c ⟨0, h⟩ g k
  | n + 1, h, h', g, k => by
    show out0_8B (stripA m ρ c ⟨n + 1, h⟩) (stripId m ρ c ⟨n + 1, h⟩) (accB (V1 m ρ) c n (Nat.lt_of_succ_lt h)) (ix2 g k)
      = Cert.Gnn.kB (inp m c) n (Nat.lt_of_succ_lt h') g k + Cert.Gnn.kPart (inp m c) ⟨n + 1, h'⟩ g k
    rw [out8B_eq, pay1_apply, accB_eq n (Nat.lt_of_succ_lt h) (Nat.lt_of_succ_lt h') g k]
    exact congrArg (Cert.Gnn.kB (inp m c) n (Nat.lt_of_succ_lt h') g k + ·) (pay3_at m ρ c ⟨n + 1, h⟩ g k)

/-- What the window's array ends holding: the accumulator after the last point. -/
abbrev accLast : Vec Ideal S64x10000 .f32 := accB (V1 m ρ) c 24 (by rw [show cfg0.N = 25 from N_0]; decide)

/-- The accumulator depends on the point's number only. -/
theorem accB_congr (n n' : ℕ) (e : n = n') (h : n < cfg0.N) (h' : n' < cfg0.N) :
    accB (V1 m ρ) c n h = accB (V1 m ρ) c n' h' := by
  subst e; rfl

/-- Window 8's one block is its whole array: read through the block, contents are themselves. -/
theorem read8 (t : Fin cfg0.N) (G : Vec Ideal S64x10000 .f32) : ((cfg0.win 8).blk t).view.read (Elt Ideal) G = G := by
  obtain ⟨-, -, -, -, -, -, -, -, -, -, -, -, -, -, -, -, -, e0, e1⟩ := idx_facts0 t
  refine funext fun (j : S64x10000.Idx) => ?_
  rw [View.read_apply]
  show G (((cfg0.win 8).blk t).view.emb j) = G j
  refine congrArg G ?_
  funext a; apply Fin.ext
  match a with
  | ⟨0, _⟩ => show win0_8.index t (0 : Fin 2) * 64 + 1 * (j 0).val = (j 0).val; omega
  | ⟨1, _⟩ => show win0_8.index t (1 : Fin 2) * 10000 + 1 * (j 1).val = (j 1).val; omega

/-- The block is not cut: the write-back moves all of the staging buffer. -/
theorem cut8 (t : Fin cfg0.N) (X : Vec Ideal S64x10000 .f32) : (cfg0.win 8).cut (grid0.coords t) X = X := rfl

/-- The one write-back, after the last point, writes the accumulator. -/
theorem flushed8_eq (t : Fin cfg0.N) (hf : (cfg0.win 8).flush t = true) :
    (dat0 (V1 m ρ) c).flushed 8 t = ((cfg0.win 8).blk t).view.read (Elt Ideal) (accLast m ρ c) := by
  have hN : cfg0.N = 25 := N_0
  have h24 : t.val = 24 := by have := (flush0_8 t).mp hf; have := t.isLt; omega
  rw [read8 t (accLast m ρ c)]
  show (cfg0.win 8).cut (grid0.coords t) ((dat0 (V1 m ρ) c).after 8 t) = _
  rw [after0_8, cut8 t (accB (V1 m ρ) c t.val t.isLt)]
  exact accB_congr m ρ c t.val 24 h24 t.isLt _

/-- An index of the array is in point t's block iff each coordinate is in the block's range on its axis. -/
theorem mem_blk8 (t : Fin cfg0.N) (i : S64x10000.Idx) :
    i ∈ ((cfg0.win 8).blk t).view.set ↔ ∀ a : Fin 2, win0_8.index t a * S64x10000.size a ≤ (i a).val ∧ (i a).val < win0_8.index t a * S64x10000.size a + S64x10000.size a := by
  show i ∈ ((View.whole main_v7_1).slice (win0_8.rect t)).set ↔ _
  rw [View.set_slice_whole, Rect.mem_set_unit]
  exact Iff.rfl

/-- The last point's block covers the array. -/
theorem cover8 (i : S64x10000.Idx) : ∃ t : Fin cfg0.N, (cfg0.win 8).flush t = true ∧ i ∈ ((cfg0.win 8).blk t).view.set := by
  have hi0 : (i 0).val < 64 := (i 0).isLt
  have hi1 : (i 1).val < 10000 := (i 1).isLt
  have hN : cfg0.N = 25 := N_0
  obtain ⟨t, ht⟩ : ∃ t : Fin cfg0.N, t.val = 24 := ⟨⟨24, by omega⟩, rfl⟩
  obtain ⟨-, -, -, -, -, -, -, -, -, -, -, -, -, -, -, -, -, e0, e1⟩ := idx_facts0 t
  refine ⟨t, (flush0_8 t).mpr (by omega), ?_⟩
  rw [mem_blk8]
  intro a
  match a with
  | ⟨0, _⟩ => show win0_8.index t (0 : Fin 2) * 64 ≤ (i 0).val ∧ (i 0).val < win0_8.index t (0 : Fin 2) * 64 + 64; omega
  | ⟨1, _⟩ => show win0_8.index t (1 : Fin 2) * 10000 ≤ (i 1).val ∧ (i 1).val < win0_8.index t (1 : Fin 2) * 10000 + 10000; omega

/-- The array after the region is the accumulator after the last point. -/
theorem arr8_eq : (dat0 (V1 m ρ) c).arrAt 8 cfg0.N = accLast m ρ c :=
  (dat0 (V1 m ρ) c).arrAt_eq_of_cover 8 (accLast m ρ c) (flushed8_eq m ρ c) cover8

/-- Region 0's second output array at graph g, node n: the pooled adjacency accumulated through the last strip. -/
theorem b_arr (g : Fin 64) (n : Fin 10000) :
    ((dat0 (F := Ideal) (V1 m ρ) c).arrAt 8 cfg0.N : S64x10000.Idx → EReal) (ix2 g n) = Cert.Gnn.kB (inp m c) 24 (by decide) g n :=
  (congrFun (arr8_eq m ρ c) (ix2 g n)).trans (accB_eq m ρ c 24 _ (by decide) g n)

end Cert.KernelIdeal.Hand

end
-- ==== Proof.KI.Arr1.lean ====
/-
  What region 1 (the head) leaves in the result array, and with it the kernel program's value at the ideal instance.

  Region 1 has one grid point and each of its twelve windows is a whole array: every input block is its array as
  the region finds it, and the one write-back stores the whole result. So the result array ends at the head's payload
  of the eleven input arrays. Of those, the pooled adjacency and the first layer's output are what region 0 left
  (no host reshape writes them), the ids as a row are the first host stretch's reshape of the id vector, the biases,
  scale and shift as rows are the second host stretch's reshapes of the launch vectors, and the three weight matrices
  are as launched. The payload of these is the streamed arrangement's result of the launch inputs.
-/
import proofs.«148953_g38087769981371_fold_wed_m_124_15_alg».proof.Proof.KI.Run
import proofs.«148953_g38087769981371_fold_wed_m_124_15_alg».proof.Proof.SpecK
import proofs.«148953_g38087769981371_fold_wed_m_124_15_alg».proof.Proof.KI.Arr0
import proofs.«148953_g38087769981371_fold_wed_m_124_15_alg».proof.Proof.KI.PayVal
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

namespace Arr1

/-! ## Region 1's windows are whole arrays: each input block is its array as the region finds it -/

section Blocks
variable {F : FTy → Type} [FloatOps F]
variable (V : (c : Dev nD) → (b : Ref sig .tc) → Buf (Elt F) ((c : Thread nD τ).loc b))

/-- Window 0's block sits at block index 0 on both axes and has the array's sizes. -/
theorem iblk1_0 (c : Dev nD) (t : Fin cfg1.N) : (iblk1 V c 0 t : Vec F S64x10000 .f32) = V c main_v7_1 := by
  funext j
  show V c main_v7_1 (((cfg1.win 0).blk t).view.emb j) = V c main_v7_1 j
  congr 1
  funext a; apply Fin.ext
  match a with
  | ⟨0, _⟩ => show 0 * 64 + 1 * (j 0).val = (j 0).val; omega
  | ⟨1, _⟩ => show 0 * 10000 + 1 * (j 1).val = (j 1).val; omega
/-- Window 1's block sits at block index 0 on both axes and has the array's sizes. -/
theorem iblk1_1 (c : Dev nD) (t : Fin cfg1.N) : (iblk1 V c 1 t : Vec F S10000x128 .f32) = V c main_v7_0 := by
  funext j
  show V c main_v7_0 (((cfg1.win 1).blk t).view.emb j) = V c main_v7_0 j
  congr 1
  funext a; apply Fin.ext
  match a with
  | ⟨0, _⟩ => show 0 * 10000 + 1 * (j 0).val = (j 0).val; omega
  | ⟨1, _⟩ => show 0 * 128 + 1 * (j 1).val = (j 1).val; omega
/-- Window 2's block sits at block index 0 on both axes and has the array's sizes. -/
theorem iblk1_2 (c : Dev nD) (t : Fin cfg1.N) : (iblk1 V c 2 t : Vec F S1x10000 .i32) = V c main_v1 := by
  funext j
  show V c main_v1 (((cfg1.win 2).blk t).view.emb j) = V c main_v1 j
  congr 1
  funext a; apply Fin.ext
  match a with
  | ⟨0, _⟩ => show 0 * 1 + 1 * (j 0).val = (j 0).val; omega
  | ⟨1, _⟩ => show 0 * 10000 + 1 * (j 1).val = (j 1).val; omega
/-- Window 3's block sits at block index 0 on both axes and has the array's sizes. -/
theorem iblk1_3 (c : Dev nD) (t : Fin cfg1.N) : (iblk1 V c 3 t : Vec F S128x128 .f32) = V c main_arg5 := by
  funext j
  show V c main_arg5 (((cfg1.win 3).blk t).view.emb j) = V c main_arg5 j
  congr 1
  funext a; apply Fin.ext
  match a with
  | ⟨0, _⟩ => show 0 * 128 + 1 * (j 0).val = (j 0).val; omega
  | ⟨1, _⟩ => show 0 * 128 + 1 * (j 1).val = (j 1).val; omega
/-- Window 4's block sits at block index 0 on both axes and has the array's sizes. -/
theorem iblk1_4 (c : Dev nD) (t : Fin cfg1.N) : (iblk1 V c 4 t : Vec F S1x128 .f32) = V c main_v8 := by
  funext j
  show V c main_v8 (((cfg1.win 4).blk t).view.emb j) = V c main_v8 j
  congr 1
  funext a; apply Fin.ext
  match a with
  | ⟨0, _⟩ => show 0 * 1 + 1 * (j 0).val = (j 0).val; omega
  | ⟨1, _⟩ => show 0 * 128 + 1 * (j 1).val = (j 1).val; omega
/-- Window 5's block sits at block index 0 on both axes and has the array's sizes. -/
theorem iblk1_5 (c : Dev nD) (t : Fin cfg1.N) : (iblk1 V c 5 t : Vec F S128x128 .f32) = V c main_arg7 := by
  funext j
  show V c main_arg7 (((cfg1.win 5).blk t).view.emb j) = V c main_arg7 j
  congr 1
  funext a; apply Fin.ext
  match a with
  | ⟨0, _⟩ => show 0 * 128 + 1 * (j 0).val = (j 0).val; omega
  | ⟨1, _⟩ => show 0 * 128 + 1 * (j 1).val = (j 1).val; omega
/-- Window 6's block sits at block index 0 on both axes and has the array's sizes. -/
theorem iblk1_6 (c : Dev nD) (t : Fin cfg1.N) : (iblk1 V c 6 t : Vec F S1x128 .f32) = V c main_v9 := by
  funext j
  show V c main_v9 (((cfg1.win 6).blk t).view.emb j) = V c main_v9 j
  congr 1
  funext a; apply Fin.ext
  match a with
  | ⟨0, _⟩ => show 0 * 1 + 1 * (j 0).val = (j 0).val; omega
  | ⟨1, _⟩ => show 0 * 128 + 1 * (j 1).val = (j 1).val; omega
/-- Window 7's block sits at block index 0 on both axes and has the array's sizes. -/
theorem iblk1_7 (c : Dev nD) (t : Fin cfg1.N) : (iblk1 V c 7 t : Vec F S128x64 .f32) = V c main_arg9 := by
  funext j
  show V c main_arg9 (((cfg1.win 7).blk t).view.emb j) = V c main_arg9 j
  congr 1
  funext a; apply Fin.ext
  match a with
  | ⟨0, _⟩ => show 0 * 128 + 1 * (j 0).val = (j 0).val; omega
  | ⟨1, _⟩ => show 0 * 64 + 1 * (j 1).val = (j 1).val; omega
/-- Window 8's block sits at block index 0 on both axes and has the array's sizes. -/
theorem iblk1_8 (c : Dev nD) (t : Fin cfg1.N) : (iblk1 V c 8 t : Vec F S1x64 .f32) = V c main_v10 := by
  funext j
  show V c main_v10 (((cfg1.win 8).blk t).view.emb j) = V c main_v10 j
  congr 1
  funext a; apply Fin.ext
  match a with
  | ⟨0, _⟩ => show 0 * 1 + 1 * (j 0).val = (j 0).val; omega
  | ⟨1, _⟩ => show 0 * 64 + 1 * (j 1).val = (j 1).val; omega
/-- Window 9's block sits at block index 0 on both axes and has the array's sizes. -/
theorem iblk1_9 (c : Dev nD) (t : Fin cfg1.N) : (iblk1 V c 9 t : Vec F S1x128 .f32) = V c main_v11 := by
  funext j
  show V c main_v11 (((cfg1.win 9).blk t).view.emb j) = V c main_v11 j
  congr 1
  funext a; apply Fin.ext
  match a with
  | ⟨0, _⟩ => show 0 * 1 + 1 * (j 0).val = (j 0).val; omega
  | ⟨1, _⟩ => show 0 * 128 + 1 * (j 1).val = (j 1).val; omega
/-- Window 10's block sits at block index 0 on both axes and has the array's sizes. -/
theorem iblk1_10 (c : Dev nD) (t : Fin cfg1.N) : (iblk1 V c 10 t : Vec F S1x128 .f32) = V c main_v12 := by
  funext j
  show V c main_v12 (((cfg1.win 10).blk t).view.emb j) = V c main_v12 j
  congr 1
  funext a; apply Fin.ext
  match a with
  | ⟨0, _⟩ => show 0 * 1 + 1 * (j 0).val = (j 0).val; omega
  | ⟨1, _⟩ => show 0 * 128 + 1 * (j 1).val = (j 1).val; omega

/-- The printed zero offsets are the zero function. -/
theorem hz64 : (![0, 0] : Fin 2 → Nat) = fun _ => 0 := funext fun a => by fin_cases a <;> rfl

/-- The head's payload over the eleven input arrays. -/
abbrev headPay (c : Dev nD) : Vec F S64x64 .f32 :=
  k1_pay1 (k1_pay2 (V c main_v7_0) (V c main_v1) (V c main_v7_1) (V c main_arg5) (V c main_v8))
    (V c main_v11) (V c main_v12) (V c main_arg7) (V c main_v9) (V c main_arg9) (V c main_v10)

/-- What the one point writes back is the payload, read through the result's one block. -/
theorem flushed1_11 (c : Dev nD) (t : Fin cfg1.N) :
    (dat1 V c).flushed 11 t = ((cfg1.win 11).blk t).view.read (Elt F) (headPay V c) := by
  show (cfg1.win 11).cut (grid1.coords t) ((dat1 V c).after 11 t) = _
  rw [after1_11]
  unfold out1_11
  rw [View.canon_unit_zero hz64]
  simp only [View.ld_unit_zero (S := S64x10000) hz64, View.ld_unit_zero (S := S10000x128) hz64, View.ld_unit_zero (S := S1x10000) hz64,
    View.ld_unit_zero (S := S128x128) hz64, View.ld_unit_zero (S := S1x128) hz64, View.ld_unit_zero (S := S128x64) hz64,
    View.ld_unit_zero (S := S1x64) hz64]
  rw [iblk1_0, iblk1_1, iblk1_2, iblk1_3, iblk1_4, iblk1_5, iblk1_6, iblk1_7, iblk1_8, iblk1_9, iblk1_10]
  funext j
  show headPay V c ((cfg1.win 11).xinj (grid1.coords t) j) = headPay V c (((cfg1.win 11).blk t).view.emb j)
  congr 1
  funext a; apply Fin.ext
  match a with
  | ⟨0, _⟩ => show (j 0).val = 0 * 64 + 1 * (j 0).val; omega
  | ⟨1, _⟩ => show (j 1).val = 0 * 64 + 1 * (j 1).val; omega

/-- The one point's block holds every index of the result. -/
theorem mem_blk1_11 (t : Fin cfg1.N) (i : S64x64.Idx) : i ∈ ((cfg1.win 11).blk t).view.set := by
  show i ∈ ((View.whole main_v13).slice (win1_11.rect t)).set
  rw [View.set_slice_whole, Rect.mem_set_unit]
  intro a
  match a with
  | ⟨0, _⟩ => show 0 * 64 ≤ (i 0).val ∧ (i 0).val < 0 * 64 + 64; have h : (i 0).val < 64 := (i 0).isLt; omega
  | ⟨1, _⟩ => show 0 * 64 ≤ (i 1).val ∧ (i 1).val < 0 * 64 + 64; have h : (i 1).val < 64 := (i 1).isLt; omega

/-- The result array after region 1: the payload of the eleven arrays the region was entered with. -/
theorem arr1_11 (c : Dev nD) : (dat1 V c).arrAt 11 cfg1.N = headPay V c :=
  (dat1 V c).arrAt_eq_of_cover 11 (headPay V c) (fun t _ => flushed1_11 V c t)
    (fun i => ⟨t1_0, flush1_11 t1_0, mem_blk1_11 t1_0 i⟩)

end Blocks

/-! ## The arrays region 1 is entered with -/

section Entry
variable {F : FTy → Type} [FloatOps F]
variable (m : (ℓ : Loc nD τ sig) → Buf (Elt F) ℓ) (ρ : Dev nD → PrngReg) (c : Dev nD)

/-- A buffer that is no array of region 0 and that the first host stretch does not write holds, when region 0 is
    left, what it held at launch. -/
theorem W2_launch (b : Ref sig .tc) (h0 : ∀ w, Pipeline.arrRef spec0 w ≠ b) (h1 : b ∉ hostOps0_W) :
    W2 m ρ c (Proc.devRef .tc b) = m ((c : Thread nD τ).loc b) :=
  (W2_of_ne m ρ c b h0).trans (StableHlo.after_of_writes_sub hostOps0 _ hostOps0_writes (r := b) h1)

/-- The pooled adjacency is what region 0 left in its second result: the five reshapes do not write it. -/
theorem V3_main_v7_1 : V3 m ρ c main_v7_1 = (dat0 (V1 m ρ) c).arrAt 8 cfg0.N :=
  (StableHlo.after_of_writes_sub hostOps1 _ hostOps1_writes (r := main_v7_1) (by decide)).trans (W2_arr m ρ c 8)
/-- The first layer's output is what region 0 left in its first result. -/
theorem V3_main_v7_0 : V3 m ρ c main_v7_0 = (dat0 (V1 m ρ) c).arrAt 7 cfg0.N :=
  (StableHlo.after_of_writes_sub hostOps1 _ hostOps1_writes (r := main_v7_0) (by decide)).trans (W2_arr m ρ c 7)

/-- The three weight matrices reach region 1 as launched. -/
theorem V3_main_arg5 : V3 m ρ c main_arg5 = m ((c : Thread nD τ).loc main_arg5) :=
  (StableHlo.after_of_writes_sub hostOps1 _ hostOps1_writes (r := main_arg5) (by decide)).trans (W2_launch m ρ c main_arg5 (by decide) (by decide))
theorem V3_main_arg7 : V3 m ρ c main_arg7 = m ((c : Thread nD τ).loc main_arg7) :=
  (StableHlo.after_of_writes_sub hostOps1 _ hostOps1_writes (r := main_arg7) (by decide)).trans (W2_launch m ρ c main_arg7 (by decide) (by decide))
theorem V3_main_arg9 : V3 m ρ c main_arg9 = m ((c : Thread nD τ).loc main_arg9) :=
  (StableHlo.after_of_writes_sub hostOps1 _ hostOps1_writes (r := main_arg9) (by decide)).trans (W2_launch m ρ c main_arg9 (by decide) (by decide))

/-- The ids as a row: the first host stretch's reshape of the id vector, untouched since. -/
theorem V3_main_v1 : (V3 m ρ c main_v1 : S1x10000.Idx → Elt F .i32)
    = shapeCast S1x10000 (m ((c : Thread nD τ).loc main_arg2) : S10000.Idx → Elt F .i32) shapeCasts_S10000_S1x10000 := by
  refine (StableHlo.after_of_writes_sub hostOps1 _ hostOps1_writes (r := main_v1) (by decide)).trans ?_
  refine (W2_of_ne m ρ c main_v1 (by decide)).trans ?_
  show StableHlo.after hostOps0 (W0 m ρ c) (Proc.devRef .tc main_v1) = _
  after_results
  rfl
theorem V3_main_v1_apply (n : Fin 10000) :
    (V3 m ρ c main_v1 : S1x10000.Idx → Elt F .i32) (ix2 0 n) = (m ((c : Thread nD τ).loc main_arg2) : S10000.Idx → Elt F .i32) (ix1 n) := by
  rw [V3_main_v1]; exact shapeCast_a_1a_apply _ _ 0 n

/-- `main_v8`: the second host stretch's reshape of `main_arg6` to a row, `main_arg6` as launched. -/
theorem V3_main_v8 : (V3 m ρ c main_v8 : S1x128.Idx → Elt F .f32)
    = shapeCast S1x128 (m ((c : Thread nD τ).loc main_arg6) : S128.Idx → Elt F .f32) shapeCasts_S128_S1x128 := by
  have e : (V3 m ρ c main_v8 : S1x128.Idx → Elt F .f32)
      = shapeCast S1x128 (W2 m ρ c (Proc.devRef .tc main_arg6) : S128.Idx → Elt F .f32) shapeCasts_S128_S1x128 := by
    show StableHlo.after hostOps1 (W2 m ρ c) (Proc.devRef .tc main_v8) = _
    after_results
    rfl
  rw [e, W2_launch m ρ c main_arg6 (by decide) (by decide)]
theorem V3_main_v8_apply (f : Fin 128) :
    (V3 m ρ c main_v8 : S1x128.Idx → Elt F .f32) (ix2 0 f) = (m ((c : Thread nD τ).loc main_arg6) : S128.Idx → Elt F .f32) (ix1 f) := by
  rw [V3_main_v8]; exact shapeCast_a_1a_apply _ _ 0 f

/-- `main_v9`: the second host stretch's reshape of `main_arg8` to a row, `main_arg8` as launched. -/
theorem V3_main_v9 : (V3 m ρ c main_v9 : S1x128.Idx → Elt F .f32)
    = shapeCast S1x128 (m ((c : Thread nD τ).loc main_arg8) : S128.Idx → Elt F .f32) shapeCasts_S128_S1x128 := by
  have e : (V3 m ρ c main_v9 : S1x128.Idx → Elt F .f32)
      = shapeCast S1x128 (W2 m ρ c (Proc.devRef .tc main_arg8) : S128.Idx → Elt F .f32) shapeCasts_S128_S1x128 := by
    show StableHlo.after hostOps1 (W2 m ρ c) (Proc.devRef .tc main_v9) = _
    after_results
    rfl
  rw [e, W2_launch m ρ c main_arg8 (by decide) (by decide)]
theorem V3_main_v9_apply (f : Fin 128) :
    (V3 m ρ c main_v9 : S1x128.Idx → Elt F .f32) (ix2 0 f) = (m ((c : Thread nD τ).loc main_arg8) : S128.Idx → Elt F .f32) (ix1 f) := by
  rw [V3_main_v9]; exact shapeCast_a_1a_apply _ _ 0 f

/-- `main_v10`: the second host stretch's reshape of `main_arg10` to a row, `main_arg10` as launched. -/
theorem V3_main_v10 : (V3 m ρ c main_v10 : S1x64.Idx → Elt F .f32)
    = shapeCast S1x64 (m ((c : Thread nD τ).loc main_arg10) : S64.Idx → Elt F .f32) shapeCasts_S64_S1x64 := by
  have e : (V3 m ρ c main_v10 : S1x64.Idx → Elt F .f32)
      = shapeCast S1x64 (W2 m ρ c (Proc.devRef .tc main_arg10) : S64.Idx → Elt F .f32) shapeCasts_S64_S1x64 := by
    show StableHlo.after hostOps1 (W2 m ρ c) (Proc.devRef .tc main_v10) = _
    after_results
    rfl
  rw [e, W2_launch m ρ c main_arg10 (by decide) (by decide)]
theorem V3_main_v10_apply (f : Fin 64) :
    (V3 m ρ c main_v10 : S1x64.Idx → Elt F .f32) (ix2 0 f) = (m ((c : Thread nD τ).loc main_arg10) : S64.Idx → Elt F .f32) (ix1 f) := by
  rw [V3_main_v10]; exact shapeCast_a_1a_apply _ _ 0 f

/-- `main_v11`: the second host stretch's reshape of `main_arg11` to a row, `main_arg11` as launched. -/
theorem V3_main_v11 : (V3 m ρ c main_v11 : S1x128.Idx → Elt F .f32)
    = shapeCast S1x128 (m ((c : Thread nD τ).loc main_arg11) : S128.Idx → Elt F .f32) shapeCasts_S128_S1x128 := by
  have e : (V3 m ρ c main_v11 : S1x128.Idx → Elt F .f32)
      = shapeCast S1x128 (W2 m ρ c (Proc.devRef .tc main_arg11) : S128.Idx → Elt F .f32) shapeCasts_S128_S1x128 := by
    show StableHlo.after hostOps1 (W2 m ρ c) (Proc.devRef .tc main_v11) = _
    after_results
    rfl
  rw [e, W2_launch m ρ c main_arg11 (by decide) (by decide)]
theorem V3_main_v11_apply (f : Fin 128) :
    (V3 m ρ c main_v11 : S1x128.Idx → Elt F .f32) (ix2 0 f) = (m ((c : Thread nD τ).loc main_arg11) : S128.Idx → Elt F .f32) (ix1 f) := by
  rw [V3_main_v11]; exact shapeCast_a_1a_apply _ _ 0 f

/-- `main_v12`: the second host stretch's reshape of `main_arg12` to a row, `main_arg12` as launched. -/
theorem V3_main_v12 : (V3 m ρ c main_v12 : S1x128.Idx → Elt F .f32)
    = shapeCast S1x128 (m ((c : Thread nD τ).loc main_arg12) : S128.Idx → Elt F .f32) shapeCasts_S128_S1x128 := by
  have e : (V3 m ρ c main_v12 : S1x128.Idx → Elt F .f32)
      = shapeCast S1x128 (W2 m ρ c (Proc.devRef .tc main_arg12) : S128.Idx → Elt F .f32) shapeCasts_S128_S1x128 := by
    show StableHlo.after hostOps1 (W2 m ρ c) (Proc.devRef .tc main_v12) = _
    after_results
    rfl
  rw [e, W2_launch m ρ c main_arg12 (by decide) (by decide)]
theorem V3_main_v12_apply (f : Fin 128) :
    (V3 m ρ c main_v12 : S1x128.Idx → Elt F .f32) (ix2 0 f) = (m ((c : Thread nD τ).loc main_arg12) : S128.Idx → Elt F .f32) (ix1 f) := by
  rw [V3_main_v12]; exact shapeCast_a_1a_apply _ _ 0 f

end Entry

end Arr1

open Arr1

/-! ## The kernel program's value -/

section Value
variable (m : (ℓ : Loc nD τ sig) → Buf (Elt Ideal) ℓ) (ρ : Dev nD → PrngReg) (c : Dev nD)

/-- The result array at the end of the run is the streamed arrangement's result of the launch inputs: region 1's
    write-back leaves the head's payload of the eleven arrays it was entered with, of which the first layer's output
    and the pooled adjacency are what the streaming pass left, the ids, biases, scale and shift are the launch vectors
    as rows, and the three weight matrices are as launched. -/
theorem kernel_value : (W4 (F := Ideal) m ρ c (Proc.devRef .tc main_v13) : S64x64.Idx → EReal)
    = fun i => Cert.Gnn.kOut (inp m c) (i 0) (i 1) := by
  have e : (W4 (F := Ideal) m ρ c (Proc.devRef .tc main_v13) : S64x64.Idx → EReal) = headPay (V3 m ρ) c :=
    (W4_arr m ρ c 11).trans (arr1_11 (V3 m ρ) c)
  rw [e]
  funext i
  obtain ⟨g, q, rfl⟩ : ∃ (g : Fin 64) (q : Fin 64), i = ix2 g q := ⟨i 0, i 1, eq_ix2 i⟩
  show headPay (V3 m ρ) c (ix2 g q) = Cert.Gnn.kOut (inp m c) g q
  rw [Cert.Gnn.kOut_eq]
  exact head_apply (inp m c) (Cert.Gnn.kB (inp m c) 24 (by decide)) (Cert.Gnn.kZ (inp m c))
    (V3 m ρ c main_v7_0) (V3 m ρ c main_v1) (V3 m ρ c main_v7_1) (V3 m ρ c main_arg5) (V3 m ρ c main_v8)
    (V3 m ρ c main_v11) (V3 m ρ c main_v12) (V3 m ρ c main_arg7) (V3 m ρ c main_v9) (V3 m ρ c main_arg9) (V3 m ρ c main_v10)
    (fun n j => by rw [V3_main_v7_0]; exact z1_arr m ρ c n j)
    (fun g n => by rw [V3_main_v7_1]; exact b_arr m ρ c g n)
    (fun n => V3_main_v1_apply m ρ c n)
    (fun j f => by rw [V3_main_arg5]; rfl)
    (fun f => V3_main_v8_apply m ρ c f)
    (fun f => V3_main_v11_apply m ρ c f)
    (fun f => V3_main_v12_apply m ρ c f)
    (fun j f => by rw [V3_main_arg7]; rfl)
    (fun f => V3_main_v9_apply m ρ c f)
    (fun j q => by rw [V3_main_arg9]; rfl)
    (fun q => V3_main_v10_apply m ρ c q)
    g q

end Value

end Cert.KernelIdeal.Hand
end
-- ==== Proof.RI.RefRun.lean ====
/-
  The run of the reference program. Its @main is a straight line of host operations with four calls of
  module-local functions (a relu on the 10000 x 128 features, the variance over the 64 graphs, which itself
  selects through a where, a relu on the 64 x 128 pooled features, and the log-softmax over the 64 classes).
  A call executes the callee's body on the operands, so the program is the flat line of operations obtained by
  writing each callee's operations at its call site over that call's own buffers; the contents of every buffer
  after the run are then the fold of the operations' results over the launch contents.
-/
import proofs.«148953_g38087769981371_fold_wed_m_124_15_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-- @main's ninety-five operations in program order, each call's operations written at the call site over that
    call's buffers: the relu's three after the first dense layer, the variance's nineteen followed by the three of
    the where it calls, the second relu's three, the log-softmax's fifteen; around them @main's own fifty-two. -/
abbrev ops : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_arg1 main_v5 main_v6 (addf : (⟨S10000x10000, .f32⟩ : BufTy).Contents (Elt F) → (⟨S10000x10000, .f32⟩ : BufTy).Contents (Elt F) → (⟨S10000x10000, .f32⟩ : BufTy).Contents (Elt F)),
    binary main_v6 main_arg0 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v7 main_arg3 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg4 main_v9 (broadcastInDim S1x128 ![1] bcast_S128_S1x128_1 : (⟨S128, .f32⟩ : BufTy).Contents (Elt F) → (⟨S1x128, .f32⟩ : BufTy).Contents (Elt F)),
    unary main_v9 main_v10 (broadcastInDim S10000x128 ![0, 1] bcast_S1x128_S10000x128_0_1 : (⟨S1x128, .f32⟩ : BufTy).Contents (Elt F) → (⟨S10000x128, .f32⟩ : BufTy).Contents (Elt F)),
    binary main_v8 main_v10 main_v11 (addf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v11 : TRef sig ⟨S10000x128, .f32⟩) main_call0.v0 main_call0.v1 maximumf,
    binary main_v6 main_v12 main_v13 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v13 main_arg5 main_v14 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg6 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    unary main_cst main_v18 (broadcastInDim S64x128 ![] bcast_S_S64x128 : (⟨S_, .f32⟩ : BufTy).Contents (Elt F) → (⟨S64x128, .f32⟩ : BufTy).Contents (Elt F)),
    unary main_arg2 main_v19 (broadcastInDim S10000x1 ![0] bcast_S10000_S10000x1_0 : (⟨S10000, .i32⟩ : BufTy).Contents (Elt F) → (⟨S10000x1, .i32⟩ : BufTy).Contents (Elt F)),
    ternary main_v18 main_v19 main_v17 main_v20 ((fun x i u => Host.scatterAdd scatter_S64x128_S10000x1_S10000x128_1_0_0_1 x i u) : (⟨S64x128, .f32⟩ : BufTy).Contents (Elt F) → (⟨S10000x1, .i32⟩ : BufTy).Contents (Elt F) → (⟨S10000x128, .f32⟩ : BufTy).Contents (Elt F) → (⟨S64x128, .f32⟩ : BufTy).Contents (Elt F)),
    nullary main_cst_0 (constant S_ .f32 0x00000000#32),
    binary main_v20 main_cst_0 main_v21 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_1 (constant S_ .f32 0x42800000#32),
    unary main_cst_1 main_v22 (broadcastInDim S128 ![] bcast_S_S128 : (⟨S_, .f32⟩ : BufTy).Contents (Elt F) → (⟨S128, .f32⟩ : BufTy).Contents (Elt F)),
    binary main_v21 main_v22 main_v23 (Host.divf : (⟨S128, .f32⟩ : BufTy).Contents (Elt F) → (⟨S128, .f32⟩ : BufTy).Contents (Elt F) → (⟨S128, .f32⟩ : BufTy).Contents (Elt F)),
    nullary main_c_2 (constantI S_ 32 0#32),
    TRef.nullary main_call1.cst (constant S_ .f32 0x00000000#32),
    TRef.binary (.of main_v20 : TRef sig ⟨S64x128, .f32⟩) main_call1.cst main_call1.v0 (fun x v => Host.reduceAdd x v reducesTo_S64x128_S128_d0 h_S_),
    TRef.unary main_call1.v0 main_call1.v1 (broadcastInDim S1x128 ![1] bcast_S128_S1x128_1),
    TRef.nullary main_call1.cst_0 (constant S_ .f32 0x42800000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S64x128 ![0, 1] bcast_S1x128_S64x128_0_1),
    TRef.binary (.of main_v20 : TRef sig ⟨S64x128, .f32⟩) main_call1.v4 main_call1.v5 subf,
    TRef.binary main_call1.v5 main_call1.v5 main_call1.v6 mulf,
    TRef.unary (.of main_c_2 : TRef sig ⟨S_, .i32⟩) main_call1.v7 (sitofp .f32),
    TRef.nullary main_call1.cst_1 (constant S_ .f32 0x42800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v23 main_v25 (broadcastInDim S1x128 ![1] bcast_S128_S1x128_1 : (⟨S128, .f32⟩ : BufTy).Contents (Elt F) → (⟨S1x128, .f32⟩ : BufTy).Contents (Elt F)),
    unary main_v25 main_v26 (broadcastInDim S64x128 ![0, 1] bcast_S1x128_S64x128_0_1 : (⟨S1x128, .f32⟩ : BufTy).Contents (Elt F) → (⟨S64x128, .f32⟩ : BufTy).Contents (Elt F)),
    binary main_v20 main_v26 main_v27 (subf : (⟨S64x128, .f32⟩ : BufTy).Contents (Elt F) → (⟨S64x128, .f32⟩ : BufTy).Contents (Elt F) → (⟨S64x128, .f32⟩ : BufTy).Contents (Elt F)),
    nullary main_cst_3 (constant S_ .f32 0x3727C5AC#32),
    unary main_cst_3 main_v28 (broadcastInDim S128 ![] bcast_S_S128 : (⟨S_, .f32⟩ : BufTy).Contents (Elt F) → (⟨S128, .f32⟩ : BufTy).Contents (Elt F)),
    binary main_v24 main_v28 main_v29 (addf : (⟨S128, .f32⟩ : BufTy).Contents (Elt F) → (⟨S128, .f32⟩ : BufTy).Contents (Elt F) → (⟨S128, .f32⟩ : BufTy).Contents (Elt F)),
    unary main_v29 main_v30 (Host.sqrt : (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S64x128 ![0, 1] bcast_S1x128_S64x128_0_1 : (⟨S1x128, .f32⟩ : BufTy).Contents (Elt F) → (⟨S64x128, .f32⟩ : BufTy).Contents (Elt F)),
    binary main_v27 main_v32 main_v33 (Host.divf : (⟨S64x128, .f32⟩ : BufTy).Contents (Elt F) → (⟨S64x128, .f32⟩ : BufTy).Contents (Elt F) → (⟨S64x128, .f32⟩ : BufTy).Contents (Elt F)),
    unary main_arg11 main_v34 (broadcastInDim S1x128 ![1] bcast_S128_S1x128_1 : (⟨S128, .f32⟩ : BufTy).Contents (Elt F) → (⟨S1x128, .f32⟩ : BufTy).Contents (Elt F)),
    unary main_v34 main_v35 (broadcastInDim S64x128 ![0, 1] bcast_S1x128_S64x128_0_1 : (⟨S1x128, .f32⟩ : BufTy).Contents (Elt F) → (⟨S64x128, .f32⟩ : BufTy).Contents (Elt F)),
    binary main_v33 main_v35 main_v36 (mulf : (⟨S64x128, .f32⟩ : BufTy).Contents (Elt F) → (⟨S64x128, .f32⟩ : BufTy).Contents (Elt F) → (⟨S64x128, .f32⟩ : BufTy).Contents (Elt F)),
    unary main_arg12 main_v37 (broadcastInDim S1x128 ![1] bcast_S128_S1x128_1 : (⟨S128, .f32⟩ : BufTy).Contents (Elt F) → (⟨S1x128, .f32⟩ : BufTy).Contents (Elt F)),
    unary main_v37 main_v38 (broadcastInDim S64x128 ![0, 1] bcast_S1x128_S64x128_0_1 : (⟨S1x128, .f32⟩ : BufTy).Contents (Elt F) → (⟨S64x128, .f32⟩ : BufTy).Contents (Elt F)),
    binary main_v36 main_v38 main_v39 (addf : (⟨S64x128, .f32⟩ : BufTy).Contents (Elt F) → (⟨S64x128, .f32⟩ : BufTy).Contents (Elt F) → (⟨S64x128, .f32⟩ : BufTy).Contents (Elt F)),
    binary main_v39 main_arg7 main_v40 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S64x128 ![0, 1] bcast_S1x128_S64x128_0_1 : (⟨S1x128, .f32⟩ : BufTy).Contents (Elt F) → (⟨S64x128, .f32⟩ : BufTy).Contents (Elt F)),
    binary main_v40 main_v42 main_v43 (addf : (⟨S64x128, .f32⟩ : BufTy).Contents (Elt F) → (⟨S64x128, .f32⟩ : BufTy).Contents (Elt F) → (⟨S64x128, .f32⟩ : BufTy).Contents (Elt F)),
    TRef.nullary main_call2.cst (constant S_ .f32 0x00000000#32),
    TRef.unary main_call2.cst main_call2.v0 (broadcastInDim S64x128 ![] bcast_S_S64x128),
    TRef.binary (.of main_v43 : TRef sig ⟨S64x128, .f32⟩) main_call2.v0 main_call2.v1 maximumf,
    binary main_v44 main_arg9 main_v45 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg10 main_v46 (broadcastInDim S1x64 ![1] bcast_S64_S1x64_1 : (⟨S64, .f32⟩ : BufTy).Contents (Elt F) → (⟨S1x64, .f32⟩ : BufTy).Contents (Elt F)),
    unary main_v46 main_v47 (broadcastInDim S64x64 ![0, 1] bcast_S1x64_S64x64_0_1 : (⟨S1x64, .f32⟩ : BufTy).Contents (Elt F) → (⟨S64x64, .f32⟩ : BufTy).Contents (Elt F)),
    binary main_v45 main_v47 main_v48 (addf : (⟨S64x64, .f32⟩ : BufTy).Contents (Elt F) → (⟨S64x64, .f32⟩ : BufTy).Contents (Elt F) → (⟨S64x64, .f32⟩ : BufTy).Contents (Elt F)),
    TRef.nullary main_call3.cst (constant S_ .f32 0xFF800000#32),
    TRef.binary (.of main_v48 : TRef sig ⟨S64x64, .f32⟩) main_call3.cst main_call3.v0 (fun x v => Host.reduce FloatOps.maximumf x v reducesTo_S64x64_S64_d1 h_S_),
    TRef.nullary main_call3.cst_0 (constant S_ .f32 0xFF800000#32),
    TRef.unary main_call3.cst_0 main_call3.v1 (broadcastInDim S64 ![] bcast_S_S64),
    TRef.binary main_call3.v1 main_call3.v0 main_call3.v2 maximumf,
    TRef.unary main_call3.v2 main_call3.v3 (broadcastInDim S64x1 ![0] bcast_S64_S64x1_0),
    TRef.unary main_call3.v3 main_call3.v4 (broadcastInDim S64x64 ![0, 1] bcast_S64x1_S64x64_0_1),
    TRef.binary (.of main_v48 : TRef sig ⟨S64x64, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S64x64_S64_d1 h_S_),
    TRef.unary main_call3.v7 main_call3.v8 (broadcastInDim S64x1 ![0] bcast_S64_S64x1_0),
    TRef.unary main_call3.v8 main_call3.v9 Host.log,
    TRef.unary main_call3.v9 main_call3.v10 (broadcastInDim S64x64 ![0, 1] bcast_S64x1_S64x64_0_1),
    TRef.binary main_call3.v5 main_call3.v10 main_call3.v11 subf ]

/-- @main is that straight line: a call is its callee's body applied to the operands and the call's buffers, so
    with the bodies unfolded at their calls both sides are the same chain of operation steps, by computation. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- Every operation determines what it writes. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

/-- The buffers the line writes, in program order: one per operation, each a value of @main or of a call's body,
    none of them an argument. -/
abbrev written : List (Ref sig .tc) :=
  [ main_v0, main_v1, main_c, main_v2, main_v3, main_v4, main_v5, main_v6,
    main_v7, main_v8, main_v9, main_v10, main_v11, main_call0_cst, main_call0_v0, main_v12,
    main_v13, main_v14, main_v15, main_v16, main_v17, main_cst, main_v18, main_v19,
    main_v20, main_cst_0, main_v21, main_cst_1, main_v22, main_v23, main_c_2, main_call1_cst,
    main_call1_v0, main_call1_v1, main_call1_cst_0, main_call1_v2, main_call1_v3, main_call1_v4, main_call1_v5, main_call1_v6,
    main_call1_v7, main_call1_cst_1, main_call1_v8, main_call1_cst_2, main_call1_v9, main_call1_v10, main_call1_v11, main_call1_cst_3,
    main_call1_v12, main_call1_cst_4, main_call1_call0_v0, main_call1_call0_v1, main_v24, main_v25, main_v26, main_v27,
    main_cst_3, main_v28, main_v29, main_v30, main_v31, main_v32, main_v33, main_v34,
    main_v35, main_v36, main_v37, main_v38, main_v39, main_v40, main_v41, main_v42,
    main_v43, main_call2_cst, main_call2_v0, main_v44, main_v45, main_v46, main_v47, main_v48,
    main_call3_cst, main_call3_v0, main_call3_cst_0, main_call3_v1, main_call3_v2, main_call3_v3, main_call3_v4, main_call3_v5,
    main_call3_v6, main_call3_cst_1, main_call3_v7, main_call3_v8, main_call3_v9, main_call3_v10, main_v49 ]

/-- A single buffer of the list, as a set, lies inside the list's set. -/
private theorem wr {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem h))

/-- Each operation writes its one result buffer, which is in the list. -/
theorem ops_writes : (ops : List (HloOp τ sig (Elt F))).Forall fun op =>
    op.writes ⊆ (written.map (Proc.devRef (τ := τ) .tc)).toFinset :=
  ⟨wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide),
    wr (by decide), wr (by decide), wr (by decide), wr (by decide), wr (by decide)⟩

/-- A buffer outside the list holds after the line what it held before: no operation writes it. -/
theorem arg_after (V : Valuation τ sig (Elt F)) {r : Ref sig .tc} (hr : r ∉ written) :
    after ops V (Proc.devRef .tc r) = V (Proc.devRef .tc r) :=
  after_of_writes_sub ops V ops_writes hr

/-- The result: the buffer contents after the operations, read at the result's buffer. -/
def refVal (m : (ℓ : Loc nD τ sig) → Buf (Elt F) ℓ) (c : Dev nD) : Buf (Elt F) ((c.tc : Thread nD τ).loc main_v49) :=
  StableHlo.after ops (fun b => m (c, b)) (Proc.devRef .tc main_v49)

/-- On the device, for any float values, from any memory with zero counters: every weakly fair execution of @main
    terminates with the result buffer at the fold of the operations over the launch contents and each of the
    thirteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v49) = refVal m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨h c main_v49,
      (h c main_arg0).trans (arg_after _ (by decide)),
      (h c main_arg1).trans (arg_after _ (by decide)),
      (h c main_arg2).trans (arg_after _ (by decide)),
      (h c main_arg3).trans (arg_after _ (by decide)),
      (h c main_arg4).trans (arg_after _ (by decide)),
      (h c main_arg5).trans (arg_after _ (by decide)),
      (h c main_arg6).trans (arg_after _ (by decide)),
      (h c main_arg7).trans (arg_after _ (by decide)),
      (h c main_arg8).trans (arg_after _ (by decide)),
      (h c main_arg9).trans (arg_after _ (by decide)),
      (h c main_arg10).trans (arg_after _ (by decide)),
      (h c main_arg11).trans (arg_after _ (by decide)),
      (h c main_arg12).trans (arg_after _ (by decide))⟩)
    (run_seq scopedRefs_eq scopedSems_eq defs main (fun _ => ops) main_eq (fun _ => ops_sub) m ρ
      (fun _ => List.forall_iff_forall_mem.1 ops_fresh))

end Cert.ReferenceIdeal.Hand

end
-- ==== Proof.BridgeNorm.lean ====
/-
  The two normalisations agree on real pooled values.

  With every pooled value real, the sum over the 64 graphs is a real; the divisor is the real 64, so the mean
  and the variance are reals, the variance being a mean of squares and hence nonnegative; epsilon is a positive
  real, so v = variance + epsilon is a positive real. There rsqrt v = 1 / sqrt v with sqrt v nonzero, so
  d * rsqrt v = d / sqrt v for a real d. The scale gamma and the shift beta are applied the same way to equal
  values on both sides, so they may be arbitrary extended reals.
-/
import proofs.«148953_g38087769981371_fold_wed_m_124_15_alg».proof.Proof.Spec

noncomputable section

namespace Cert.Gnn

open Idealize.ShloMosaic

/-- The word 0x42800000 is the float 64. -/
theorem c64_eq : c64 = ((64 : ℝ) : EReal) := by
  simp [c64, Ideal.ofBits, Ideal.ieee, -EReal.coe_mul]; norm_num

/-- The word 0x3727C5AC is a normal positive float: a positive real. -/
theorem ceps_pos : ∃ e : ℝ, 0 < e ∧ ceps = ((e : ℝ) : EReal) := by
  simp [ceps, Ideal.ofBits, Ideal.ieee, -EReal.coe_mul]

/-- A finite sum of reals, summed in the extended reals, is the real sum. -/
theorem coe_sum_real {ι : Type} (t : Finset ι) (a : ι → ℝ) :
    (∑ i ∈ t, ((a i : ℝ) : EReal)) = ((∑ i ∈ t, a i : ℝ) : EReal) := by
  classical
  induction t using Finset.induction_on with
  | empty => simp
  | insert i t hi ih => rw [Finset.sum_insert hi, Finset.sum_insert hi, ih, EReal.coe_add]

/-- At a positive real v, multiplying a real by rsqrt v is dividing it by sqrt v. -/
theorem mul_rsqrt_eq_div_sqrt {v : ℝ} (hv : 0 < v) (d : ℝ) :
    ((d : ℝ) : EReal) * Ideal.rsqrt ((v : ℝ) : EReal) = Ideal.div ((d : ℝ) : EReal) (Ideal.sqrt ((v : ℝ) : EReal)) := by
  have hs : Real.sqrt v ≠ 0 := (Real.sqrt_pos.2 hv).ne'
  rw [Ideal.rsqrt_coe, Ideal.sqrt_coe, if_neg (not_lt.2 hv.le), if_neg hv.ne', if_neg (not_lt.2 hv.le),
    Ideal.div_coe hs, one_div]

theorem kNorm_eq_rNorm (I : Inp) (s : Fin 64 → Fin 128 → ℝ) :
    kNorm I (fun g f => ((s g f : ℝ) : EReal)) = rNorm I (fun g f => ((s g f : ℝ) : EReal)) := by
  funext g f
  obtain ⟨e, he, hce⟩ := ceps_pos
  have h64 : (64 : ℝ) ≠ 0 := by norm_num
  -- the mean is a real
  have hmean : Ideal.div (∑ g' : Fin 64, ((s g' f : ℝ) : EReal)) c64
      = (((∑ g' : Fin 64, s g' f) * (1 / 64) : ℝ) : EReal) := by
    rw [c64_eq, Ideal.div_coe h64, coe_sum_real, ← EReal.coe_mul]
  generalize hm : (∑ g' : Fin 64, s g' f) * (1 / 64) = m at hmean
  -- the variance is a real, and a mean of squares
  have hvar : Ideal.div (∑ g' : Fin 64, (((s g' f : ℝ) : EReal) - ((m : ℝ) : EReal)) * (((s g' f : ℝ) : EReal) - ((m : ℝ) : EReal))) c64
      = (((∑ g' : Fin 64, (s g' f - m) * (s g' f - m)) * (1 / 64) : ℝ) : EReal) := by
    rw [c64_eq, Ideal.div_coe h64]
    simp only [← EReal.coe_sub, ← EReal.coe_mul]
    rw [coe_sum_real, ← EReal.coe_mul]
  have hw0 : 0 ≤ (∑ g' : Fin 64, (s g' f - m) * (s g' f - m)) * (1 / 64) :=
    mul_nonneg (Finset.sum_nonneg (fun i _ => mul_self_nonneg _)) (by norm_num)
  generalize (∑ g' : Fin 64, (s g' f - m) * (s g' f - m)) * (1 / 64) = w at hvar hw0
  have hv : 0 < w + e := by linarith
  simp only [kNorm, rNorm]
  rw [hmean, hvar, hce, ← EReal.coe_add, ← EReal.coe_sub, mul_rsqrt_eq_div_sqrt hv]

end Cert.Gnn

end
-- ==== Proof.RI.RefOps.lean ====
/-
  The reference program's operations, each read at an index, at the ideal values (a float an extended real, every
  operation exact).

  * The pooled scatter. An update index (n, f') lands at operand row "the id word of node n read signed" and column f'
    when that row is one of 0..63, and nowhere otherwise; so the result at (g, f) is the operand there plus the sum over
    the nodes n whose id is g of the update at (n, f).
  * The four matrix products: at (p, q) the sum over the contracted coordinate k of left (p, k) times right (k, q).
  * The identity matrix as the program builds it: the row index plus a zero word compared with the column index, the
    one-bit answer read as a float.
  * Broadcasts: a scalar spread over a shape, a vector laid as a row or as a column, a row repeated down the rows, a
    column repeated across the columns.
  * Reductions: the sum over the 64 graphs and over the 64 classes (initial value plus the sum), the maximum over the
    64 classes as a fold of max from the initial value, and the remark that a maximum with the fold's own start changes
    nothing.
  * The variance's count 64 - 0 is the word 64, it is positive, and a select on a true scalar guard takes its first branch.
-/
import proofs.«148953_g38087769981371_fold_wed_m_124_15_alg».proof.ReferenceIdeal
import proofs.«148953_g38087769981371_fold_wed_m_124_15_alg».proof.Proof.SpecK
import proofs.«148953_g38087769981371_fold_wed_m_124_15_alg».proof.Proof.BridgeNorm
import Idealize.ShloMosaic.Lib.ValueIdx
import Idealize.ShloMosaic.Lib.StackMember
import Idealize.ShloMosaic.PureOps.Ideal.Laws
import Idealize.ShloMosaic.PureOps.Reduce

noncomputable section

namespace Cert.ReferenceIdeal.Hand

open Cert.ReferenceIdeal
open Idealize.ShloMosaic Idealize.ShloMosaic.ValueIdx

variable [Facts₀]
open Facts₀

/-! ## The pooled scatter -/

/-- The scatter's dimension numbers over any proof of their side conditions. -/
abbrev sdOf (w : ScatterDims.WF S64x128 S10000x1 S10000x128 [1] [0] [0] 1) : ScatterDims S64x128 S10000x1 S10000x128 := ⟨[1], [0], [0], 1, w⟩

/-- The id of update index (n, f') is read at (n, 0) of the index array. -/
theorem siIdx0 (w) (n : Fin 10000) (f' : Fin 128) (c : Fin (sdOf w).scatterDimsToOperandDims.length) :
    (sdOf w).siIdx (ix2 n f') c = ix2 n 0 := by
  funext b
  match b with
  | ⟨0, _⟩ => rfl
  | ⟨1, _⟩ =>
    apply Fin.ext
    have := c.isLt
    simp [ScatterDims.siIdx]

/-- On the row axis the window starts at node n's id, read signed. -/
theorem start0 (w) (n : Fin 10000) (f' : Fin 128) (idx : IVec S10000x1 32) :
    (sdOf w).start (ix2 n f') idx 0 = (idx (ix2 n 0)).toInt := by
  unfold ScatterDims.start
  rw [dif_pos (List.mem_singleton.mpr rfl)]
  rw [siIdx0]

/-- On the column axis the window starts at zero. -/
theorem start1 (w) (j : S10000x128.Idx) (idx : IVec S10000x1 32) :
    (sdOf w).start j idx 1 = 0 := by
  unfold ScatterDims.start
  rw [dif_neg (show (1 : Fin 2) ∉ [0] by decide)]

/-- The row axis is inserted: no window coordinate there. -/
theorem window0 (w) (j : S10000x128.Idx) : (sdOf w).window j 0 = 0 := by
  unfold ScatterDims.window
  rw [dif_neg (show (0 : Fin 2) ∉ Shape.kept S64x128 [0] by decide)]

/-- On the column axis the window coordinate is the update's column. -/
theorem window1 (w) (n : Fin 10000) (f' : Fin 128) : (sdOf w).window (ix2 n f') 1 = f'.val := by
  unfold ScatterDims.window
  rw [dif_pos (show (1 : Fin 2) ∈ Shape.kept S64x128 [0] by decide)]
  rfl

/-- Update index (n, f') lands at (g, f) exactly when node n's id, read signed, is g and f' is f. -/
theorem resultIdx_iff (w) (idx : IVec S10000x1 32) (n : Fin 10000) (f' f : Fin 128) (g : Fin 64) :
    (sdOf w).resultIdx? (ix2 n f') idx = some (ix2 g f) ↔ (idx (ix2 n 0)).toInt = (g.val : ℤ) ∧ f' = f := by
  have hg := g.isLt; have hf := f.isLt; have hf' := f'.isLt
  have hcond : (∀ a : Fin 2, 0 ≤ (sdOf w).start (ix2 n f') idx a + (sdOf w).window (ix2 n f') a ∧ (sdOf w).start (ix2 n f') idx a + (sdOf w).window (ix2 n f') a < S64x128.size a)
      ↔ (0 ≤ (idx (ix2 n 0)).toInt ∧ (idx (ix2 n 0)).toInt < 64) := by
    rw [Fin.forall_fin_two, start0, start1, window0, window1]
    show (0 ≤ (idx (ix2 n 0)).toInt + ((0 : ℕ) : ℤ) ∧ (idx (ix2 n 0)).toInt + ((0 : ℕ) : ℤ) < ((64 : ℕ) : ℤ)) ∧ (0 ≤ (0 : ℤ) + (f'.val : ℤ) ∧ (0 : ℤ) + (f'.val : ℤ) < ((128 : ℕ) : ℤ)) ↔ _
    omega
  unfold ScatterDims.resultIdx?
  split
  · rename_i h
    rw [Option.some.injEq]
    have h0 := hcond.mp h
    constructor
    · intro e
      have e0 := congrArg (fun i => (i 0).val) e
      have e1 := congrArg (fun i => (i 1).val) e
      simp only [start0, start1, window0, window1] at e0 e1
      change _ = g.val at e0
      change _ = f.val at e1
      exact ⟨by omega, Fin.ext (by omega)⟩
    · rintro ⟨e0, rfl⟩
      funext a
      apply Fin.ext
      revert a
      show ∀ a : Fin 2, _
      rw [Fin.forall_fin_two]
      simp only [start0, start1, window0, window1]
      constructor
      · show _ = g.val
        omega
      · show _ = f'.val
        omega
  · rename_i h
    constructor
    · intro e; cases e
    · rintro ⟨e0, rfl⟩
      exact absurd (hcond.mpr (by omega)) h

/-- The pooled scatter read at (g, f): the operand there plus the rows whose id, read signed, is g. -/
theorem scatterAdd_apply (x : FVec Ideal S64x128 .f32) (idx : IVec S10000x1 32) (upd : FVec Ideal S10000x128 .f32)
    (g : Fin 64) (f : Fin 128) :
    Host.scatterAdd (F := Ideal) scatter_S64x128_S10000x1_S10000x128_1_0_0_1 x idx upd (ix2 g f)
      = x (ix2 g f) + ∑ n : Fin 10000, if (idx (ix2 n 0)).toInt = (g.val : ℤ) then upd (ix2 n f) else 0 := by
  show Ideal.hostScatterAdd (sdOf scatter_S64x128_S10000x1_S10000x128_1_0_0_1_wf) x idx upd (ix2 g f) = _
  unfold Ideal.hostScatterAdd
  refine congrArg (x (ix2 g f) + ·) ?_
  rw [Finset.sum_filter, sum_idx2]
  refine Finset.sum_congr rfl fun n _ => ?_
  simp only [resultIdx_iff]
  by_cases ht : (idx (ix2 n 0)).toInt = (g.val : ℤ)
  · simp only [ht, true_and]
    rw [Finset.sum_ite_eq' Finset.univ f (fun f' => upd (ix2 n f'))]
    simp
  · simp [ht]

/-! ## The four matrix products -/

/-- Adjacency (10000 x 10000) times features (10000 x 128). -/
theorem dotA_apply (A : FVec Ideal S10000x10000 .f32) (B : FVec Ideal S10000x128 .f32) (p : Fin 10000) (q : Fin 128) :
    Host.dotGeneral (F := Ideal) dot_S10000x10000_S10000x128_S10000x128_1_0_0_1_n_n none A B (ix2 p q)
      = ∑ k : Fin 10000, A (ix2 p k) * B (ix2 k q) :=
  StackMember.dotGeneral_plain_apply (m := 10000) (k := 10000) (n := 128) none A B p q

/-- Features (10000 x 128) times a weight (128 x 128). -/
theorem dotW_apply (A : FVec Ideal S10000x128 .f32) (B : FVec Ideal S128x128 .f32) (p : Fin 10000) (q : Fin 128) :
    Host.dotGeneral (F := Ideal) dot_S10000x128_S128x128_S10000x128_1_0_0_1_n_n none A B (ix2 p q)
      = ∑ k : Fin 128, A (ix2 p k) * B (ix2 k q) :=
  StackMember.dotGeneral_plain_apply (m := 10000) (k := 128) (n := 128) none A B p q

/-- Pooled features (64 x 128) times a weight (128 x 128). -/
theorem dotP_apply (A : FVec Ideal S64x128 .f32) (B : FVec Ideal S128x128 .f32) (p : Fin 64) (q : Fin 128) :
    Host.dotGeneral (F := Ideal) dot_S64x128_S128x128_S64x128_1_0_0_1_n_n none A B (ix2 p q)
      = ∑ k : Fin 128, A (ix2 p k) * B (ix2 k q) :=
  StackMember.dotGeneral_plain_apply (m := 64) (k := 128) (n := 128) none A B p q

/-- Pooled features (64 x 128) times the projection (128 x 64). -/
theorem dotQ_apply (A : FVec Ideal S64x128 .f32) (B : FVec Ideal S128x64 .f32) (p : Fin 64) (q : Fin 64) :
    Host.dotGeneral (F := Ideal) dot_S64x128_S128x64_S64x64_1_0_0_1_n_n none A B (ix2 p q)
      = ∑ k : Fin 128, A (ix2 p k) * B (ix2 k q) :=
  StackMember.dotGeneral_plain_apply (m := 64) (k := 128) (n := 64) none A B p q

/-! ## The identity matrix, as the program writes it -/

/-- Row index plus a zero word compared with the column index, read as a float: one on the diagonal, zero off it. -/
theorem eye_apply (h : S_.BroadcastsInDim S10000x10000 (![] : Fin 0 → Fin S10000x10000.rank)) (r k : Fin 10000) :
    (uitofp (F := Ideal) .f32 (cmpi .eq (addi (iotaInDim S10000x10000 32 0)
        (broadcastInDim S10000x10000 ![] h (constantI S_ 32 0#32))) (iotaInDim S10000x10000 32 1))) (ix2 r k)
      = if r = k then (1 : EReal) else 0 := by
  show (((IntOp.cmpi .eq (IntOp.addi (BitVec.ofNat 32 r.val) 0#32) (BitVec.ofNat 32 k.val)).toNat : ℝ) : EReal) = _
  have hr := r.isLt; have hk := k.isLt
  have e : (IntOp.addi (BitVec.ofNat 32 r.val) 0#32 = BitVec.ofNat 32 k.val) ↔ r = k := by
    unfold IntOp.addi
    rw [BitVec.add_zero]
    constructor
    · intro h; apply Fin.ext
      have := congrArg BitVec.toNat h
      simp only [BitVec.toNat_ofNat] at this
      omega
    · rintro rfl; rfl
  unfold IntOp.cmpi
  by_cases hrk : r = k
  · rw [if_pos hrk]
    have : (IntOp.addi (BitVec.ofNat 32 r.val) 0#32 == BitVec.ofNat 32 k.val) = true := by
      rw [beq_iff_eq]; exact e.mpr hrk
    simp [this]
  · rw [if_neg hrk]
    have : (IntOp.addi (BitVec.ofNat 32 r.val) 0#32 == BitVec.ofNat 32 k.val) = false := by
      rw [beq_eq_false_iff_ne]; exact fun h => hrk (e.mp h)
    simp [this]

/-! ## Broadcasts read at an index -/

/-- A scalar spread over any shape reads the scalar everywhere. -/
theorem bcast_scalar_apply {α : Type} (t : Shape) (h : S_.BroadcastsInDim t (![] : Fin 0 → Fin t.rank)) (x : S_.Idx → α) (i : t.Idx) :
    broadcastInDim t ![] h x i = x ix0 :=
  congrArg x (funext fun a => a.elim0)

/-- A vector of m entries laid as a 1 x m row: entry (0, b) is the vector's entry b. -/
theorem bcast_layRow_apply {α : Type} {m : Nat} (hm : m ≠ 1)
    (h : (⟨1, ![m]⟩ : Shape).BroadcastsInDim ⟨2, ![1, m]⟩ (![1] : Fin 1 → Fin 2))
    (x : (⟨1, ![m]⟩ : Shape).Idx → α) (a : Fin 1) (b : Fin m) :
    broadcastInDim ⟨2, ![1, m]⟩ ![1] h x (ix2 a b) = x (ix1 b) := by
  unfold broadcastInDim
  refine congrArg x (funext fun c => ?_)
  match c with
  | ⟨0, _⟩ =>
    apply Fin.ext
    simp [hm]

/-- A 1 x m row repeated down n rows: entry (a, b) is the row's entry b. -/
theorem bcast_rows_apply {α : Type} {n m : Nat} (hm : m ≠ 1)
    (h : (⟨2, ![1, m]⟩ : Shape).BroadcastsInDim ⟨2, ![n, m]⟩ (![0, 1] : Fin 2 → Fin 2))
    (y : (⟨2, ![1, m]⟩ : Shape).Idx → α) (a : Fin n) (b : Fin m) :
    broadcastInDim ⟨2, ![n, m]⟩ ![0, 1] h y (ix2 a b) = y (ix2 0 b) := by
  unfold broadcastInDim
  refine congrArg y (funext fun c => ?_)
  match c with
  | ⟨0, _⟩ => apply Fin.ext; simp
  | ⟨1, _⟩ => apply Fin.ext; simp [hm]

/-- A vector of n entries laid as an n x 1 column: entry (a, 0) is the vector's entry a. -/
theorem bcast_layCol_apply {α : Type} {n : Nat} (hn : n ≠ 1)
    (h : (⟨1, ![n]⟩ : Shape).BroadcastsInDim ⟨2, ![n, 1]⟩ (![0] : Fin 1 → Fin 2))
    (x : (⟨1, ![n]⟩ : Shape).Idx → α) (a : Fin n) (b : Fin 1) :
    broadcastInDim ⟨2, ![n, 1]⟩ ![0] h x (ix2 a b) = x (ix1 a) := by
  unfold broadcastInDim
  refine congrArg x (funext fun c => ?_)
  match c with
  | ⟨0, _⟩ =>
    apply Fin.ext
    simp [hn]

/-- An n x 1 column repeated across m columns: entry (a, b) is the column's entry a. -/
theorem bcast_cols_apply {α : Type} {n m : Nat} (hn : n ≠ 1)
    (h : (⟨2, ![n, 1]⟩ : Shape).BroadcastsInDim ⟨2, ![n, m]⟩ (![0, 1] : Fin 2 → Fin 2))
    (y : (⟨2, ![n, 1]⟩ : Shape).Idx → α) (a : Fin n) (b : Fin m) :
    broadcastInDim ⟨2, ![n, m]⟩ ![0, 1] h y (ix2 a b) = y (ix2 a 0) := by
  unfold broadcastInDim
  refine congrArg y (funext fun c => ?_)
  match c with
  | ⟨0, _⟩ => apply Fin.ext; simp [hn]
  | ⟨1, _⟩ => apply Fin.ext; simp

/-! ## Reductions read at an index -/

/-- The sum over the 64 graphs (axis 0) of a 64 x 128 array, from an initial value. -/
theorem reduceAdd0_apply (h' : S64x128.ReducesTo [0] S128) (hu : 0 < S_.numel) (x : FVec Ideal S64x128 .f32)
    (v : FVec Ideal S_ .f32) (f : Fin 128) :
    Host.reduceAdd (F := Ideal) x v h' hu (ix1 f) = v ix0 + ∑ g : Fin 64, x (ix2 g f) := by
  show Ideal.hostReduceAdd h' x (v (Shape.Idx.first hu)) (ix1 f) = _
  rw [Ideal.hostReduceAdd_single h' (by decide : S64x128.Reduces [0] S128), eq_ix0 (Shape.Idx.first hu)]
  refine congrArg (v ix0 + ·) (Finset.sum_congr rfl fun g _ => congrArg x (funext fun c => ?_))
  match c with
  | ⟨0, _⟩ => rfl
  | ⟨1, _⟩ => rfl

/-- The sum over the 64 classes (axis 1) of a 64 x 64 array, from an initial value. -/
theorem reduceAdd1_apply (h' : S64x64.ReducesTo [1] S64) (hu : 0 < S_.numel) (x : FVec Ideal S64x64 .f32)
    (v : FVec Ideal S_ .f32) (g : Fin 64) :
    Host.reduceAdd (F := Ideal) x v h' hu (ix1 g) = v ix0 + ∑ q : Fin 64, x (ix2 g q) := by
  show Ideal.hostReduceAdd h' x (v (Shape.Idx.first hu)) (ix1 g) = _
  rw [Ideal.hostReduceAdd_single h' (by decide : S64x64.Reduces [1] S64), eq_ix0 (Shape.Idx.first hu)]
  refine congrArg (v ix0 + ·) (Finset.sum_congr rfl fun q _ => congrArg x (funext fun c => ?_))
  match c with
  | ⟨0, _⟩ => rfl
  | ⟨1, _⟩ => rfl

/-- The maximum over the 64 classes (axis 1) of a 64 x 64 array, from an initial value: a fold of max. -/
theorem reduceMax1_apply (h' : S64x64.ReducesTo [1] S64) (hu : 0 < S_.numel) (x : FVec Ideal S64x64 .f32)
    (v : FVec Ideal S_ .f32) (g : Fin 64) :
    Host.reduce (FloatOps.maximumf (F := Ideal) (φ := .f32)) x v h' hu (ix1 g)
      = (Finset.univ : Finset (Fin 64)).fold max (v ix0) (fun q => x (ix2 g q)) := by
  have hR : S64x64.Reduces [1] S64 := by decide
  rw [Host.reduce_eq_fold_single _ x v h' hR hu, eq_ix0 (Shape.Idx.first hu)]
  have e : (x ∘ hR.lift (ix1 g)) = fun q : Fin 64 => x (ix2 g q) :=
    funext fun q => congrArg x (funext fun c => by
      match c with
      | ⟨0, _⟩ => rfl
      | ⟨1, _⟩ => rfl)
  exact congrArg (fun F => (Finset.univ : Finset (Fin 64)).fold max (v ix0) F) e

/-- Taking the maximum with the fold's own starting value changes nothing. -/
theorem max_fold_max {ι : Type} (s : Finset ι) (c : EReal) (f : ι → EReal) :
    max c (s.fold max c f) = s.fold max c f := by
  classical
  refine max_eq_right ?_
  induction s using Finset.induction_on with
  | empty => simp
  | insert i t hi ih => rw [Finset.fold_insert hi]; exact le_max_of_le_right ih

/-! ## The host's pointwise float operations read at an index -/

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl
theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl

/-! ## The variance's count and its guard -/

/-- The count 64 - 0, the zero an integer word read as a float, is the word 64. -/
theorem count_apply (i : S_.Idx) :
    subf (F := Ideal) (constant S_ .f32 0x42800000#32) (sitofp .f32 (constantI S_ 32 0#32)) i = Cert.Gnn.c64 := by
  show Ideal.ofBits .f32 0x42800000#32 - (((0#32 : BitVec 32).toInt : ℝ) : EReal) = Cert.Gnn.c64
  have : (((0#32 : BitVec 32).toInt : ℝ) : EReal) = 0 := by
    rw [show (0#32 : BitVec 32).toInt = 0 from by decide]; simp
  rw [this, sub_zero]; rfl

/-- The count is positive: the guard of the variance's select is the true word. -/
theorem count_pos_apply (i : S_.Idx) :
    cmpf (F := Ideal) .ogt (subf (constant S_ .f32 0x42800000#32) (sitofp .f32 (constantI S_ 32 0#32)))
      (constant S_ .f32 0x00000000#32) i = 1#1 := by
  rw [cmpf_apply, count_apply, constant_apply, Ideal.ofBits_zero_f32, Ideal.cmpf_def, Cert.Gnn.c64_eq]
  unfold Ideal.cmp
  have : ((0 : EReal) < ((64 : ℝ) : EReal)) := by exact_mod_cast (by norm_num : (0 : ℝ) < 64)
  simp [this]

/-- A select on a scalar guard spread over the 128 features, the guard true: the first branch. -/
theorem where_apply (h : S_.BroadcastsInDim S128 (![] : Fin 0 → Fin S128.rank)) (p : IVec S_ 1) (a b : FVec Ideal S128 .f32)
    (hp : p ix0 = 1#1) (i : S128.Idx) :
    select (broadcastInDim S128 ![] h p) a b i = a i := by
  rw [select_apply, bcast_scalar_apply, hp, select_one]

end Cert.ReferenceIdeal.Hand

end
-- ==== Proof.RI.RefVal.lean ====
/-
  The reference program's result at the ideal values is the textbook arrangement of the graph-network forward pass.

  The ninety-five operations of the run are read in nine consecutive stretches; the buffer contents after the whole
  line are those after the last stretch run from the contents after the one before, and so on back to the launch
  contents. Each stretch is read once, over arbitrary starting contents, given what the buffers it reads hold:
    the adjacency plus the identity; the first layer z = relu(((A + I) x) W1 + b1); the second layer before pooling
    ((A + I) z) W2 + b2; its sum pooling by graph id; the mean over the 64 graphs; the variance over them (the
    mean taken again, the count 64 - 0 positive); the normalisation with scale and shift; the dense layer with relu and
    the projection to the classes; the log-softmax.
  No stretch writes an argument, so each stretch reads the arguments as launched; a value computed in one stretch and
  read two stretches later is carried across the stretch between, which does not write it.
-/
import proofs.«148953_g38087769981371_fold_wed_m_124_15_alg».proof.Proof.RI.RefRun
import proofs.«148953_g38087769981371_fold_wed_m_124_15_alg».proof.Proof.RI.RefOps

noncomputable section

namespace Cert.ReferenceIdeal.Hand

open Cert.ReferenceIdeal Cert.ReferenceIdeal.Gen Cert.Gnn
open Idealize.ShloMosaic Idealize.ShloMosaic.TcCoe Idealize.ShloMosaic.ValueIdx Idealize.ShloMosaic.StableHlo Idealize.SL.Sem

variable {F : FTy → Type} [FloatOps F]

/-! ## The run in nine stretches -/
/-- The adjacency plus the identity. -/
abbrev segA : List (HloOp τ sig (Elt F)) :=
  [ nullary main_v0 (iotaInDim S10000x10000 32 0),
    nullary main_v1 (iotaInDim S10000x10000 32 1),
    nullary main_c (constantI S_ 32 0#32),
    unary main_c main_v2 (broadcastInDim S10000x10000 ![] bcast_S_S10000x10000 : (⟨S_, .i32⟩ : BufTy).Contents (Elt F) → (⟨S10000x10000, .i32⟩ : BufTy).Contents (Elt F)),
    binary main_v0 main_v2 main_v3 (addi : (⟨S10000x10000, .i32⟩ : BufTy).Contents (Elt F) → (⟨S10000x10000, .i32⟩ : BufTy).Contents (Elt F) → (⟨S10000x10000, .i32⟩ : BufTy).Contents (Elt F)),
    binary main_v3 main_v1 main_v4 (cmpi .eq : (⟨S10000x10000, .i32⟩ : BufTy).Contents (Elt F) → (⟨S10000x10000, .i32⟩ : BufTy).Contents (Elt F) → (⟨S10000x10000, .i1⟩ : BufTy).Contents (Elt F)),
    unary main_v4 main_v5 (uitofp .f32 : (⟨S10000x10000, .i1⟩ : BufTy).Contents (Elt F) → (⟨S10000x10000, .f32⟩ : BufTy).Contents (Elt F)),
    binary main_arg1 main_v5 main_v6 (addf : (⟨S10000x10000, .f32⟩ : BufTy).Contents (Elt F) → (⟨S10000x10000, .f32⟩ : BufTy).Contents (Elt F) → (⟨S10000x10000, .f32⟩ : BufTy).Contents (Elt F)) ]

/-- The first layer. -/
abbrev segB : List (HloOp τ sig (Elt F)) :=
  [ binary main_v6 main_arg0 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v7 main_arg3 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg4 main_v9 (broadcastInDim S1x128 ![1] bcast_S128_S1x128_1 : (⟨S128, .f32⟩ : BufTy).Contents (Elt F) → (⟨S1x128, .f32⟩ : BufTy).Contents (Elt F)),
    unary main_v9 main_v10 (broadcastInDim S10000x128 ![0, 1] bcast_S1x128_S10000x128_0_1 : (⟨S1x128, .f32⟩ : BufTy).Contents (Elt F) → (⟨S10000x128, .f32⟩ : BufTy).Contents (Elt F)),
    binary main_v8 main_v10 main_v11 (addf : (⟨S10000x128, .f32⟩ : BufTy).Contents (Elt F) → (⟨S10000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v11 : TRef sig ⟨S10000x128, .f32⟩) main_call0.v0 main_call0.v1 maximumf ]

/-- The second layer before pooling. -/
abbrev segC : List (HloOp τ sig (Elt F)) :=
  [ binary main_v6 main_v12 main_v13 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_v13 main_arg5 main_v14 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg6 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (addf : (⟨S10000x128, .f32⟩ : BufTy).Contents (Elt F) → (⟨S10000x128, .f32⟩ : BufTy).Contents (Elt F) → (⟨S10000x128, .f32⟩ : BufTy).Contents (Elt F)) ]

/-- The sum pooling by graph id. -/
abbrev segD : List (HloOp τ sig (Elt F)) :=
  [ nullary main_cst (constant S_ .f32 0x00000000#32),
    unary main_cst main_v18 (broadcastInDim S64x128 ![] bcast_S_S64x128 : (⟨S_, .f32⟩ : BufTy).Contents (Elt F) → (⟨S64x128, .f32⟩ : BufTy).Contents (Elt F)),
    unary main_arg2 main_v19 (broadcastInDim S10000x1 ![0] bcast_S10000_S10000x1_0 : (⟨S10000, .i32⟩ : BufTy).Contents (Elt F) → (⟨S10000x1, .i32⟩ : BufTy).Contents (Elt F)),
    ternary main_v18 main_v19 main_v17 main_v20 ((fun x i u => Host.scatterAdd scatter_S64x128_S10000x1_S10000x128_1_0_0_1 x i u) : (⟨S64x128, .f32⟩ : BufTy).Contents (Elt F) → (⟨S10000x1, .i32⟩ : BufTy).Contents (Elt F) → (⟨S10000x128, .f32⟩ : BufTy).Contents (Elt F) → (⟨S64x128, .f32⟩ : BufTy).Contents (Elt F)) ]

/-- The mean over the graphs. -/
abbrev segE : List (HloOp τ sig (Elt F)) :=
  [ nullary main_cst_0 (constant S_ .f32 0x00000000#32),
    binary main_v20 main_cst_0 main_v21 ((fun x v => Host.reduceAdd x v reducesTo_S64x128_S128_d0 h_S_) : (⟨S64x128, .f32⟩ : BufTy).Contents (Elt F) → (⟨S_, .f32⟩ : BufTy).Contents (Elt F) → (⟨S128, .f32⟩ : BufTy).Contents (Elt F)),
    nullary main_cst_1 (constant S_ .f32 0x42800000#32),
    unary main_cst_1 main_v22 (broadcastInDim S128 ![] bcast_S_S128 : (⟨S_, .f32⟩ : BufTy).Contents (Elt F) → (⟨S128, .f32⟩ : BufTy).Contents (Elt F)),
    binary main_v21 main_v22 main_v23 (Host.divf : (⟨S128, .f32⟩ : BufTy).Contents (Elt F) → (⟨S128, .f32⟩ : BufTy).Contents (Elt F) → (⟨S128, .f32⟩ : BufTy).Contents (Elt F)) ]

/-- The variance over the graphs. -/
abbrev segFv : List (HloOp τ sig (Elt F)) :=
  [ nullary main_c_2 (constantI S_ 32 0#32),
    TRef.nullary main_call1.cst (constant S_ .f32 0x00000000#32),
    TRef.binary (.of main_v20 : TRef sig ⟨S64x128, .f32⟩) main_call1.cst main_call1.v0 (fun x v => Host.reduceAdd x v reducesTo_S64x128_S128_d0 h_S_),
    TRef.unary main_call1.v0 main_call1.v1 (broadcastInDim S1x128 ![1] bcast_S128_S1x128_1),
    TRef.nullary main_call1.cst_0 (constant S_ .f32 0x42800000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S64x128 ![0, 1] bcast_S1x128_S64x128_0_1),
    TRef.binary (.of main_v20 : TRef sig ⟨S64x128, .f32⟩) main_call1.v4 main_call1.v5 subf,
    TRef.binary main_call1.v5 main_call1.v5 main_call1.v6 mulf,
    TRef.unary (.of main_c_2 : TRef sig ⟨S_, .i32⟩) main_call1.v7 (sitofp .f32),
    TRef.nullary main_call1.cst_1 (constant S_ .f32 0x42800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S64x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- The normalisation, scale and shift. -/
abbrev segG : List (HloOp τ sig (Elt F)) :=
  [ unary main_v23 main_v25 (broadcastInDim S1x128 ![1] bcast_S128_S1x128_1 : (⟨S128, .f32⟩ : BufTy).Contents (Elt F) → (⟨S1x128, .f32⟩ : BufTy).Contents (Elt F)),
    unary main_v25 main_v26 (broadcastInDim S64x128 ![0, 1] bcast_S1x128_S64x128_0_1 : (⟨S1x128, .f32⟩ : BufTy).Contents (Elt F) → (⟨S64x128, .f32⟩ : BufTy).Contents (Elt F)),
    binary main_v20 main_v26 main_v27 (subf : (⟨S64x128, .f32⟩ : BufTy).Contents (Elt F) → (⟨S64x128, .f32⟩ : BufTy).Contents (Elt F) → (⟨S64x128, .f32⟩ : BufTy).Contents (Elt F)),
    nullary main_cst_3 (constant S_ .f32 0x3727C5AC#32),
    unary main_cst_3 main_v28 (broadcastInDim S128 ![] bcast_S_S128 : (⟨S_, .f32⟩ : BufTy).Contents (Elt F) → (⟨S128, .f32⟩ : BufTy).Contents (Elt F)),
    binary main_v24 main_v28 main_v29 (addf : (⟨S128, .f32⟩ : BufTy).Contents (Elt F) → (⟨S128, .f32⟩ : BufTy).Contents (Elt F) → (⟨S128, .f32⟩ : BufTy).Contents (Elt F)),
    unary main_v29 main_v30 (Host.sqrt : (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S64x128 ![0, 1] bcast_S1x128_S64x128_0_1 : (⟨S1x128, .f32⟩ : BufTy).Contents (Elt F) → (⟨S64x128, .f32⟩ : BufTy).Contents (Elt F)),
    binary main_v27 main_v32 main_v33 (Host.divf : (⟨S64x128, .f32⟩ : BufTy).Contents (Elt F) → (⟨S64x128, .f32⟩ : BufTy).Contents (Elt F) → (⟨S64x128, .f32⟩ : BufTy).Contents (Elt F)),
    unary main_arg11 main_v34 (broadcastInDim S1x128 ![1] bcast_S128_S1x128_1 : (⟨S128, .f32⟩ : BufTy).Contents (Elt F) → (⟨S1x128, .f32⟩ : BufTy).Contents (Elt F)),
    unary main_v34 main_v35 (broadcastInDim S64x128 ![0, 1] bcast_S1x128_S64x128_0_1 : (⟨S1x128, .f32⟩ : BufTy).Contents (Elt F) → (⟨S64x128, .f32⟩ : BufTy).Contents (Elt F)),
    binary main_v33 main_v35 main_v36 (mulf : (⟨S64x128, .f32⟩ : BufTy).Contents (Elt F) → (⟨S64x128, .f32⟩ : BufTy).Contents (Elt F) → (⟨S64x128, .f32⟩ : BufTy).Contents (Elt F)),
    unary main_arg12 main_v37 (broadcastInDim S1x128 ![1] bcast_S128_S1x128_1 : (⟨S128, .f32⟩ : BufTy).Contents (Elt F) → (⟨S1x128, .f32⟩ : BufTy).Contents (Elt F)),
    unary main_v37 main_v38 (broadcastInDim S64x128 ![0, 1] bcast_S1x128_S64x128_0_1 : (⟨S1x128, .f32⟩ : BufTy).Contents (Elt F) → (⟨S64x128, .f32⟩ : BufTy).Contents (Elt F)),
    binary main_v36 main_v38 main_v39 (addf : (⟨S64x128, .f32⟩ : BufTy).Contents (Elt F) → (⟨S64x128, .f32⟩ : BufTy).Contents (Elt F) → (⟨S64x128, .f32⟩ : BufTy).Contents (Elt F)) ]

/-- The dense layer with relu and the projection. -/
abbrev segH : List (HloOp τ sig (Elt F)) :=
  [ binary main_v39 main_arg7 main_v40 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S64x128 ![0, 1] bcast_S1x128_S64x128_0_1 : (⟨S1x128, .f32⟩ : BufTy).Contents (Elt F) → (⟨S64x128, .f32⟩ : BufTy).Contents (Elt F)),
    binary main_v40 main_v42 main_v43 (addf : (⟨S64x128, .f32⟩ : BufTy).Contents (Elt F) → (⟨S64x128, .f32⟩ : BufTy).Contents (Elt F) → (⟨S64x128, .f32⟩ : BufTy).Contents (Elt F)),
    TRef.nullary main_call2.cst (constant S_ .f32 0x00000000#32),
    TRef.unary main_call2.cst main_call2.v0 (broadcastInDim S64x128 ![] bcast_S_S64x128),
    TRef.binary (.of main_v43 : TRef sig ⟨S64x128, .f32⟩) main_call2.v0 main_call2.v1 maximumf,
    binary main_v44 main_arg9 main_v45 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg10 main_v46 (broadcastInDim S1x64 ![1] bcast_S64_S1x64_1 : (⟨S64, .f32⟩ : BufTy).Contents (Elt F) → (⟨S1x64, .f32⟩ : BufTy).Contents (Elt F)),
    unary main_v46 main_v47 (broadcastInDim S64x64 ![0, 1] bcast_S1x64_S64x64_0_1 : (⟨S1x64, .f32⟩ : BufTy).Contents (Elt F) → (⟨S64x64, .f32⟩ : BufTy).Contents (Elt F)),
    binary main_v45 main_v47 main_v48 (addf : (⟨S64x64, .f32⟩ : BufTy).Contents (Elt F) → (⟨S64x64, .f32⟩ : BufTy).Contents (Elt F) → (⟨S64x64, .f32⟩ : BufTy).Contents (Elt F)) ]

/-- The log-softmax. -/
abbrev segL : List (HloOp τ sig (Elt F)) :=
  [ TRef.nullary main_call3.cst (constant S_ .f32 0xFF800000#32),
    TRef.binary (.of main_v48 : TRef sig ⟨S64x64, .f32⟩) main_call3.cst main_call3.v0 (fun x v => Host.reduce FloatOps.maximumf x v reducesTo_S64x64_S64_d1 h_S_),
    TRef.nullary main_call3.cst_0 (constant S_ .f32 0xFF800000#32),
    TRef.unary main_call3.cst_0 main_call3.v1 (broadcastInDim S64 ![] bcast_S_S64),
    TRef.binary main_call3.v1 main_call3.v0 main_call3.v2 maximumf,
    TRef.unary main_call3.v2 main_call3.v3 (broadcastInDim S64x1 ![0] bcast_S64_S64x1_0),
    TRef.unary main_call3.v3 main_call3.v4 (broadcastInDim S64x64 ![0, 1] bcast_S64x1_S64x64_0_1),
    TRef.binary (.of main_v48 : TRef sig ⟨S64x64, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S64x64_S64_d1 h_S_),
    TRef.unary main_call3.v7 main_call3.v8 (broadcastInDim S64x1 ![0] bcast_S64_S64x1_0),
    TRef.unary main_call3.v8 main_call3.v9 Host.log,
    TRef.unary main_call3.v9 main_call3.v10 (broadcastInDim S64x64 ![0, 1] bcast_S64x1_S64x64_0_1),
    TRef.binary main_call3.v5 main_call3.v10 main_call3.v11 subf ]

section Stages

/-! ## Each stretch read over arbitrary starting contents

The thirteen argument arrays are variables; the inputs at plain coordinates are read off them. -/

variable (a0 : S10000x128.Idx → EReal) (a1 : S10000x10000.Idx → EReal) (a2 : S10000.Idx → BitVec 32)
  (a3 : S128x128.Idx → EReal) (a4 : S128.Idx → EReal) (a5 : S128x128.Idx → EReal) (a6 : S128.Idx → EReal)
  (a7 : S128x128.Idx → EReal) (a8 : S128.Idx → EReal) (a9 : S128x64.Idx → EReal) (a10 : S64.Idx → EReal)
  (a11 : S128.Idx → EReal) (a12 : S128.Idx → EReal)

local notation "I" => inpOf a0 a1 a2 a3 a4 a5 a6 a7 a8 a9 a10 a11 a12

/-- The adjacency with the identity added. -/
theorem stageA (W : Valuation τ sig (Elt Ideal)) (h1 : W (Proc.devRef .tc main_arg1) = a1) :
    after (segA (F := Ideal)) W (Proc.devRef .tc main_v6) = fun i => rAt I (i 0) (i 1) := by
  after_results
  rw [h1]
  funext i
  obtain ⟨r, k, rfl⟩ : ∃ (r : Fin 10000) (k : Fin 10000), i = ix2 r k := ⟨i 0, i 1, eq_ix2 i⟩
  rw [addf_apply, eye_apply]
  rfl

/-- First layer: z = relu(((A + I) x) W1 + b1). -/
theorem stageB (W : Valuation τ sig (Elt Ideal)) (h6 : W (Proc.devRef .tc main_v6) = fun i => rAt I (i 0) (i 1))
    (h0 : W (Proc.devRef .tc main_arg0) = a0) (h3 : W (Proc.devRef .tc main_arg3) = a3) (h4 : W (Proc.devRef .tc main_arg4) = a4) :
    after (segB (F := Ideal)) W (Proc.devRef .tc main_v12) = fun i => rZ I (i 0) (i 1) := by
  after_results
  simp only [cast_eq]
  rw [h6, h0, h3, h4]
  funext i
  obtain ⟨r, f, rfl⟩ : ∃ (r : Fin 10000) (f : Fin 128), i = ix2 r f := ⟨i 0, i 1, eq_ix2 i⟩
  rw [maximumf_apply, addf_apply, dotW_apply, bcast_rows_apply (by decide), bcast_layRow_apply (by decide),
    bcast_scalar_apply, constant_apply, Ideal.ofBits_zero_f32]
  simp only [dotA_apply]
  rfl

/-- Second layer before pooling: x3 = ((A + I) z) W2 + b2. -/
theorem stageC (W : Valuation τ sig (Elt Ideal)) (h6 : W (Proc.devRef .tc main_v6) = fun i => rAt I (i 0) (i 1))
    (h12 : W (Proc.devRef .tc main_v12) = fun i => rZ I (i 0) (i 1))
    (h5 : W (Proc.devRef .tc main_arg5) = a5) (h6' : W (Proc.devRef .tc main_arg6) = a6) :
    after (segC (F := Ideal)) W (Proc.devRef .tc main_v17) = fun i => rX3 I (i 0) (i 1) := by
  after_results
  rw [h6, h12, h5, h6']
  funext i
  obtain ⟨r, f, rfl⟩ : ∃ (r : Fin 10000) (f : Fin 128), i = ix2 r f := ⟨i 0, i 1, eq_ix2 i⟩
  rw [addf_apply, dotW_apply, bcast_rows_apply (by decide), bcast_layRow_apply (by decide)]
  simp only [dotA_apply]
  rfl

/-- Sum pooling by graph id. -/
theorem stageD (W : Valuation τ sig (Elt Ideal)) (h17 : W (Proc.devRef .tc main_v17) = fun i => rX3 I (i 0) (i 1))
    (h2 : W (Proc.devRef .tc main_arg2) = a2) :
    after (segD (F := Ideal)) W (Proc.devRef .tc main_v20) = fun i => rSeg I (i 0) (i 1) := by
  after_results
  rw [h17, h2]
  funext i
  obtain ⟨g, f, rfl⟩ : ∃ (g : Fin 64) (f : Fin 128), i = ix2 g f := ⟨i 0, i 1, eq_ix2 i⟩
  rw [scatterAdd_apply, bcast_scalar_apply, constant_apply, Ideal.ofBits_zero_f32, zero_add]
  simp only [bcast_layCol_apply (n := 10000) (by decide)]
  rfl

/-- The mean over the 64 graphs, per feature. -/
theorem stageE (W : Valuation τ sig (Elt Ideal)) (sg : Fin 64 → Fin 128 → EReal)
    (h20 : W (Proc.devRef .tc main_v20) = fun i => sg (i 0) (i 1)) :
    after (segE (F := Ideal)) W (Proc.devRef .tc main_v23) = fun i => Ideal.div (∑ g' : Fin 64, sg g' (i 0)) c64 := by
  after_results
  rw [h20]
  funext i
  obtain ⟨f, rfl⟩ : ∃ f : Fin 128, i = ix1 f := ⟨i 0, eq_ix1 i⟩
  rw [hostDivf_apply, reduceAdd0_apply, constant_apply, Ideal.ofBits_zero_f32, zero_add, bcast_scalar_apply, constant_apply]
  rfl

/-- The variance over the 64 graphs, per feature: the mean taken again, the squared deviations summed and divided by
    the count 64 - 0, the guard on a positive count true. -/
theorem stageF (W : Valuation τ sig (Elt Ideal)) (sg : Fin 64 → Fin 128 → EReal)
    (h20 : W (Proc.devRef .tc main_v20) = fun i => sg (i 0) (i 1)) :
    after (segFv (F := Ideal)) W (Proc.devRef .tc main_v24) = fun i =>
      Ideal.div (∑ g' : Fin 64, (sg g' (i 0) - Ideal.div (∑ g'' : Fin 64, sg g'' (i 0)) c64)
        * (sg g' (i 0) - Ideal.div (∑ g'' : Fin 64, sg g'' (i 0)) c64)) c64 := by
  after_results_simp
  simp only [cast_eq]
  rw [h20]
  funext i
  obtain ⟨f, rfl⟩ : ∃ f : Fin 128, i = ix1 f := ⟨i 0, eq_ix1 i⟩
  rw [where_apply _ _ _ _ (count_pos_apply ix0), hostDivf_apply, reduceAdd0_apply, constant_apply, Ideal.ofBits_zero_f32,
    zero_add, bcast_scalar_apply, count_apply]
  simp only [mulf_apply, subf_apply, bcast_rows_apply (m := 128) (by decide), hostDivf_apply,
    bcast_layRow_apply (m := 128) (by decide), reduceAdd0_apply, bcast_scalar_apply S1x128, bcast_scalar_apply S128, constant_apply,
    Ideal.ofBits_zero_f32, zero_add]
  rfl

/-- Normalisation: (seg - mean) / sqrt(var + eps) * gamma + beta. -/
theorem stageG (W : Valuation τ sig (Elt Ideal)) (sg : Fin 64 → Fin 128 → EReal) (mean var : Fin 128 → EReal)
    (h20 : W (Proc.devRef .tc main_v20) = fun i => sg (i 0) (i 1))
    (h23 : W (Proc.devRef .tc main_v23) = fun i => mean (i 0))
    (h24 : W (Proc.devRef .tc main_v24) = fun i => var (i 0))
    (h11 : W (Proc.devRef .tc main_arg11) = a11) (h12 : W (Proc.devRef .tc main_arg12) = a12) :
    after (segG (F := Ideal)) W (Proc.devRef .tc main_v39) = fun i =>
      Ideal.div (sg (i 0) (i 1) - mean (i 1)) (Ideal.sqrt (var (i 1) + ceps)) * a11 (ix1 (i 1)) + a12 (ix1 (i 1)) := by
  after_results_simp
  rw [h20, h23, h24, h11, h12]
  funext i
  obtain ⟨g, f, rfl⟩ : ∃ (g : Fin 64) (f : Fin 128), i = ix2 g f := ⟨i 0, i 1, eq_ix2 i⟩
  simp only [addf_apply, mulf_apply, subf_apply, hostDivf_apply, hostSqrt_apply, bcast_rows_apply (m := 128) (by decide),
    bcast_layRow_apply (m := 128) (by decide), bcast_scalar_apply S128, constant_apply]
  rfl

/-- Dense layer with relu, then the projection to the 64 classes. -/
theorem stageH (W : Valuation τ sig (Elt Ideal)) (o : Fin 64 → Fin 128 → EReal)
    (h39 : W (Proc.devRef .tc main_v39) = fun i => o (i 0) (i 1))
    (h7 : W (Proc.devRef .tc main_arg7) = a7) (h8 : W (Proc.devRef .tc main_arg8) = a8)
    (h9 : W (Proc.devRef .tc main_arg9) = a9) (h10 : W (Proc.devRef .tc main_arg10) = a10) :
    after (segH (F := Ideal)) W (Proc.devRef .tc main_v48) = fun i => tailLogits I o (i 0) (i 1) := by
  after_results_simp
  simp only [cast_eq]
  rw [h39, h7, h8, h9, h10]
  funext i
  obtain ⟨g, q, rfl⟩ : ∃ (g : Fin 64) (q : Fin 64), i = ix2 g q := ⟨i 0, i 1, eq_ix2 i⟩
  rw [addf_apply, dotQ_apply, bcast_rows_apply (m := 64) (by decide), bcast_layRow_apply (m := 64) (by decide)]
  simp only [maximumf_apply, addf_apply, dotP_apply, bcast_rows_apply (m := 128) (by decide),
    bcast_layRow_apply (m := 128) (by decide), bcast_scalar_apply S64x128, constant_apply, Ideal.ofBits_zero_f32]
  rfl

/-- Log-softmax over the 64 classes: subtract the row maximum, then the log of the sum of exponentials. -/
theorem stageL (W : Valuation τ sig (Elt Ideal)) (lg : Fin 64 → Fin 64 → EReal)
    (h48 : W (Proc.devRef .tc main_v48) = fun i => lg (i 0) (i 1)) :
    after (segL (F := Ideal)) W (Proc.devRef .tc main_v49) = fun i =>
      (lg (i 0) (i 1) - (Finset.univ : Finset (Fin 64)).fold max cninf (lg (i 0)))
        - Ideal.log (∑ q' : Fin 64, Ideal.exp (lg (i 0) q' - (Finset.univ : Finset (Fin 64)).fold max cninf (lg (i 0)))) := by
  after_results_simp
  simp only [cast_eq]
  rw [h48]
  funext i
  obtain ⟨g, q, rfl⟩ : ∃ (g : Fin 64) (q : Fin 64), i = ix2 g q := ⟨i 0, i 1, eq_ix2 i⟩
  simp only [subf_apply, hostLog_apply, hostExp_apply, maximumf_apply, bcast_cols_apply (n := 64) (by decide),
    bcast_layCol_apply (n := 64) (by decide), reduceAdd1_apply, reduceMax1_apply, bcast_scalar_apply S64, constant_apply,
    Ideal.ofBits_zero_f32, zero_add, max_fold_max]
  rfl

end Stages

/-! ## The stretches make up the run; none writes an argument -/

theorem ops_split : (ops : List (HloOp τ sig (Elt F)))
    = segA ++ (segB ++ (segC ++ (segD ++ (segE ++ (segFv ++ (segG ++ (segH ++ segL))))))) := rfl

/-- The contents after the run: the last stretch from the contents after the one before, back to the launch contents. -/
theorem after_ops_eq (V : Valuation τ sig (Elt F)) :
    after ops V = after segL (after segH (after segG (after segFv (after segE (after segD (after segC (after segB (after segA V)))))))) := by
  rw [ops_split]; simp only [StableHlo.after_append]

theorem sub_segA : ∀ op ∈ (segA : List (HloOp τ sig (Elt F))), op ∈ (ops : List (HloOp τ sig (Elt F))) :=
  fun op h => by rw [ops_split]; exact List.mem_append_left _ h
theorem sub_segB : ∀ op ∈ (segB : List (HloOp τ sig (Elt F))), op ∈ (ops : List (HloOp τ sig (Elt F))) :=
  fun op h => by rw [ops_split]; exact List.mem_append_right _ (List.mem_append_left _ h)
theorem sub_segC : ∀ op ∈ (segC : List (HloOp τ sig (Elt F))), op ∈ (ops : List (HloOp τ sig (Elt F))) :=
  fun op h => by rw [ops_split]; exact List.mem_append_right _ (List.mem_append_right _ (List.mem_append_left _ h))
theorem sub_segD : ∀ op ∈ (segD : List (HloOp τ sig (Elt F))), op ∈ (ops : List (HloOp τ sig (Elt F))) :=
  fun op h => by rw [ops_split]; exact List.mem_append_right _ (List.mem_append_right _ (List.mem_append_right _ (List.mem_append_left _ h)))
theorem sub_segE : ∀ op ∈ (segE : List (HloOp τ sig (Elt F))), op ∈ (ops : List (HloOp τ sig (Elt F))) :=
  fun op h => by rw [ops_split]; exact List.mem_append_right _ (List.mem_append_right _ (List.mem_append_right _ (List.mem_append_right _ (List.mem_append_left _ h))))
theorem sub_segFv : ∀ op ∈ (segFv : List (HloOp τ sig (Elt F))), op ∈ (ops : List (HloOp τ sig (Elt F))) :=
  fun op h => by rw [ops_split]; exact List.mem_append_right _ (List.mem_append_right _ (List.mem_append_right _ (List.mem_append_right _ (List.mem_append_right _ (List.mem_append_left _ h)))))
theorem sub_segG : ∀ op ∈ (segG : List (HloOp τ sig (Elt F))), op ∈ (ops : List (HloOp τ sig (Elt F))) :=
  fun op h => by rw [ops_split]; exact List.mem_append_right _ (List.mem_append_right _ (List.mem_append_right _ (List.mem_append_right _ (List.mem_append_right _ (List.mem_append_right _ (List.mem_append_left _ h))))))

/-- A stretch of the run leaves a buffer the run never writes as it was. -/
theorem keep_of_sub {seg : List (HloOp τ sig (Elt F))} (hs : ∀ op ∈ seg, op ∈ (ops : List (HloOp τ sig (Elt F))))
    (W : Valuation τ sig (Elt F)) {r : Ref sig .tc} (hr : r ∉ written) :
    after seg W (Proc.devRef .tc r) = W (Proc.devRef .tc r) :=
  after_of_writes_sub seg W
    (List.forall_iff_forall_mem.mpr fun op hop => List.forall_iff_forall_mem.mp ops_writes op (hs op hop)) hr

theorem arg_W1 (V : Valuation τ sig (Elt F)) {r : Ref sig .tc} (hr : r ∉ written) :
    after segA V (Proc.devRef .tc r) = V (Proc.devRef .tc r) :=
  keep_of_sub sub_segA V hr
theorem arg_W2 (V : Valuation τ sig (Elt F)) {r : Ref sig .tc} (hr : r ∉ written) :
    after segB (after segA V) (Proc.devRef .tc r) = V (Proc.devRef .tc r) :=
  (keep_of_sub sub_segB _ hr).trans (arg_W1 V hr)
theorem arg_W3 (V : Valuation τ sig (Elt F)) {r : Ref sig .tc} (hr : r ∉ written) :
    after segC (after segB (after segA V)) (Proc.devRef .tc r) = V (Proc.devRef .tc r) :=
  (keep_of_sub sub_segC _ hr).trans (arg_W2 V hr)
theorem arg_W4 (V : Valuation τ sig (Elt F)) {r : Ref sig .tc} (hr : r ∉ written) :
    after segD (after segC (after segB (after segA V))) (Proc.devRef .tc r) = V (Proc.devRef .tc r) :=
  (keep_of_sub sub_segD _ hr).trans (arg_W3 V hr)
theorem arg_W5 (V : Valuation τ sig (Elt F)) {r : Ref sig .tc} (hr : r ∉ written) :
    after segE (after segD (after segC (after segB (after segA V)))) (Proc.devRef .tc r) = V (Proc.devRef .tc r) :=
  (keep_of_sub sub_segE _ hr).trans (arg_W4 V hr)
theorem arg_W6 (V : Valuation τ sig (Elt F)) {r : Ref sig .tc} (hr : r ∉ written) :
    after segFv (after segE (after segD (after segC (after segB (after segA V))))) (Proc.devRef .tc r) = V (Proc.devRef .tc r) :=
  (keep_of_sub sub_segFv _ hr).trans (arg_W5 V hr)
theorem arg_W7 (V : Valuation τ sig (Elt F)) {r : Ref sig .tc} (hr : r ∉ written) :
    after segG (after segFv (after segE (after segD (after segC (after segB (after segA V)))))) (Proc.devRef .tc r) = V (Proc.devRef .tc r) :=
  (keep_of_sub sub_segG _ hr).trans (arg_W6 V hr)

/-- The first layer's stretch does not write the adjacency with the identity. -/
theorem keepB_v6 (W : Valuation τ sig (Elt F)) : after segB W (Proc.devRef .tc main_v6) = W (Proc.devRef .tc main_v6) := by
  after_results
/-- The mean's stretch does not write the pooled values. -/
theorem keepE_v20 (W : Valuation τ sig (Elt F)) : after segE W (Proc.devRef .tc main_v20) = W (Proc.devRef .tc main_v20) := by
  after_results
/-- The variance's stretch writes neither the pooled values nor the mean. -/
theorem keepF_v20 (W : Valuation τ sig (Elt F)) : after segFv W (Proc.devRef .tc main_v20) = W (Proc.devRef .tc main_v20) := by
  after_results_simp
theorem keepF_v23 (W : Valuation τ sig (Elt F)) : after segFv W (Proc.devRef .tc main_v23) = W (Proc.devRef .tc main_v23) := by
  after_results_simp

/-! ## The values along the run, from the launch contents -/

/-- The inputs at plain coordinates read off the argument buffers of given contents. -/
abbrev inpV (V : Valuation τ sig (Elt Ideal)) : Inp :=
  inpOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))

section Values
variable (V : Valuation τ sig (Elt Ideal))

theorem val_v6 : after segA V (Proc.devRef .tc main_v6) = fun i => rAt (inpV V) (i 0) (i 1) :=
  stageA _ _ _ _ _ _ _ _ _ _ _ _ _ V rfl

theorem val_v12 : after segB (after segA V) (Proc.devRef .tc main_v12) = fun i => rZ (inpV V) (i 0) (i 1) :=
  stageB _ _ _ _ _ _ _ _ _ _ _ _ _ _ (val_v6 V) (arg_W1 V (r := main_arg0) (by decide)) (arg_W1 V (r := main_arg3) (by decide)) (arg_W1 V (r := main_arg4) (by decide))

theorem val_v17 : after segC (after segB (after segA V)) (Proc.devRef .tc main_v17) = fun i => rX3 (inpV V) (i 0) (i 1) :=
  stageC _ _ _ _ _ _ _ _ _ _ _ _ _ _ ((keepB_v6 _).trans (val_v6 V)) (val_v12 V) (arg_W2 V (r := main_arg5) (by decide)) (arg_W2 V (r := main_arg6) (by decide))

theorem val_v20 : after segD (after segC (after segB (after segA V))) (Proc.devRef .tc main_v20) = fun i => rSeg (inpV V) (i 0) (i 1) :=
  stageD _ _ _ _ _ _ _ _ _ _ _ _ _ _ (val_v17 V) (arg_W3 V (r := main_arg2) (by decide))

/-- The mean and the variance of the pooled values over the 64 graphs, per feature. -/
abbrev meanV (f : Fin 128) : EReal := Ideal.div (∑ g' : Fin 64, rSeg (inpV V) g' f) c64
abbrev varV (f : Fin 128) : EReal :=
  Ideal.div (∑ g' : Fin 64, (rSeg (inpV V) g' f - meanV V f) * (rSeg (inpV V) g' f - meanV V f)) c64

theorem val_v23 : after segE (after segD (after segC (after segB (after segA V)))) (Proc.devRef .tc main_v23) = fun i => meanV V (i 0) :=
  stageE _ (rSeg (inpV V)) (val_v20 V)

theorem val_v24 : after segFv (after segE (after segD (after segC (after segB (after segA V))))) (Proc.devRef .tc main_v24) = fun i => varV V (i 0) :=
  stageF _ (rSeg (inpV V)) ((keepE_v20 _).trans (val_v20 V))

theorem val_v39 : after segG (after segFv (after segE (after segD (after segC (after segB (after segA V)))))) (Proc.devRef .tc main_v39) = fun i => rNorm (inpV V) (rSeg (inpV V)) (i 0) (i 1) :=
  stageG _ _ _ (rSeg (inpV V)) (meanV V) (varV V)
    ((keepF_v20 _).trans ((keepE_v20 _).trans (val_v20 V))) ((keepF_v23 _).trans (val_v23 V)) (val_v24 V)
    (arg_W6 V (r := main_arg11) (by decide)) (arg_W6 V (r := main_arg12) (by decide))

theorem val_v48 : after segH (after segG (after segFv (after segE (after segD (after segC (after segB (after segA V))))))) (Proc.devRef .tc main_v48)
    = fun i => tailLogits (inpV V) (rNorm (inpV V) (rSeg (inpV V))) (i 0) (i 1) :=
  stageH _ _ _ _ _ _ _ _ _ _ _ _ _ _ (rNorm (inpV V) (rSeg (inpV V))) (val_v39 V) (arg_W7 V (r := main_arg7) (by decide)) (arg_W7 V (r := main_arg8) (by decide)) (arg_W7 V (r := main_arg9) (by decide)) (arg_W7 V (r := main_arg10) (by decide))

/-- The result buffer after the run, from any launch contents: the textbook arrangement's result. -/
theorem after_ops_v49 : after (ops (F := Ideal)) V (Proc.devRef .tc main_v49) = fun i => rOut (inpV V) (i 0) (i 1) := by
  rw [after_ops_eq]
  exact stageL _ (tailLogits (inpV V) (rNorm (inpV V) (rSeg (inpV V)))) (val_v48 V)

end Values

/-- The reference's result, read at an index, is the textbook arrangement at the inputs read off the thirteen argument
    arrays as launched. -/
theorem refVal_eq (m : (ℓ : Loc nD τ sig) → Buf (Elt Ideal) ℓ) (c : Dev nD) :
    (refVal (F := Ideal) m c : S64x64.Idx → EReal) = fun i => Cert.Gnn.rOut (Cert.Gnn.inpOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (i 0) (i 1) :=
  after_ops_v49 (fun b => m (c, b))

end Cert.ReferenceIdeal.Hand

end
-- ==== Proof.BridgeSeg.lean ====
/-
  The pooled second layer of the two arrangements is one real matrix.

  With every float input a real number the streamed arrangement's first layer, (A x) + A (x - x) + x, is
  ((A + I) x): the middle term is a sum of zeros. So both arrangements share one real z. The strip-by-strip
  accumulation of S A is the single sum over all 10000 rows (rows 400 t + r, t < 25, r < 400, enumerate every
  row once). The one-hot entry "the id word equals g" is 1 exactly where the word read as a signed integer is g
  (0 <= g < 64 < 2^31). Sum pooling is linear, which in the reals is a rearrangement of finite sums:
  S ((A + I) z W2 + b2) = ((S A + S) z) W2 + (S 1) b2.
  All of the algebra is done in the reals; the extended reals only carry the coercion.
-/
import proofs.«148953_g38087769981371_fold_wed_m_124_15_alg».proof.Proof.Spec
import Mathlib.Data.EReal.Operations
import Mathlib.Algebra.BigOperators.Group.Finset.Basic
import Mathlib.Algebra.BigOperators.Group.Finset.Piecewise
import Mathlib.Algebra.BigOperators.Ring.Finset
import Mathlib.Data.Fintype.BigOperators

noncomputable section

namespace Cert.Gnn

/-! ## The coercion from the reals commutes with finite sums, max and 0/1 indicators -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem coe_ite01 (c : Prop) [Decidable c] :
    (if c then (1 : EReal) else 0) = ((if c then (1 : ℝ) else 0 : ℝ) : EReal) := by
  split_ifs <;> rfl

/-! ## Membership as a real 0/1, and its reading through the signed integer -/

/-- The one-hot entry as a real number. -/
def ohr (g : Fin 64) (w : BitVec 32) : ℝ := if BitVec.ofNat 32 g.val = w then 1 else 0

theorem oh_eq (g : Fin 64) (w : BitVec 32) : oh g w = (ohr g w : EReal) := by
  unfold oh ohr
  split_ifs <;> rfl

/-- For g < 64 the word of g is w exactly when w, read as a signed integer, is g. -/
theorem ofNat_eq_iff (g : Fin 64) (w : BitVec 32) :
    BitVec.ofNat 32 g.val = w ↔ w.toInt = (g.val : ℤ) := by
  have hg := g.isLt
  constructor
  · intro h
    subst h
    rw [BitVec.toInt_eq_toNat_cond, BitVec.toNat_ofNat]
    have : g.val % 2 ^ 32 = g.val := Nat.mod_eq_of_lt (by omega)
    rw [this, if_pos (by omega)]
  · intro h
    rw [BitVec.toInt_eq_toNat_cond] at h
    have hw := w.isLt
    apply BitVec.eq_of_toNat_eq
    rw [BitVec.toNat_ofNat]
    split_ifs at h with h2
    · have : g.val % 2 ^ 32 = g.val := Nat.mod_eq_of_lt (by omega)
      omega
    · exfalso; omega

/-! ## Real mirrors of the two arrangements -/

section Mirror

variable (A : Fin 10000 → Fin 10000 → ℝ) (x : Fin 10000 → Fin 128 → ℝ) (idx : Fin 10000 → BitVec 32)
  (W1 : Fin 128 → Fin 128 → ℝ) (b1 : Fin 128 → ℝ) (W2 : Fin 128 → Fin 128 → ℝ) (b2 : Fin 128 → ℝ)

/-- ((A + I) x) in the reals. -/
def yR (r : Fin 10000) (j : Fin 128) : ℝ := (∑ k : Fin 10000, A r k * x k j) + x r j

/-- The first layer in the reals. -/
def zR (r : Fin 10000) (f : Fin 128) : ℝ := max ((∑ j : Fin 128, yR A x r j * W1 j f) + b1 f) 0

/-- One strip's contribution to S A in the reals. -/
def partR (t : Fin 25) (g : Fin 64) (n : Fin 10000) : ℝ :=
  ∑ r : Fin 400, ohr g (idx (row t r)) * A (row t r) n

/-- S A in the reals, as one sum over all rows. -/
def bR (g : Fin 64) (n : Fin 10000) : ℝ := ∑ r : Fin 10000, ohr g (idx r) * A r n

/-- The textbook second layer, one row, in the reals. -/
def x3R (r : Fin 10000) (f : Fin 128) : ℝ :=
  (∑ j : Fin 128, (∑ k : Fin 10000, (A r k + if r = k then 1 else 0) * zR A x W1 b1 k j) * W2 j f) + b2 f

/-- The pooled second layer in the reals, the streamed way. -/
def segR (g : Fin 64) (f : Fin 128) : ℝ :=
  (∑ j : Fin 128, (∑ n : Fin 10000, (bR A idx g n + ohr g (idx n)) * zR A x W1 b1 n j) * W2 j f)
    + (∑ n : Fin 10000, ohr g (idx n)) * b2 f

end Mirror

/-! ## Pure real algebra, over arbitrary finite index types -/

/-- Multiplying by A + I adds the vector itself. -/
theorem sum_add_id_mul {ι : Type*} [Fintype ι] [DecidableEq ι] (a : ι → ℝ) (v : ι → ℝ) (r : ι) :
    ∑ k, (a k + if r = k then 1 else 0) * v k = (∑ k, a k * v k) + v r := by
  have h : ∀ k, (a k + if r = k then 1 else 0) * v k = a k * v k + (if r = k then v k else 0) := by
    intro k; split_ifs <;> ring
  simp only [h, Finset.sum_add_distrib, Finset.sum_ite_eq, Finset.mem_univ, if_true]

/-- Pooling a dense layer with bias: S (Y W + b) = (S Y) W + (S 1) b, for one output feature. -/
theorem pooled_dense {ι κ : Type*} [Fintype ι] [Fintype κ]
    (o : ι → ℝ) (Y : ι → κ → ℝ) (W : κ → ℝ) (b : ℝ) :
    (∑ j, (∑ n, o n * Y n j) * W j) + (∑ n, o n) * b = ∑ n, o n * ((∑ j, Y n j * W j) + b) := by
  have h1 : ∑ j, (∑ n, o n * Y n j) * W j = ∑ n, o n * ∑ j, Y n j * W j := by
    simp only [Finset.sum_mul, Finset.mul_sum]
    rw [Finset.sum_comm]
    exact Finset.sum_congr rfl fun n _ => Finset.sum_congr rfl fun j _ => by ring
  rw [h1, Finset.sum_mul, ← Finset.sum_add_distrib]
  exact Finset.sum_congr rfl fun n _ => by ring

/-- Sum pooling is linear: S ((A + I) z W + b) = ((S A + S) z) W + (S 1) b, for one output feature. -/
theorem pooled_real {ι κ : Type*} [Fintype ι] [DecidableEq ι] [Fintype κ]
    (o : ι → ℝ) (A : ι → ι → ℝ) (z : ι → κ → ℝ) (W : κ → ℝ) (b : ℝ) :
    (∑ j, (∑ n, ((∑ r, o r * A r n) + o n) * z n j) * W j) + (∑ n, o n) * b
      = ∑ n, o n * ((∑ j, (∑ k, (A n k + if n = k then 1 else 0) * z k j) * W j) + b) := by
  have key : ∀ j, ∑ n, ((∑ r, o r * A r n) + o n) * z n j
      = ∑ n, o n * ∑ k, (A n k + if n = k then 1 else 0) * z k j := by
    intro j
    simp only [Finset.mul_sum]
    rw [Finset.sum_comm]
    refine Finset.sum_congr rfl fun k _ => ?_
    have h : ∀ n, o n * ((A n k + if n = k then 1 else 0) * z k j)
        = o n * A n k * z k j + (if n = k then o n * z k j else 0) := by
      intro n; split_ifs <;> ring
    calc (∑ r, o r * A r k + o k) * z k j
        = ∑ n, o n * A n k * z k j + o k * z k j := by rw [add_mul, Finset.sum_mul]
      _ = ∑ n, (o n * A n k * z k j + if n = k then o n * z k j else 0) := by
          rw [Finset.sum_add_distrib, Finset.sum_ite_eq' Finset.univ k, if_pos (Finset.mem_univ k)]
      _ = ∑ n, o n * ((A n k + if n = k then 1 else 0) * z k j) :=
          Finset.sum_congr rfl fun n _ => (h n).symm
  simp only [key]
  exact pooled_dense o _ W b

/-! ## The rows of the 25 strips enumerate every row once -/

/-- (t, r) ↦ 400 t + r is a bijection of 25 x 400 onto the 10000 rows. -/
def rowEquiv : Fin 25 × Fin 400 ≃ Fin 10000 where
  toFun p := row p.1 p.2
  invFun n := (⟨n.val / 400, by have := n.isLt; omega⟩, ⟨n.val % 400, Nat.mod_lt _ (by decide)⟩)
  left_inv := by
    rintro ⟨t, r⟩
    have := t.isLt
    have := r.isLt
    ext <;> simp only [row] <;> omega
  right_inv := by
    intro n
    ext
    simp only [row]
    omega

theorem sum_rows (F : Fin 10000 → ℝ) :
    ∑ t : Fin 25, ∑ r : Fin 400, F (row t r) = ∑ n : Fin 10000, F n :=
  (Fintype.sum_prod_type (fun p : Fin 25 × Fin 400 => F (row p.1 p.2))).symm.trans
    (Equiv.sum_comp rowEquiv F)

/-! ## The extended-real definitions are the coercions of their real mirrors -/

/-- The real arrays behind the float inputs of the first two layers. -/
structure Reals (I : Inp) where
  A : Fin 10000 → Fin 10000 → ℝ
  x : Fin 10000 → Fin 128 → ℝ
  W1 : Fin 128 → Fin 128 → ℝ
  b1 : Fin 128 → ℝ
  W2 : Fin 128 → Fin 128 → ℝ
  b2 : Fin 128 → ℝ
  hA : ∀ r k, I.A r k = (A r k : EReal)
  hx : ∀ r j, I.x r j = (x r j : EReal)
  hW1 : ∀ j f, I.W1 j f = (W1 j f : EReal)
  hb1 : ∀ f, I.b1 f = (b1 f : EReal)
  hW2 : ∀ j f, I.W2 j f = (W2 j f : EReal)
  hb2 : ∀ f, I.b2 f = (b2 f : EReal)

section Bridge

variable {I : Inp} (R : Reals I)

/-- x - x = 0 on the reals, so the middle term of the streamed first layer is a sum of zeros. -/
theorem kH_eq (r : Fin 10000) (j : Fin 128) : kH I r j = (yR R.A R.x r j : EReal) := by
  unfold kH yR
  simp only [R.hA, R.hx, ← EReal.coe_sub, sub_self, ← EReal.coe_mul, mul_zero, ← coe_sum,
    Finset.sum_const_zero, ← EReal.coe_add, add_zero]

theorem rY_eq (r : Fin 10000) (j : Fin 128) : rY I r j = (yR R.A R.x r j : EReal) := by
  unfold rY rAt yR
  simp only [R.hA, R.hx, coe_ite01, ← EReal.coe_add, ← EReal.coe_mul, ← coe_sum]
  rw [sum_add_id_mul]

theorem kZ_eq (r : Fin 10000) (f : Fin 128) : kZ I r f = (zR R.A R.x R.W1 R.b1 r f : EReal) := by
  unfold kZ zR
  rw [coe_max, EReal.coe_zero]
  simp only [kH_eq R, R.hW1, R.hb1, ← EReal.coe_mul, ← coe_sum, ← EReal.coe_add]

theorem rZ_eq (r : Fin 10000) (f : Fin 128) : rZ I r f = (zR R.A R.x R.W1 R.b1 r f : EReal) := by
  unfold rZ zR
  rw [coe_max, EReal.coe_zero]
  simp only [rY_eq R, R.hW1, R.hb1, ← EReal.coe_mul, ← coe_sum, ← EReal.coe_add]

theorem kPart_eq (t : Fin 25) (g : Fin 64) (n : Fin 10000) :
    kPart I t g n = (partR R.A I.idx t g n : EReal) := by
  unfold kPart partR
  simp only [oh_eq, R.hA, ← EReal.coe_mul, ← coe_sum]

/-- After strip m the accumulator holds the contributions of the strips 0..m. -/
theorem kB_eq (m : ℕ) (hm : m < 25) (g : Fin 64) (n : Fin 10000) :
    kB I m hm g n
      = ((∑ t : Fin 25, if t.val ≤ m then partR R.A I.idx t g n else 0 : ℝ) : EReal) := by
  induction m with
  | zero =>
    show kPart I ⟨0, hm⟩ g n = _
    rw [kPart_eq R]
    refine congrArg Real.toEReal ?_
    have e : ∀ t : Fin 25, (if t.val ≤ 0 then partR R.A I.idx t g n else 0)
        = if t = (⟨0, hm⟩ : Fin 25) then partR R.A I.idx t g n else 0 := fun t =>
      if_congr ⟨fun h => Fin.ext (by show t.val = 0; omega), fun h => by rw [h]⟩ rfl rfl
    rw [Finset.sum_congr rfl (fun t _ => e t), Finset.sum_ite_eq' Finset.univ _,
      if_pos (Finset.mem_univ _)]
  | succ m ih =>
    show kB I m (Nat.lt_of_succ_lt hm) g n + kPart I ⟨m + 1, hm⟩ g n = _
    rw [ih, kPart_eq R, ← EReal.coe_add]
    refine congrArg Real.toEReal ?_
    have e : ∀ t : Fin 25, (if t.val ≤ m + 1 then partR R.A I.idx t g n else 0)
        = (if t.val ≤ m then partR R.A I.idx t g n else 0)
          + (if t = (⟨m + 1, hm⟩ : Fin 25) then partR R.A I.idx t g n else 0) := by
      intro t
      by_cases h1 : t.val ≤ m
      · have h2 : t ≠ (⟨m + 1, hm⟩ : Fin 25) := by
          intro h; rw [h] at h1; exact absurd h1 (by show ¬ m + 1 ≤ m; omega)
        rw [if_pos h1, if_pos (by omega), if_neg h2, add_zero]
      · by_cases h2 : t = (⟨m + 1, hm⟩ : Fin 25)
        · rw [if_neg h1, if_pos h2, if_pos (by rw [h2]), zero_add]
        · have h3 : ¬ t.val ≤ m + 1 := fun h3 => h2 (Fin.ext (by show t.val = m + 1; omega))
          rw [if_neg h1, if_neg h2, if_neg h3, add_zero]
    rw [Finset.sum_congr rfl (fun t _ => e t), Finset.sum_add_distrib,
      Finset.sum_ite_eq' Finset.univ _, if_pos (Finset.mem_univ _)]

/-- All 25 strips together: S A as one sum over the rows. -/
theorem kB24_eq (hm : 24 < 25) (g : Fin 64) (n : Fin 10000) :
    kB I 24 hm g n = (bR R.A I.idx g n : EReal) := by
  rw [kB_eq R 24 hm g n]
  refine congrArg Real.toEReal ?_
  have e : ∀ t : Fin 25, (if t.val ≤ 24 then partR R.A I.idx t g n else 0)
      = partR R.A I.idx t g n := fun t => if_pos (by have := t.isLt; omega)
  rw [Finset.sum_congr rfl (fun t _ => e t)]
  exact sum_rows (fun r => ohr g (I.idx r) * R.A r n)

theorem kSeg_real (g : Fin 64) (f : Fin 128) :
    kSeg I g f = (segR R.A R.x I.idx R.W1 R.b1 R.W2 R.b2 g f : EReal) := by
  unfold kSeg segR
  simp only [kB24_eq R, oh_eq, kZ_eq R, R.hW2, R.hb2, ← EReal.coe_add, ← EReal.coe_mul, ← coe_sum]

theorem rX3_eq (r : Fin 10000) (f : Fin 128) :
    rX3 I r f = (x3R R.A R.x R.W1 R.b1 R.W2 R.b2 r f : EReal) := by
  unfold rX3 rX2 rAt x3R
  simp only [R.hA, rZ_eq R, R.hW2, R.hb2, coe_ite01, ← EReal.coe_add, ← EReal.coe_mul, ← coe_sum]

/-- The textbook pooling keeps row n exactly when the one-hot entry of n is 1. -/
theorem rSeg_eq (g : Fin 64) (f : Fin 128) :
    rSeg I g f
      = ((∑ n : Fin 10000, ohr g (I.idx n) * x3R R.A R.x R.W1 R.b1 R.W2 R.b2 n f : ℝ) : EReal) := by
  unfold rSeg
  rw [coe_sum]
  refine Finset.sum_congr rfl fun n _ => ?_
  rw [rX3_eq R, EReal.coe_mul]
  unfold ohr
  by_cases h : (I.idx n).toInt = (g.val : ℤ)
  · rw [if_pos h, if_pos ((ofNat_eq_iff g _).mpr h), EReal.coe_one, one_mul]
  · rw [if_neg h, if_neg (fun h' => h ((ofNat_eq_iff g _).mp h')), EReal.coe_zero, zero_mul]

end Bridge

/-- The pooled identity in the reals, at the sizes of the network. -/
theorem segR_eq (A : Fin 10000 → Fin 10000 → ℝ) (x : Fin 10000 → Fin 128 → ℝ)
    (idx : Fin 10000 → BitVec 32) (W1 : Fin 128 → Fin 128 → ℝ) (b1 : Fin 128 → ℝ)
    (W2 : Fin 128 → Fin 128 → ℝ) (b2 : Fin 128 → ℝ) (g : Fin 64) (f : Fin 128) :
    segR A x idx W1 b1 W2 b2 g f = ∑ n : Fin 10000, ohr g (idx n) * x3R A x W1 b1 W2 b2 n f := by
  unfold segR x3R bR
  exact pooled_real (fun n => ohr g (idx n)) A (zR A x W1 b1) (fun j => W2 j f) (b2 f)

/-- With every float input real, the pooled second layers of the two arrangements are one real matrix. -/
theorem kSeg_eq_rSeg (I : Cert.Gnn.Inp) (h : I.Finite) :
    ∃ s : Fin 64 → Fin 128 → ℝ, Cert.Gnn.kSeg I = (fun g f => ((s g f : ℝ) : EReal)) ∧
      Cert.Gnn.rSeg I = (fun g f => ((s g f : ℝ) : EReal)) := by
  obtain ⟨xr, hx⟩ := h.x
  obtain ⟨Ar, hA⟩ := h.A
  obtain ⟨W1r, hW1⟩ := h.W1
  obtain ⟨b1r, hb1⟩ := h.b1
  obtain ⟨W2r, hW2⟩ := h.W2
  obtain ⟨b2r, hb2⟩ := h.b2
  have R : Reals I :=
    { A := Ar, x := xr, W1 := W1r, b1 := b1r, W2 := W2r, b2 := b2r
      hA := fun r k => congrFun (congrFun hA r) k
      hx := fun r j => congrFun (congrFun hx r) j
      hW1 := fun j f => congrFun (congrFun hW1 j) f
      hb1 := fun f => congrFun hb1 f
      hW2 := fun j f => congrFun (congrFun hW2 j) f
      hb2 := fun f => congrFun hb2 f }
  refine ⟨segR R.A R.x I.idx R.W1 R.b1 R.W2 R.b2, ?_, ?_⟩
  · funext g f
    exact kSeg_real R g f
  · funext g f
    rw [rSeg_eq R, segR_eq]

end Cert.Gnn

end
-- ==== Proof.Bridge.lean ====
/-
  The two arrangements give one result wherever every float input is finite: the pooled second layer is the same
  real array either way (sum pooling is linear), and on a real pooled layer the two normalisations agree
  (x * rsqrt v against x / sqrt v at a positive finite v); the tail is the same function of the normalised layer.
-/
import proofs.«148953_g38087769981371_fold_wed_m_124_15_alg».proof.Proof.Spec
import proofs.«148953_g38087769981371_fold_wed_m_124_15_alg».proof.Proof.BridgeSeg
import proofs.«148953_g38087769981371_fold_wed_m_124_15_alg».proof.Proof.BridgeNorm

noncomputable section

namespace Cert.Gnn

theorem kOut_eq_rOut (I : Inp) (h : I.Finite) : kOut I = rOut I := by
  obtain ⟨s, hk, hr⟩ := kSeg_eq_rSeg I h
  unfold kOut rOut
  rw [hk, hr, kNorm_eq_rNorm]

end Cert.Gnn

end
-- ==== Proof.FiniteIn.lean ====
/-
  The printed precondition "every float input is finite", read back at the ideal instance, where a float is an
  extended real: each of the twelve float arrays passes |x| < +∞ at every entry, and an extended real whose
  absolute value max x (-x) lies below +∞ is neither infinity, hence a real number. The integer array of graph
  ids is not constrained by the predicate and plays no part here.
-/
import proofs.«148953_g38087769981371_fold_wed_m_124_15_alg».proof.Pre_finite_inputs
import proofs.«148953_g38087769981371_fold_wed_m_124_15_alg».proof.Proof.Gen.Pre_finite_inputs
import proofs.«148953_g38087769981371_fold_wed_m_124_15_alg».proof.Proof.SpecK
import Idealize.ShloMosaic.Lib.ReduceAll
import Idealize.ShloMosaic.Lib.ValueIdx
import Idealize.ShloMosaic.PureOps.Ideal.Laws

namespace Cert.Pre_finite_inputs.Hand

open Cert.Pre_finite_inputs Idealize.ShloMosaic
open Idealize.ShloMosaic.ValueIdx

/-- The rank-0 shape has one index. -/
instance : Subsingleton S_.Idx := ⟨fun a b => funext fun d => d.elim0⟩

/-- An extended real whose absolute value max x (-x) is below +∞ is a real: at +∞ and at -∞ that maximum is +∞. -/
theorem real_of_abs_lt_top (x : EReal) (h : max x (-x) < ⊤) : x = ((x.toReal : ℝ) : EReal) := by
  induction x using EReal.rec with
  | bot => simp at h
  | coe r => rfl
  | top => simp at h

/-- The word 0x7F800000 denotes +∞: exponent all ones, significand zero, sign clear. -/
theorem inf_eq_top : Ideal.ofBits .f32 0x7F800000#32 = ⊤ := by simp [Ideal.ofBits, Ideal.ieee]

/-- For an array of any shape: if the conjunction over all entries of |x| < +∞ came out 1, every entry is a real. -/
theorem real_of_all {S : Shape} {axes : List (Fin S.rank)}
    (hb : S_.BroadcastsInDim S (![] : Fin 0 → Fin S.rank)) (hr : S.ReducesTo axes S_) (hu : 0 < S_.numel)
    (a : FVec Ideal S .f32)
    (e : Host.reduce IntOp.andi (cmpf .olt (Host.absf a) (broadcastInDim S ![] hb (constant S_ .f32 0x7F800000#32)))
          (constantI S_ 1 1#1) hr hu ix0 = 1#1) (i : S.Idx) :
    a i = (((a i : EReal).toReal : ℝ) : EReal) := by
  -- the entry's own comparison is 1
  have h1 := Host.reduce_andi_all _ _ hr hu ix0 e i
  apply real_of_abs_lt_top
  -- that comparison is the order's max x (-x) < (what the word denotes)
  have h2 : Ideal.cmp .olt (max (a i : EReal) (-(a i : EReal))) (Ideal.ofBits .f32 0x7F800000#32) = 1#1 := h1
  rw [inf_eq_top] at h2
  unfold Ideal.cmp at h2
  by_contra hn
  simp [hn] at h2

/-- Under the printed predicate every float input is a real number. -/
theorem finite_of_pre (a0 : FVec Ideal S10000x128 .f32) (a1 : FVec Ideal S10000x10000 .f32) (a2 : IVec S10000 32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x64 .f32) (a10 : FVec Ideal S64 .f32) (a11 : FVec Ideal S128 .f32) (a12 : FVec Ideal S128 .f32)
      (h : Cert.Pre_finite_inputs.fn (F := Ideal) a0 a1 a2 a3 a4 a5 a6 a7 a8 a9 a10 a11 a12 = fun _ => 1#1) :
      (Cert.Gnn.inpOf a0 a1 a2 a3 a4 a5 a6 a7 a8 a9 a10 a11 a12).Finite := by
  -- the predicate's one result word, as the conjunction of the twelve reductions
  have h0 := congrFun h ix0
  dsimp only [fn, fn_part1, fn_part2, fn_part3, andi] at h0
  simp only [IntOp.andi_eq_one] at h0
  obtain ⟨⟨⟨⟨⟨⟨⟨⟨⟨⟨⟨e0, e1⟩, e3⟩, e4⟩, e5⟩, e6⟩, e7⟩, e8⟩, e9⟩, e10⟩, e11⟩, e12⟩ := h0
  exact
    { x := ⟨fun r j => (a0 (ix2 r j)).toReal, funext fun r => funext fun j => real_of_all _ _ _ a0 e0 (ix2 r j)⟩
      A := ⟨fun r k => (a1 (ix2 r k)).toReal, funext fun r => funext fun k => real_of_all _ _ _ a1 e1 (ix2 r k)⟩
      W1 := ⟨fun r k => (a3 (ix2 r k)).toReal, funext fun r => funext fun k => real_of_all _ _ _ a3 e3 (ix2 r k)⟩
      b1 := ⟨fun k => (a4 (ix1 k)).toReal, funext fun k => real_of_all _ _ _ a4 e4 (ix1 k)⟩
      W2 := ⟨fun r k => (a5 (ix2 r k)).toReal, funext fun r => funext fun k => real_of_all _ _ _ a5 e5 (ix2 r k)⟩
      b2 := ⟨fun k => (a6 (ix1 k)).toReal, funext fun k => real_of_all _ _ _ a6 e6 (ix1 k)⟩
      W3 := ⟨fun r k => (a7 (ix2 r k)).toReal, funext fun r => funext fun k => real_of_all _ _ _ a7 e7 (ix2 r k)⟩
      b3 := ⟨fun k => (a8 (ix1 k)).toReal, funext fun k => real_of_all _ _ _ a8 e8 (ix1 k)⟩
      W4 := ⟨fun r k => (a9 (ix2 r k)).toReal, funext fun r => funext fun k => real_of_all _ _ _ a9 e9 (ix2 r k)⟩
      b4 := ⟨fun k => (a10 (ix1 k)).toReal, funext fun k => real_of_all _ _ _ a10 e10 (ix1 k)⟩
      gam := ⟨fun k => (a11 (ix1 k)).toReal, funext fun k => real_of_all _ _ _ a11 e11 (ix1 k)⟩
      bet := ⟨fun k => (a12 (ix1 k)).toReal, funext fun k => real_of_all _ _ _ a12 e12 (ix1 k)⟩ }

end Cert.Pre_finite_inputs.Hand
-- ==== Proof.lean ====
/-
  The certificate of a graph-network forward pass computed by a streaming kernel against its textbook reference.

  The kernel makes ONE pass over the dense adjacency A in strips of 400 rows. Per strip it computes the first
  layer z = relu(((A + I) x) W1 + b1) (the identity fused as "+ x", the product A x split as A x_hi + A x_lo with
  x_hi + x_lo = x) and accumulates B = S A, S the 64 x 10000 membership matrix of the nodes' graph ids. A second,
  one-step kernel forms the pooled second layer ((B + S) z) W2 + counts b2, normalises it over the 64 graphs,
  applies a dense layer with relu, projects to the classes and takes a log-softmax. The reference computes
  z the same way from A + I, the second layer ((A + I) z) W2 + b2 on all 10000 nodes, and pools it by a
  scatter-add over the graph ids.

  The three frames: the two kernel programs run their two regions and twelve host operations to the end with the
  arguments unchanged (Proof/K/Run.lean, Proof/KI/Run.lean: the accumulator's block stays in its staging buffer
  over the 25 points); the reference's run is Proof/RI/RefRun.lean. No operation was rewritten by the ideal pass,
  so nothing is to be preserved. The value claim: the kernel's result is the streamed arrangement of
  Proof/Spec.lean (Proof/KI/Arr1.lean), the reference's the textbook arrangement (Proof/RI/RefVal.lean), and the
  two agree at finite inputs (Proof/Bridge.lean), which the precondition gives (Proof/FiniteIn.lean). Sum pooling
  is linear; a node whose id is none of 0..63 is dropped by both sides.
-/
import proofs.«148953_g38087769981371_fold_wed_m_124_15_alg».proof.Defs
import proofs.«148953_g38087769981371_fold_wed_m_124_15_alg».proof.Proof.K.Run
import proofs.«148953_g38087769981371_fold_wed_m_124_15_alg».proof.Proof.KI.Run
import proofs.«148953_g38087769981371_fold_wed_m_124_15_alg».proof.Proof.KI.Arr1
import proofs.«148953_g38087769981371_fold_wed_m_124_15_alg».proof.Proof.RI.RefRun
import proofs.«148953_g38087769981371_fold_wed_m_124_15_alg».proof.Proof.RI.RefVal
import proofs.«148953_g38087769981371_fold_wed_m_124_15_alg».proof.Proof.Bridge
import proofs.«148953_g38087769981371_fold_wed_m_124_15_alg».proof.Proof.FiniteIn
import proofs.«148953_g38087769981371_fold_wed_m_124_15_alg».proof.Proof.Gen.Kernel
import proofs.«148953_g38087769981371_fold_wed_m_124_15_alg».proof.Proof.Gen.KernelIdeal
import proofs.«148953_g38087769981371_fold_wed_m_124_15_alg».proof.Proof.Gen.ReferenceIdeal
import proofs.«148953_g38087769981371_fold_wed_m_124_15_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end at the streamed arrangement's result of the kernel's inputs: the kernel by its frame run read
    at the result's buffer, the reference by its run, the agreement of the arguments, and the bridge at inputs the
    precondition makes finite. -/
theorem algebraic : Cert.algebraic_KernelIdeal_ReferenceIdeal := by
  intro m ρ m' ρ' hpre hagree
  refine ⟨fun c => (fun i => Cert.Gnn.kOut (Cert.KernelIdeal.Hand.inp m c) (i 0) (i 1)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v13 (by decide))).trans (Cert.KernelIdeal.Hand.kernel_value m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c),
      (h c _ (Cert.KernelIdeal.Hand.mem_uc Cert.KernelIdeal.main_arg8 (by decide))).trans (Cert.KernelIdeal.Hand.W4_main_arg8 m ρ c),
      (h c _ (Cert.KernelIdeal.Hand.mem_uc Cert.KernelIdeal.main_arg9 (by decide))).trans (Cert.KernelIdeal.Hand.W4_main_arg9 m ρ c),
      (h c _ (Cert.KernelIdeal.Hand.mem_uc Cert.KernelIdeal.main_arg10 (by decide))).trans (Cert.KernelIdeal.Hand.W4_main_arg10 m ρ c),
      (h c _ (Cert.KernelIdeal.Hand.mem_uc Cert.KernelIdeal.main_arg11 (by decide))).trans (Cert.KernelIdeal.Hand.W4_main_arg11 m ρ c),
      (h c _ (Cert.KernelIdeal.Hand.mem_uc Cert.KernelIdeal.main_arg12 (by decide))).trans (Cert.KernelIdeal.Hand.W4_main_arg12 m ρ c)⟩
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9, e10, e11, e12⟩ := hagree c
    rw [Cert.ReferenceIdeal.Hand.refVal_eq, e0, e1, e2, e3, e4, e5, e6, e7, e8, e9, e10, e11, e12]
    funext i
    exact (congrFun (congrFun (Cert.Gnn.kOut_eq_rOut _ (Cert.Pre_finite_inputs.Hand.finite_of_pre _ _ _ _ _ _ _ _ _ _ _ _ _ (hpre c))) (i 0)) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
